-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S3x4x32x32 : Shape := ⟨4, ![3, 4, 32, 32]⟩
abbrev S3x32 : Shape := ⟨2, ![3, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x4x32x32 : S_.BroadcastsInDim S3x4x32x32 (![] : Fin 0 → Fin S3x4x32x32.rank)
  reducesTo_S3x4x32x32_S_d0_1_2_3 : S3x4x32x32.ReducesTo [0, 1, 2, 3] S_
  bcast_S_S3x32 : S_.BroadcastsInDim S3x32 (![] : Fin 0 → Fin S3x32.rank)
  reducesTo_S3x32_S_d0_1 : S3x32.ReducesTo [0, 1] S_

variable [Facts]

def fn_part1 {F : FTy → Type} [FloatOps F] (main_v13 : IVec S_ 1) (main_v16 : IVec S3x32 1) : IVec S_ 1 :=
  let main_c_5 : IVec S_ 1 := constantI S_ 1 1#1
  let main_v17 : IVec S_ 1 := (fun x v => Host.reduce IntOp.andi x v reducesTo_S3x32_S_d0_1 h_S_) main_v16 main_c_5
  let main_v18 : IVec S_ 1 := andi main_v13 main_v17
  main_v18

def fn {F : FTy → Type} [FloatOps F] (main_arg0 : FVec F S100000x32 .f32) (main_arg1 : IVec S2x1600000 32) (main_arg2 : FVec F S1600000 .f32) (main_arg3 : FVec F S3x4x32x32 .f32) (main_arg4 : FVec F S3x32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x4x32x32 .f32 := Host.absf main_arg3
  let main_cst_2 : FVec F S_ .f32 := constant S_ .f32 0x7F800000#32
  let main_v10 : FVec F S3x4x32x32 .f32 := broadcastInDim S3x4x32x32 ![] bcast_S_S3x4x32x32 main_cst_2
  let main_v11 : IVec S3x4x32x32 1 := cmpf .olt main_v9 main_v10
  let main_c_3 : IVec S_ 1 := constantI S_ 1 1#1
  let main_v12 : IVec S_ 1 := (fun x v => Host.reduce IntOp.andi x v reducesTo_S3x4x32x32_S_d0_1_2_3 h_S_) main_v11 main_c_3
  let main_v13 : IVec S_ 1 := andi main_v8 main_v12
  let main_v14 : FVec F S3x32 .f32 := Host.absf main_arg4
  let main_cst_4 : FVec F S_ .f32 := constant S_ .f32 0x7F800000#32
  let main_v15 : FVec F S3x32 .f32 := broadcastInDim S3x32 ![] bcast_S_S3x32 main_cst_4
  let main_v16 : IVec S3x32 1 := cmpf .olt main_v14 main_v15
  fn_part1 (F := F) main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S3x4x32x32 : Shape := ⟨4, ![3, 4, 32, 32]⟩
abbrev S3x32 : Shape := ⟨2, ![3, 32]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x1x32x32 : Shape := ⟨4, ![1, 1, 32, 32]⟩
abbrev S32x32 : Shape := ⟨2, ![32, 32]⟩
abbrev S2000x32 : Shape := ⟨2, ![2000, 32]⟩
abbrev S1600000x32 : Shape := ⟨2, ![1600000, 32]⟩
abbrev S1x32 : Shape := ⟨2, ![1, 32]⟩
abbrev S32 : Shape := ⟨1, ![32]⟩

abbrev nBuf : Space → Nat
  | .hbm => 237
  | .vmem => 81
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S3x4x32x32, .f32⟩
  | 4 => ⟨S3x32, .f32⟩
  | 5 => ⟨S1x1600000, .i32⟩
  | 6 => ⟨S1600000, .i32⟩
  | 7 => ⟨S1x1600000, .i32⟩
  | 8 => ⟨S1600000, .i32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .i1⟩
  | 16 => ⟨S_, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S1x1x32x32, .f32⟩
  | 49 => ⟨S32x32, .f32⟩
  | 50 => ⟨S100000x32, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x32, .f32⟩
  | 60 => ⟨S1600000x1, .f32⟩
  | 61 => ⟨S1600000x32, .f32⟩
  | 62 => ⟨S1600000x32, .f32⟩
  | 63 => ⟨S_, .f32⟩
  | 64 => ⟨S100000x32, .f32⟩
  | 65 => ⟨S1600000x1, .i32⟩
  | 66 => ⟨S100000x32, .f32⟩
  | 67 => ⟨S1x1x32x32, .f32⟩
  | 68 => ⟨S32x32, .f32⟩
  | 69 => ⟨S100000x32, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x32, .f32⟩
  | 79 => ⟨S1600000x1, .f32⟩
  | 80 => ⟨S1600000x32, .f32⟩
  | 81 => ⟨S1600000x32, .f32⟩
  | 82 => ⟨S_, .f32⟩
  | 83 => ⟨S100000x32, .f32⟩
  | 84 => ⟨S1600000x1, .i32⟩
  | 85 => ⟨S100000x32, .f32⟩
  | 86 => ⟨S1x1x32x32, .f32⟩
  | 87 => ⟨S32x32, .f32⟩
  | 88 => ⟨S100000x32, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x32, .f32⟩
  | 98 => ⟨S1600000x1, .f32⟩
  | 99 => ⟨S1600000x32, .f32⟩
  | 100 => ⟨S1600000x32, .f32⟩
  | 101 => ⟨S_, .f32⟩
  | 102 => ⟨S100000x32, .f32⟩
  | 103 => ⟨S1600000x1, .i32⟩
  | 104 => ⟨S100000x32, .f32⟩
  | 105 => ⟨S1x1x32x32, .f32⟩
  | 106 => ⟨S32x32, .f32⟩
  | 107 => ⟨S1x32, .f32⟩
  | 108 => ⟨S32, .f32⟩
  | 109 => ⟨S1x32, .f32⟩
  | 110 => ⟨S100000x32, .f32⟩
  | 111 => ⟨S1x1x32x32, .f32⟩
  | 112 => ⟨S32x32, .f32⟩
  | 113 => ⟨S100000x32, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x32, .f32⟩
  | 123 => ⟨S1600000x1, .f32⟩
  | 124 => ⟨S1600000x32, .f32⟩
  | 125 => ⟨S1600000x32, .f32⟩
  | 126 => ⟨S_, .f32⟩
  | 127 => ⟨S100000x32, .f32⟩
  | _ => ⟨S100000x32, .f32⟩

abbrev hbmTy0_1 (i : Nat) : BufTy := match i % 128 with
  | 0 => ⟨S1600000x1, .i32⟩
  | 1 => ⟨S100000x32, .f32⟩
  | 2 => ⟨S1x1x32x32, .f32⟩
  | 3 => ⟨S32x32, .f32⟩
  | 4 => ⟨S100000x32, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x32, .f32⟩
  | 14 => ⟨S1600000x1, .f32⟩
  | 15 => ⟨S1600000x32, .f32⟩
  | 16 => ⟨S1600000x32, .f32⟩
  | 17 => ⟨S_, .f32⟩
  | 18 => ⟨S100000x32, .f32⟩
  | 19 => ⟨S1600000x1, .i32⟩
  | 20 => ⟨S100000x32, .f32⟩
  | 21 => ⟨S1x1x32x32, .f32⟩
  | 22 => ⟨S32x32, .f32⟩
  | 23 => ⟨S100000x32, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x32, .f32⟩
  | 33 => ⟨S1600000x1, .f32⟩
  | 34 => ⟨S1600000x32, .f32⟩
  | 35 => ⟨S1600000x32, .f32⟩
  | 36 => ⟨S_, .f32⟩
  | 37 => ⟨S100000x32, .f32⟩
  | 38 => ⟨S1600000x1, .i32⟩
  | 39 => ⟨S100000x32, .f32⟩
  | 40 => ⟨S1x1x32x32, .f32⟩
  | 41 => ⟨S32x32, .f32⟩
  | 42 => ⟨S1x32, .f32⟩
  | 43 => ⟨S32, .f32⟩
  | 44 => ⟨S1x32, .f32⟩
  | 45 => ⟨S100000x32, .f32⟩
  | 46 => ⟨S1x1x32x32, .f32⟩
  | 47 => ⟨S32x32, .f32⟩
  | 48 => ⟨S100000x32, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x32, .f32⟩
  | 58 => ⟨S1600000x1, .f32⟩
  | 59 => ⟨S1600000x32, .f32⟩
  | 60 => ⟨S1600000x32, .f32⟩
  | 61 => ⟨S_, .f32⟩
  | 62 => ⟨S100000x32, .f32⟩
  | 63 => ⟨S1600000x1, .i32⟩
  | 64 => ⟨S100000x32, .f32⟩
  | 65 => ⟨S1x1x32x32, .f32⟩
  | 66 => ⟨S32x32, .f32⟩
  | 67 => ⟨S100000x32, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x32, .f32⟩
  | 77 => ⟨S1600000x1, .f32⟩
  | 78 => ⟨S1600000x32, .f32⟩
  | 79 => ⟨S1600000x32, .f32⟩
  | 80 => ⟨S_, .f32⟩
  | 81 => ⟨S100000x32, .f32⟩
  | 82 => ⟨S1600000x1, .i32⟩
  | 83 => ⟨S100000x32, .f32⟩
  | 84 => ⟨S1x1x32x32, .f32⟩
  | 85 => ⟨S32x32, .f32⟩
  | 86 => ⟨S100000x32, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000x32, .f32⟩
  | 96 => ⟨S1600000x1, .f32⟩
  | 97 => ⟨S1600000x32, .f32⟩
  | 98 => ⟨S1600000x32, .f32⟩
  | 99 => ⟨S_, .f32⟩
  | 100 => ⟨S100000x32, .f32⟩
  | 101 => ⟨S1600000x1, .i32⟩
  | 102 => ⟨S100000x32, .f32⟩
  | 103 => ⟨S1x1x32x32, .f32⟩
  | 104 => ⟨S32x32, .f32⟩
  | 105 => ⟨S1x32, .f32⟩
  | 106 => ⟨S32, .f32⟩
  | 107 => ⟨S1x32, .f32⟩
  | 108 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S2000x32, .f32⟩
  | .local _ .vmem, ⟨1, _⟩ => ⟨S2000x32, .f32⟩
  | .local _ .vmem, ⟨2, _⟩ => ⟨S32x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S32x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x32, .f32⟩
  | .local _ .vmem, ⟨14, _⟩ => ⟨S32x32, .f32⟩
  | .local _ .vmem, ⟨15, _⟩ => ⟨S2000x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S32x32, .f32⟩
  | .local _ .vmem, ⟨22, _⟩ => ⟨S1x32, .f32⟩
  | .local _ .vmem, ⟨23, _⟩ => ⟨S2000x32, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S32x32, .f32⟩
  | .local _ .vmem, ⟨30, _⟩ => ⟨S2000x32, .f32⟩
  | .local _ .vmem, ⟨31, _⟩ => ⟨S2000x32, .f32⟩
  | .local _ .vmem, ⟨32, _⟩ => ⟨S2000x32, .f32⟩
  | .local _ .vmem, ⟨33, _⟩ => ⟨S2000x32, .f32⟩
  | .local _ .vmem, ⟨34, _⟩ => ⟨S32x32, .f32⟩
  | .local _ .vmem, ⟨35, _⟩ => ⟨S2000x32, .f32⟩
  | .local _ .vmem, ⟨36, _⟩ => ⟨S2000x32, .f32⟩
  | .local _ .vmem, ⟨37, _⟩ => ⟨S2000x32, .f32⟩
  | .local _ .vmem, ⟨38, _⟩ => ⟨S2000x32, .f32⟩
  | .local _ .vmem, ⟨39, _⟩ => ⟨S2000x32, .f32⟩
  | .local _ .vmem, ⟨40, _⟩ => ⟨S2000x32, .f32⟩
  | .local _ .vmem, ⟨41, _⟩ => ⟨S32x32, .f32⟩
  | .local _ .vmem, ⟨42, _⟩ => ⟨S2000x32, .f32⟩
  | .local _ .vmem, ⟨43, _⟩ => ⟨S2000x32, .f32⟩
  | .local _ .vmem, ⟨44, _⟩ => ⟨S2000x32, .f32⟩
  | .local _ .vmem, ⟨45, _⟩ => ⟨S2000x32, .f32⟩
  | .local _ .vmem, ⟨46, _⟩ => ⟨S2000x32, .f32⟩
  | .local _ .vmem, ⟨47, _⟩ => ⟨S2000x32, .f32⟩
  | .local _ .vmem, ⟨48, _⟩ => ⟨S32x32, .f32⟩
  | .local _ .vmem, ⟨49, _⟩ => ⟨S1x32, .f32⟩
  | .local _ .vmem, ⟨50, _⟩ => ⟨S2000x32, .f32⟩
  | .local _ .vmem, ⟨51, _⟩ => ⟨S2000x32, .f32⟩
  | .local _ .vmem, ⟨52, _⟩ => ⟨S2000x32, .f32⟩
  | .local _ .vmem, ⟨53, _⟩ => ⟨S2000x32, .f32⟩
  | .local _ .vmem, ⟨54, _⟩ => ⟨S2000x32, .f32⟩
  | .local _ .vmem, ⟨55, _⟩ => ⟨S2000x32, .f32⟩
  | .local _ .vmem, ⟨56, _⟩ => ⟨S32x32, .f32⟩
  | .local _ .vmem, ⟨57, _⟩ => ⟨S2000x32, .f32⟩
  | .local _ .vmem, ⟨58, _⟩ => ⟨S2000x32, .f32⟩
  | .local _ .vmem, ⟨59, _⟩ => ⟨S2000x32, .f32⟩
  | .local _ .vmem, ⟨60, _⟩ => ⟨S2000x32, .f32⟩
  | .local _ .vmem, ⟨61, _⟩ => ⟨S32x32, .f32⟩
  | .local _ .vmem, ⟨62, _⟩ => ⟨S2000x32, .f32⟩
  | .local _ .vmem, ⟨63, _⟩ => ⟨S2000x32, .f32⟩
  | .local _ .vmem, ⟨64, _⟩ => ⟨S2000x32, .f32⟩
  | .local _ .vmem, ⟨65, _⟩ => ⟨S2000x32, .f32⟩
  | .local _ .vmem, ⟨66, _⟩ => ⟨S2000x32, .f32⟩
  | .local _ .vmem, ⟨67, _⟩ => ⟨S2000x32, .f32⟩
  | .local _ .vmem, ⟨68, _⟩ => ⟨S32x32, .f32⟩
  | .local _ .vmem, ⟨69, _⟩ => ⟨S2000x32, .f32⟩
  | .local _ .vmem, ⟨70, _⟩ => ⟨S2000x32, .f32⟩
  | .local _ .vmem, ⟨71, _⟩ => ⟨S2000x32, .f32⟩
  | .local _ .vmem, ⟨72, _⟩ => ⟨S2000x32, .f32⟩
  | .local _ .vmem, ⟨73, _⟩ => ⟨S2000x32, .f32⟩
  | .local _ .vmem, ⟨74, _⟩ => ⟨S2000x32, .f32⟩
  | .local _ .vmem, ⟨75, _⟩ => ⟨S32x32, .f32⟩
  | .local _ .vmem, ⟨76, _⟩ => ⟨S1x32, .f32⟩
  | .local _ .vmem, ⟨77, _⟩ => ⟨S2000x32, .f32⟩
  | .local _ .vmem, ⟨78, _⟩ => ⟨S2000x32, .f32⟩
  | .local _ .vmem, ⟨79, _⟩ => ⟨S2000x32, .f32⟩
  | .local _ .vmem, ⟨80, _⟩ => ⟨S2000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_c_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_16 : Ref sig .tc := ⟨.hbm, 114, rfl⟩
abbrev main_v87 : Ref sig .tc := ⟨.hbm, 115, rfl⟩
abbrev main_v88 : Ref sig .tc := ⟨.hbm, 116, rfl⟩
abbrev main_c_17 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_18 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_c_19 : Ref sig .tc := ⟨.hbm, 133, rfl⟩
abbrev main_v103 : Ref sig .tc := ⟨.hbm, 134, rfl⟩
abbrev main_v104 : Ref sig .tc := ⟨.hbm, 135, rfl⟩
abbrev main_c_20 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_21 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_c_22 : Ref sig .tc := ⟨.hbm, 152, rfl⟩
abbrev main_v119 : Ref sig .tc := ⟨.hbm, 153, rfl⟩
abbrev main_v120 : Ref sig .tc := ⟨.hbm, 154, rfl⟩
abbrev main_c_23 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_cst_24 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_c_25 : Ref sig .tc := ⟨.hbm, 177, rfl⟩
abbrev main_v141 : Ref sig .tc := ⟨.hbm, 178, rfl⟩
abbrev main_v142 : Ref sig .tc := ⟨.hbm, 179, rfl⟩
abbrev main_c_26 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_27 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_c_28 : Ref sig .tc := ⟨.hbm, 196, rfl⟩
abbrev main_v157 : Ref sig .tc := ⟨.hbm, 197, rfl⟩
abbrev main_v158 : Ref sig .tc := ⟨.hbm, 198, rfl⟩
abbrev main_c_29 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_30 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_c_31 : Ref sig .tc := ⟨.hbm, 215, rfl⟩
abbrev main_v173 : Ref sig .tc := ⟨.hbm, 216, rfl⟩
abbrev main_v174 : Ref sig .tc := ⟨.hbm, 217, rfl⟩
abbrev main_c_32 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_cst_33 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_stg4_0 : Ref sig .tc := ⟨.vmem, 25, rfl⟩
abbrev cc3_stg4_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg3_1 : Ref sig .tc := ⟨.vmem, 51, rfl⟩
abbrev cc7_stg4_0 : Ref sig .tc := ⟨.vmem, 52, rfl⟩
abbrev cc7_stg4_1 : Ref sig .tc := ⟨.vmem, 53, rfl⟩
abbrev cc8_stg0_0 : Ref sig .tc := ⟨.vmem, 54, rfl⟩
abbrev cc8_stg0_1 : Ref sig .tc := ⟨.vmem, 55, rfl⟩
abbrev cc8_stg1_0 : Ref sig .tc := ⟨.vmem, 56, rfl⟩
abbrev cc8_stg2_0 : Ref sig .tc := ⟨.vmem, 57, rfl⟩
abbrev cc8_stg2_1 : Ref sig .tc := ⟨.vmem, 58, rfl⟩
abbrev cc9_stg0_0 : Ref sig .tc := ⟨.vmem, 59, rfl⟩
abbrev cc9_stg0_1 : Ref sig .tc := ⟨.vmem, 60, rfl⟩
abbrev cc9_stg1_0 : Ref sig .tc := ⟨.vmem, 61, rfl⟩
abbrev cc9_stg2_0 : Ref sig .tc := ⟨.vmem, 62, rfl⟩
abbrev cc9_stg2_1 : Ref sig .tc := ⟨.vmem, 63, rfl⟩
abbrev cc9_stg3_0 : Ref sig .tc := ⟨.vmem, 64, rfl⟩
abbrev cc9_stg3_1 : Ref sig .tc := ⟨.vmem, 65, rfl⟩
abbrev cc10_stg0_0 : Ref sig .tc := ⟨.vmem, 66, rfl⟩
abbrev cc10_stg0_1 : Ref sig .tc := ⟨.vmem, 67, rfl⟩
abbrev cc10_stg1_0 : Ref sig .tc := ⟨.vmem, 68, rfl⟩
abbrev cc10_stg2_0 : Ref sig .tc := ⟨.vmem, 69, rfl⟩
abbrev cc10_stg2_1 : Ref sig .tc := ⟨.vmem, 70, rfl⟩
abbrev cc10_stg3_0 : Ref sig .tc := ⟨.vmem, 71, rfl⟩
abbrev cc10_stg3_1 : Ref sig .tc := ⟨.vmem, 72, rfl⟩
abbrev cc11_stg0_0 : Ref sig .tc := ⟨.vmem, 73, rfl⟩
abbrev cc11_stg0_1 : Ref sig .tc := ⟨.vmem, 74, rfl⟩
abbrev cc11_stg1_0 : Ref sig .tc := ⟨.vmem, 75, rfl⟩
abbrev cc11_stg2_0 : Ref sig .tc := ⟨.vmem, 76, rfl⟩
abbrev cc11_stg3_0 : Ref sig .tc := ⟨.vmem, 77, rfl⟩
abbrev cc11_stg3_1 : Ref sig .tc := ⟨.vmem, 78, rfl⟩
abbrev cc11_stg4_0 : Ref sig .tc := ⟨.vmem, 79, rfl⟩
abbrev cc11_stg4_1 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc3_sem4_0 : DmaSem sig := 25
abbrev cc3_sem4_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem2_0 : DmaSem sig := 42
abbrev cc6_sem2_1 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem3_0 : DmaSem sig := 50
abbrev cc7_sem3_1 : DmaSem sig := 51
abbrev cc7_sem4_0 : DmaSem sig := 52
abbrev cc7_sem4_1 : DmaSem sig := 53
abbrev cc8_sem0_0 : DmaSem sig := 54
abbrev cc8_sem0_1 : DmaSem sig := 55
abbrev cc8_sem1_0 : DmaSem sig := 56
abbrev cc8_sem2_0 : DmaSem sig := 57
abbrev cc8_sem2_1 : DmaSem sig := 58
abbrev cc9_sem0_0 : DmaSem sig := 59
abbrev cc9_sem0_1 : DmaSem sig := 60
abbrev cc9_sem1_0 : DmaSem sig := 61
abbrev cc9_sem2_0 : DmaSem sig := 62
abbrev cc9_sem2_1 : DmaSem sig := 63
abbrev cc9_sem3_0 : DmaSem sig := 64
abbrev cc9_sem3_1 : DmaSem sig := 65
abbrev cc10_sem0_0 : DmaSem sig := 66
abbrev cc10_sem0_1 : DmaSem sig := 67
abbrev cc10_sem1_0 : DmaSem sig := 68
abbrev cc10_sem2_0 : DmaSem sig := 69
abbrev cc10_sem2_1 : DmaSem sig := 70
abbrev cc10_sem3_0 : DmaSem sig := 71
abbrev cc10_sem3_1 : DmaSem sig := 72
abbrev cc11_sem0_0 : DmaSem sig := 73
abbrev cc11_sem0_1 : DmaSem sig := 74
abbrev cc11_sem1_0 : DmaSem sig := 75
abbrev cc11_sem2_0 : DmaSem sig := 76
abbrev cc11_sem3_0 : DmaSem sig := 77
abbrev cc11_sem3_1 : DmaSem sig := 78
abbrev cc11_sem4_0 : DmaSem sig := 79
abbrev cc11_sem4_1 : DmaSem sig := 80

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2000x32 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S2000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S32x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S2000x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S2000x32 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S2000x32 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S32x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x32 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S2000x32 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x4x32x32_S1x1x32x32_0_0_0_0 : S3x4x32x32.Slices ![0, 0, 0, 0] S1x1x32x32
  shapeCasts_S1x1x32x32_S32x32 : S1x1x32x32.ShapeCasts S32x32
  inb_S2000x32_S2000x32_0_0 : ∀ a, (![0, 0] : Fin 2 → Nat) a + S2000x32.size a ≤ S2000x32.size a
  h_S2000x32 : 0 < S2000x32.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S3x4x32x32_S1x1x32x32_0_1_0_0 : S3x4x32x32.Slices ![0, 1, 0, 0] S1x1x32x32
  shapeCasts_S2000x32_S2000x32 : S2000x32.ShapeCasts S2000x32
  slices_S3x4x32x32_S1x1x32x32_0_2_0_0 : S3x4x32x32.Slices ![0, 2, 0, 0] S1x1x32x32
  slices_S3x4x32x32_S1x1x32x32_0_3_0_0 : S3x4x32x32.Slices ![0, 3, 0, 0] S1x1x32x32
  slices_S3x32_S1x32_0_0 : S3x32.Slices ![0, 0] S1x32
  shapeCasts_S1x32_S32 : S1x32.ShapeCasts S32
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  slices_S3x4x32x32_S1x1x32x32_1_0_0_0 : S3x4x32x32.Slices ![1, 0, 0, 0] S1x1x32x32
  slices_S3x4x32x32_S1x1x32x32_1_1_0_0 : S3x4x32x32.Slices ![1, 1, 0, 0] S1x1x32x32
  slices_S3x4x32x32_S1x1x32x32_1_2_0_0 : S3x4x32x32.Slices ![1, 2, 0, 0] S1x1x32x32
  slices_S3x4x32x32_S1x1x32x32_1_3_0_0 : S3x4x32x32.Slices ![1, 3, 0, 0] S1x1x32x32
  slices_S3x32_S1x32_1_0 : S3x32.Slices ![1, 0] S1x32
  slices_S3x4x32x32_S1x1x32x32_2_0_0_0 : S3x4x32x32.Slices ![2, 0, 0, 0] S1x1x32x32
  slices_S3x4x32x32_S1x1x32x32_2_1_0_0 : S3x4x32x32.Slices ![2, 1, 0, 0] S1x1x32x32
  slices_S3x4x32x32_S1x1x32x32_2_2_0_0 : S3x4x32x32.Slices ![2, 2, 0, 0] S1x1x32x32
  slices_S3x4x32x32_S1x1x32x32_2_3_0_0 : S3x4x32x32.Slices ![2, 3, 0, 0] S1x1x32x32
  slices_S3x32_S1x32_2_0 : S3x32.Slices ![2, 0] S1x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x32_S32x32_S2000x32_1_0_0_1_n_n_wf : DotDims.WF S2000x32 S32x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S100000x32.size a
  hwx1_3 : ∀ i : grid1.Coords, EltTy.bits .f32 = 32 ∨ (Rect.block (s := S100000x32) S2000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S100000x32.size a
  hwx2_3 : ∀ i : grid2.Coords, EltTy.bits .f32 = 32 ∨ (Rect.block (s := S100000x32) S2000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x32.size a ≤ S100000x32.size a
  hwx3_3 : ∀ i : grid3.Coords, EltTy.bits .f32 = 32 ∨ (Rect.block (s := S100000x32) S2000x32.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x32.size a ≤ S100000x32.size a
  hwx3_4 : ∀ i : grid3.Coords, EltTy.bits .f32 = 32 ∨ (Rect.block (s := S100000x32) S2000x32.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x32.size a ≤ S100000x32.size a
  hwx4_2 : ∀ i : grid4.Coords, EltTy.bits .f32 = 32 ∨ (Rect.block (s := S100000x32) S2000x32.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x32.size a ≤ S32x32.size a
  hwx5_1 : ∀ i : grid5.Coords, EltTy.bits .f32 = 32 ∨ (Rect.block (s := S32x32) S32x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x32.size a ≤ S100000x32.size a
  hwx5_2 : ∀ i : grid5.Coords, EltTy.bits .f32 = 32 ∨ (Rect.block (s := S100000x32) S2000x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x32.size a ≤ S100000x32.size a
  hwx5_3 : ∀ i : grid5.Coords, EltTy.bits .f32 = 32 ∨ (Rect.block (s := S100000x32) S2000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S100000x32.size a
  hwx6_0 : ∀ i : grid6.Coords, EltTy.bits .f32 = 32 ∨ (Rect.block (s := S100000x32) S2000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x32.size a ≤ S100000x32.size a
  hwx6_2 : ∀ i : grid6.Coords, EltTy.bits .f32 = 32 ∨ (Rect.block (s := S100000x32) S2000x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x32.size a ≤ S100000x32.size a
  hwx6_3 : ∀ i : grid6.Coords, EltTy.bits .f32 = 32 ∨ (Rect.block (s := S100000x32) S2000x32.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x32.size a ≤ S100000x32.size a
  hwx7_0 : ∀ i : grid7.Coords, EltTy.bits .f32 = 32 ∨ (Rect.block (s := S100000x32) S2000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x32.size a ≤ S32x32.size a
  hwx7_1 : ∀ i : grid7.Coords, EltTy.bits .f32 = 32 ∨ (Rect.block (s := S32x32) S32x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x32.size a ≤ S100000x32.size a
  hwx7_3 : ∀ i : grid7.Coords, EltTy.bits .f32 = 32 ∨ (Rect.block (s := S100000x32) S2000x32.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x32.size a ≤ S100000x32.size a
  hwx7_4 : ∀ i : grid7.Coords, EltTy.bits .f32 = 32 ∨ (Rect.block (s := S100000x32) S2000x32.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x32.size a ≤ S100000x32.size a
  hwx8_0 : ∀ i : grid8.Coords, EltTy.bits .f32 = 32 ∨ (Rect.block (s := S100000x32) S2000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x32.size a ≤ S32x32.size a
  hwx8_1 : ∀ i : grid8.Coords, EltTy.bits .f32 = 32 ∨ (Rect.block (s := S32x32) S32x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x32.size a ≤ S100000x32.size a
  hwx8_2 : ∀ i : grid8.Coords, EltTy.bits .f32 = 32 ∨ (Rect.block (s := S100000x32) S2000x32.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x32.size a ≤ S100000x32.size a
  hwx9_0 : ∀ i : grid9.Coords, EltTy.bits .f32 = 32 ∨ (Rect.block (s := S100000x32) S2000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x32.size a ≤ S32x32.size a
  hwx9_1 : ∀ i : grid9.Coords, EltTy.bits .f32 = 32 ∨ (Rect.block (s := S32x32) S32x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x32.size a ≤ S100000x32.size a
  hwx9_2 : ∀ i : grid9.Coords, EltTy.bits .f32 = 32 ∨ (Rect.block (s := S100000x32) S2000x32.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x32.size a ≤ S100000x32.size a
  hwx9_3 : ∀ i : grid9.Coords, EltTy.bits .f32 = 32 ∨ (Rect.block (s := S100000x32) S2000x32.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x32.size a ≤ S100000x32.size a
  hwx10_0 : ∀ i : grid10.Coords, EltTy.bits .f32 = 32 ∨ (Rect.block (s := S100000x32) S2000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x32.size a ≤ S32x32.size a
  hwx10_1 : ∀ i : grid10.Coords, EltTy.bits .f32 = 32 ∨ (Rect.block (s := S32x32) S32x32.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x32.size a ≤ S100000x32.size a
  hwx10_2 : ∀ i : grid10.Coords, EltTy.bits .f32 = 32 ∨ (Rect.block (s := S100000x32) S2000x32.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S2000x32.size a ≤ S100000x32.size a
  hwx10_3 : ∀ i : grid10.Coords, EltTy.bits .f32 = 32 ∨ (Rect.block (s := S100000x32) S2000x32.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x32.size a ≤ S100000x32.size a
  hwx11_0 : ∀ i : grid11.Coords, EltTy.bits .f32 = 32 ∨ (Rect.block (s := S100000x32) S2000x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S32x32.size a ≤ S32x32.size a
  hwx11_1 : ∀ i : grid11.Coords, EltTy.bits .f32 = 32 ∨ (Rect.block (s := S32x32) S32x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x32.size a ≤ S1x32.size a
  hwx11_2 : ∀ i : grid11.Coords, EltTy.bits .f32 = 32 ∨ (Rect.block (s := S1x32) S1x32.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x32.size a ≤ S100000x32.size a
  hwx11_3 : ∀ i : grid11.Coords, EltTy.bits .f32 = 32 ∨ (Rect.block (s := S100000x32) S2000x32.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2000x32.size a ≤ S100000x32.size a
  hwx11_4 : ∀ i : grid11.Coords, EltTy.bits .f32 = 32 ∨ (Rect.block (s := S100000x32) S2000x32.size (cc11_transform_4 i) (hinb11_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S2000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S2000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S2000x32.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v83) S2000x32.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v83) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v85) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v86) S2000x32.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v99) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S32x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v86) S2000x32.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v102) S2000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v115) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v117) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v102) S2000x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v118) S2000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v131) S2000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v133) S32x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v136) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v118) S2000x32.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v137) S2000x32.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v137) S2000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v139) S32x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v140) S2000x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v153) S2000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v155) S32x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v140) S2000x32.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v156) S2000x32.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v169) S2000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v171) S32x32.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v156) S2000x32.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v172) S2000x32.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v185) S2000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v187) S32x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v190) S1x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v172) S2000x32.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v191) S2000x32.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

class Facts : Prop extends Facts₀ where
  halias1_3 : Pipeline.Aliased win1 2 3
  halias2_3 : Pipeline.Aliased win2 2 3
  halias3_4 : Pipeline.Aliased win3 3 4
  halias5_3 : Pipeline.Aliased win5 2 3
  halias6_3 : Pipeline.Aliased win6 2 3
  halias7_4 : Pipeline.Aliased win7 3 4
  halias9_3 : Pipeline.Aliased win9 2 3
  halias10_3 : Pipeline.Aliased win10 2 3
  halias11_4 : Pipeline.Aliased win11 3 4

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S3x4x32x32 : Shape := ⟨4, ![3, 4, 32, 32]⟩
abbrev S3x32 : Shape := ⟨2, ![3, 32]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1x1x32x32 : Shape := ⟨4, ![1, 1, 32, 32]⟩
abbrev S32x32 : Shape := ⟨2, ![32, 32]⟩
abbrev S1600000x32 : Shape := ⟨2, ![1600000, 32]⟩
abbrev S1x32 : Shape := ⟨2, ![1, 32]⟩
abbrev S32 : Shape := ⟨1, ![32]⟩

abbrev nBuf : Space → Nat
  | .hbm => 261
  | .vmem => 0
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S3x4x32x32, .f32⟩
  | 4 => ⟨S3x32, .f32⟩
  | 5 => ⟨S1x1600000, .i32⟩
  | 6 => ⟨S1600000, .i32⟩
  | 7 => ⟨S1x1600000, .i32⟩
  | 8 => ⟨S1600000, .i32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .i1⟩
  | 16 => ⟨S_, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S1600000, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S1600000, .f32⟩
  | 48 => ⟨S1x1x32x32, .f32⟩
  | 49 => ⟨S32x32, .f32⟩
  | 50 => ⟨S100000x32, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x32, .f32⟩
  | 60 => ⟨S1600000x1, .f32⟩
  | 61 => ⟨S1600000x32, .f32⟩
  | 62 => ⟨S1600000x32, .f32⟩
  | 63 => ⟨S_, .f32⟩
  | 64 => ⟨S100000x32, .f32⟩
  | 65 => ⟨S1600000x1, .i32⟩
  | 66 => ⟨S100000x32, .f32⟩
  | 67 => ⟨S1x1x32x32, .f32⟩
  | 68 => ⟨S32x32, .f32⟩
  | 69 => ⟨S100000x32, .f32⟩
  | 70 => ⟨S100000x32, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x32, .f32⟩
  | 80 => ⟨S1600000x1, .f32⟩
  | 81 => ⟨S1600000x32, .f32⟩
  | 82 => ⟨S1600000x32, .f32⟩
  | 83 => ⟨S_, .f32⟩
  | 84 => ⟨S100000x32, .f32⟩
  | 85 => ⟨S1600000x1, .i32⟩
  | 86 => ⟨S100000x32, .f32⟩
  | 87 => ⟨S1x1x32x32, .f32⟩
  | 88 => ⟨S32x32, .f32⟩
  | 89 => ⟨S100000x32, .f32⟩
  | 90 => ⟨S100000x32, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x32, .f32⟩
  | 100 => ⟨S1600000x1, .f32⟩
  | 101 => ⟨S1600000x32, .f32⟩
  | 102 => ⟨S1600000x32, .f32⟩
  | 103 => ⟨S_, .f32⟩
  | 104 => ⟨S100000x32, .f32⟩
  | 105 => ⟨S1600000x1, .i32⟩
  | 106 => ⟨S100000x32, .f32⟩
  | 107 => ⟨S1x1x32x32, .f32⟩
  | 108 => ⟨S32x32, .f32⟩
  | 109 => ⟨S100000x32, .f32⟩
  | 110 => ⟨S100000x32, .f32⟩
  | 111 => ⟨S1x32, .f32⟩
  | 112 => ⟨S32, .f32⟩
  | 113 => ⟨S1x32, .f32⟩
  | 114 => ⟨S100000x32, .f32⟩
  | 115 => ⟨S100000x32, .f32⟩
  | 116 => ⟨S_, .f32⟩
  | 117 => ⟨S100000x32, .f32⟩
  | 118 => ⟨S100000x32, .f32⟩
  | 119 => ⟨S1x1x32x32, .f32⟩
  | 120 => ⟨S32x32, .f32⟩
  | 121 => ⟨S100000x32, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x32, .f32⟩

abbrev hbmTy0_1 (i : Nat) : BufTy := match i % 128 with
  | 0 => ⟨S1600000, .i32⟩
  | 1 => ⟨S1600000x1, .i32⟩
  | 2 => ⟨S1600000x32, .f32⟩
  | 3 => ⟨S1600000x1, .f32⟩
  | 4 => ⟨S1600000x32, .f32⟩
  | 5 => ⟨S1600000x32, .f32⟩
  | 6 => ⟨S_, .f32⟩
  | 7 => ⟨S100000x32, .f32⟩
  | 8 => ⟨S1600000x1, .i32⟩
  | 9 => ⟨S100000x32, .f32⟩
  | 10 => ⟨S1x1x32x32, .f32⟩
  | 11 => ⟨S32x32, .f32⟩
  | 12 => ⟨S100000x32, .f32⟩
  | 13 => ⟨S100000x32, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x32, .f32⟩
  | 23 => ⟨S1600000x1, .f32⟩
  | 24 => ⟨S1600000x32, .f32⟩
  | 25 => ⟨S1600000x32, .f32⟩
  | 26 => ⟨S_, .f32⟩
  | 27 => ⟨S100000x32, .f32⟩
  | 28 => ⟨S1600000x1, .i32⟩
  | 29 => ⟨S100000x32, .f32⟩
  | 30 => ⟨S1x1x32x32, .f32⟩
  | 31 => ⟨S32x32, .f32⟩
  | 32 => ⟨S100000x32, .f32⟩
  | 33 => ⟨S100000x32, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x32, .f32⟩
  | 43 => ⟨S1600000x1, .f32⟩
  | 44 => ⟨S1600000x32, .f32⟩
  | 45 => ⟨S1600000x32, .f32⟩
  | 46 => ⟨S_, .f32⟩
  | 47 => ⟨S100000x32, .f32⟩
  | 48 => ⟨S1600000x1, .i32⟩
  | 49 => ⟨S100000x32, .f32⟩
  | 50 => ⟨S1x1x32x32, .f32⟩
  | 51 => ⟨S32x32, .f32⟩
  | 52 => ⟨S100000x32, .f32⟩
  | 53 => ⟨S100000x32, .f32⟩
  | 54 => ⟨S1x32, .f32⟩
  | 55 => ⟨S32, .f32⟩
  | 56 => ⟨S1x32, .f32⟩
  | 57 => ⟨S100000x32, .f32⟩
  | 58 => ⟨S100000x32, .f32⟩
  | 59 => ⟨S_, .f32⟩
  | 60 => ⟨S100000x32, .f32⟩
  | 61 => ⟨S100000x32, .f32⟩
  | 62 => ⟨S1x1x32x32, .f32⟩
  | 63 => ⟨S32x32, .f32⟩
  | 64 => ⟨S100000x32, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x32, .f32⟩
  | 74 => ⟨S1600000x1, .f32⟩
  | 75 => ⟨S1600000x32, .f32⟩
  | 76 => ⟨S1600000x32, .f32⟩
  | 77 => ⟨S_, .f32⟩
  | 78 => ⟨S100000x32, .f32⟩
  | 79 => ⟨S1600000x1, .i32⟩
  | 80 => ⟨S100000x32, .f32⟩
  | 81 => ⟨S1x1x32x32, .f32⟩
  | 82 => ⟨S32x32, .f32⟩
  | 83 => ⟨S100000x32, .f32⟩
  | 84 => ⟨S100000x32, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x32, .f32⟩
  | 94 => ⟨S1600000x1, .f32⟩
  | 95 => ⟨S1600000x32, .f32⟩
  | 96 => ⟨S1600000x32, .f32⟩
  | 97 => ⟨S_, .f32⟩
  | 98 => ⟨S100000x32, .f32⟩
  | 99 => ⟨S1600000x1, .i32⟩
  | 100 => ⟨S100000x32, .f32⟩
  | 101 => ⟨S1x1x32x32, .f32⟩
  | 102 => ⟨S32x32, .f32⟩
  | 103 => ⟨S100000x32, .f32⟩
  | 104 => ⟨S100000x32, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x32, .f32⟩
  | 114 => ⟨S1600000x1, .f32⟩
  | 115 => ⟨S1600000x32, .f32⟩
  | 116 => ⟨S1600000x32, .f32⟩
  | 117 => ⟨S_, .f32⟩
  | 118 => ⟨S100000x32, .f32⟩
  | 119 => ⟨S1600000x1, .i32⟩
  | 120 => ⟨S100000x32, .f32⟩
  | 121 => ⟨S1x1x32x32, .f32⟩
  | 122 => ⟨S32x32, .f32⟩
  | 123 => ⟨S100000x32, .f32⟩
  | 124 => ⟨S100000x32, .f32⟩
  | 125 => ⟨S1x32, .f32⟩
  | 126 => ⟨S32, .f32⟩
  | 127 => ⟨S1x32, .f32⟩
  | _ => ⟨S100000x32, .f32⟩

abbrev hbmTy0_2 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_13 : Ref sig .tc := ⟨.hbm, 91, rfl⟩
abbrev main_v67 : Ref sig .tc := ⟨.hbm, 92, rfl⟩
abbrev main_v68 : Ref sig .tc := ⟨.hbm, 93, rfl⟩
abbrev main_c_14 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_call2_cst : Ref sig .tc := ⟨.hbm, 116, rfl⟩
abbrev main_call2_v0 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_16 : Ref sig .tc := ⟨.hbm, 122, rfl⟩
abbrev main_v93 : Ref sig .tc := ⟨.hbm, 123, rfl⟩
abbrev main_v94 : Ref sig .tc := ⟨.hbm, 124, rfl⟩
abbrev main_c_17 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_18 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_c_19 : Ref sig .tc := ⟨.hbm, 142, rfl⟩
abbrev main_v110 : Ref sig .tc := ⟨.hbm, 143, rfl⟩
abbrev main_v111 : Ref sig .tc := ⟨.hbm, 144, rfl⟩
abbrev main_c_20 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_21 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_c_22 : Ref sig .tc := ⟨.hbm, 162, rfl⟩
abbrev main_v127 : Ref sig .tc := ⟨.hbm, 163, rfl⟩
abbrev main_v128 : Ref sig .tc := ⟨.hbm, 164, rfl⟩
abbrev main_c_23 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_cst_24 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_call3_cst : Ref sig .tc := ⟨.hbm, 187, rfl⟩
abbrev main_call3_v0 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_c_25 : Ref sig .tc := ⟨.hbm, 193, rfl⟩
abbrev main_v153 : Ref sig .tc := ⟨.hbm, 194, rfl⟩
abbrev main_v154 : Ref sig .tc := ⟨.hbm, 195, rfl⟩
abbrev main_c_26 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_27 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_c_28 : Ref sig .tc := ⟨.hbm, 213, rfl⟩
abbrev main_v170 : Ref sig .tc := ⟨.hbm, 214, rfl⟩
abbrev main_v171 : Ref sig .tc := ⟨.hbm, 215, rfl⟩
abbrev main_c_29 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_cst_30 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_c_31 : Ref sig .tc := ⟨.hbm, 233, rfl⟩
abbrev main_v187 : Ref sig .tc := ⟨.hbm, 234, rfl⟩
abbrev main_v188 : Ref sig .tc := ⟨.hbm, 235, rfl⟩
abbrev main_c_32 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_cst_33 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_call4_cst : Ref sig .tc := ⟨.hbm, 258, rfl⟩
abbrev main_call4_v0 : Ref sig .tc := ⟨.hbm, 259, rfl⟩
abbrev main_v209 : Ref sig .tc := ⟨.hbm, 260, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x4x32x32_S1x1x32x32_0_0_0_0 : S3x4x32x32.Slices ![0, 0, 0, 0] S1x1x32x32
  shapeCasts_S1x1x32x32_S32x32 : S1x1x32x32.ShapeCasts S32x32
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  slices_S3x4x32x32_S1x1x32x32_0_1_0_0 : S3x4x32x32.Slices ![0, 1, 0, 0] S1x1x32x32
  slices_S3x4x32x32_S1x1x32x32_0_2_0_0 : S3x4x32x32.Slices ![0, 2, 0, 0] S1x1x32x32
  slices_S3x4x32x32_S1x1x32x32_0_3_0_0 : S3x4x32x32.Slices ![0, 3, 0, 0] S1x1x32x32
  slices_S3x32_S1x32_0_0 : S3x32.Slices ![0, 0] S1x32
  shapeCasts_S1x32_S32 : S1x32.ShapeCasts S32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S3x4x32x32_S1x1x32x32_1_0_0_0 : S3x4x32x32.Slices ![1, 0, 0, 0] S1x1x32x32
  slices_S3x4x32x32_S1x1x32x32_1_1_0_0 : S3x4x32x32.Slices ![1, 1, 0, 0] S1x1x32x32
  slices_S3x4x32x32_S1x1x32x32_1_2_0_0 : S3x4x32x32.Slices ![1, 2, 0, 0] S1x1x32x32
  slices_S3x4x32x32_S1x1x32x32_1_3_0_0 : S3x4x32x32.Slices ![1, 3, 0, 0] S1x1x32x32
  slices_S3x32_S1x32_1_0 : S3x32.Slices ![1, 0] S1x32
  slices_S3x4x32x32_S1x1x32x32_2_0_0_0 : S3x4x32x32.Slices ![2, 0, 0, 0] S1x1x32x32
  slices_S3x4x32x32_S1x1x32x32_2_1_0_0 : S3x4x32x32.Slices ![2, 1, 0, 0] S1x1x32x32
  slices_S3x4x32x32_S1x1x32x32_2_2_0_0 : S3x4x32x32.Slices ![2, 2, 0, 0] S1x1x32x32
  slices_S3x4x32x32_S1x1x32x32_2_3_0_0 : S3x4x32x32.Slices ![2, 3, 0, 0] S1x1x32x32
  slices_S3x32_S1x32_2_0 : S3x32.Slices ![2, 0] S1x32
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.LibSsa.lean ====
/-
  Straight-line host programs read in single-assignment form.

  A host program is a list of operations, each of which overwrites one buffer with a function of the contents of
  other buffers; `after ops V` is the fold of those overwrites over starting contents `V`. When every buffer is
  written at most once, and only after the last time an earlier operation has read or written it, the final contents
  satisfy one EQUATION per operation: the buffer an operation writes ends at the operation's function of the FINAL
  contents of the buffers it reads. The lemmas below prove that equation for each kind of operation from two facts
  about the list that are decided by inspection of the buffers' names: the buffer written at position `k` is not
  written again later, and the buffers read at position `k` are not written at position `k` or later.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- Running two lines one after the other folds the second over what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `W` names, operation by operation, the one buffer each operation of the line writes. -/
def WritesOnly : List (HloOp τ sig Val) → List (Ref sig .tc) → Prop
  | [], [] => True
  | op :: ops, w :: W => op.writes = {Proc.devRef .tc w} ∧ WritesOnly ops W
  | [], _ :: _ => False
  | _ :: _, [] => False

theorem WritesOnly.drop : ∀ (k : Nat) (ops : List (HloOp τ sig Val)) (W : List (Ref sig .tc)),
    WritesOnly ops W → WritesOnly (ops.drop k) (W.drop k)
  | 0, _, _, h => h
  | _ + 1, [], [], _ => trivial
  | k + 1, _ :: ops, _ :: W, h => WritesOnly.drop k ops W h.2
  | _ + 1, [], _ :: _, h => h.elim
  | _ + 1, _ :: _, [], h => h.elim

/-- A buffer whose name is not among the written ones keeps its contents through the line. -/
theorem after_of_not_written : ∀ (ops : List (HloOp τ sig Val)) (W : List (Ref sig .tc)) (V : Valuation τ sig Val)
    (r : Ref sig .tc), WritesOnly ops W → r ∉ W → after ops V (Proc.devRef .tc r) = V (Proc.devRef .tc r)
  | [], [], _, _, _, _ => rfl
  | op :: ops, w :: W, V, r, h, hr => by
    have hrw : r ≠ w := fun e => hr (e ▸ List.mem_cons_self)
    have hrW : r ∉ W := fun e => hr (List.mem_cons_of_mem _ e)
    rw [after_cons, after_of_not_written ops W _ r h.2 hrW, op.result_of_not_mem V]
    rw [h.1, Finset.mem_singleton]
    exact devRef_ne_of_ne hrw
  | [], _ :: _, _, _, h, _ => h.elim
  | _ :: _, [], _, _, h, _ => h.elim

variable (ops : List (HloOp τ sig Val)) (W : List (Ref sig .tc)) (hW : WritesOnly ops W) (V : Valuation τ sig Val)
include hW

/-- The buffer written at position `k` and never again ends at that operation's result over the contents the
    first `k` operations leave. -/
theorem after_at (k : Nat) (op : HloOp τ sig Val) (y : Ref sig .tc)
    (hop : ops.drop k = op :: ops.drop (k + 1)) (hy : y ∉ W.drop (k + 1)) :
    after ops V (Proc.devRef .tc y) = op.result (after (ops.take k) V) (Proc.devRef .tc y) := by
  conv_lhs => rw [← List.take_append_drop k ops, after_append, hop, after_cons]
  exact after_of_not_written _ _ _ y (hW.drop (k + 1)) hy

/-- A buffer not written at position `k` or later already has its final contents after the first `k` operations. -/
theorem after_take (k : Nat) (x : Ref sig .tc) (hx : x ∉ W.drop k) :
    after (ops.take k) V (Proc.devRef .tc x) = after ops V (Proc.devRef .tc x) := by
  conv_rhs => rw [← List.take_append_drop k ops, after_append]
  exact (after_of_not_written _ _ _ x (hW.drop k) hx).symm

/-- A buffer no operation writes keeps its starting contents. -/
theorem after_arg (x : Ref sig .tc) (hx : x ∉ W) : after ops V (Proc.devRef .tc x) = V (Proc.devRef .tc x) :=
  after_of_not_written ops W V x hW hx

theorem ssa_nullary (k : Nat) (y : Ref sig .tc) (v : y.ty.Contents Val) (hy)
    (hop : ops.drop k = nullary y v hy :: ops.drop (k + 1)) (hy' : y ∉ W.drop (k + 1)) :
    after ops V (Proc.devRef .tc y) = v := by
  rw [after_at ops W hW V k _ y hop hy']; exact nullary_result y v hy _

theorem ssa_unary (k : Nat) (x y : Ref sig .tc) (f : x.ty.Contents Val → y.ty.Contents Val) (hx hy)
    (hop : ops.drop k = unary x y f hx hy :: ops.drop (k + 1)) (hy' : y ∉ W.drop (k + 1)) (hx' : x ∉ W.drop k) :
    after ops V (Proc.devRef .tc y) = f (after ops V (Proc.devRef .tc x)) := by
  rw [after_at ops W hW V k _ y hop hy', ← after_take ops W hW V k x hx']; exact unary_result x y f hx hy _

theorem ssa_binary (k : Nat) (a b y : Ref sig .tc) (f : a.ty.Contents Val → b.ty.Contents Val → y.ty.Contents Val) (ha hb hy)
    (hop : ops.drop k = binary a b y f ha hb hy :: ops.drop (k + 1)) (hy' : y ∉ W.drop (k + 1))
    (ha' : a ∉ W.drop k) (hb' : b ∉ W.drop k) :
    after ops V (Proc.devRef .tc y) = f (after ops V (Proc.devRef .tc a)) (after ops V (Proc.devRef .tc b)) := by
  rw [after_at ops W hW V k _ y hop hy', ← after_take ops W hW V k a ha', ← after_take ops W hW V k b hb']
  exact binary_result a b y f ha hb hy _

theorem ssa_ternary (k : Nat) (c a b y : Ref sig .tc)
    (f : c.ty.Contents Val → a.ty.Contents Val → b.ty.Contents Val → y.ty.Contents Val) (hc ha hb hy)
    (hop : ops.drop k = ternary c a b y f hc ha hb hy :: ops.drop (k + 1)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [after_at ops W hW V k _ y hop hy', ← after_take ops W hW V k c hc', ← after_take ops W hW V k a ha',
    ← after_take ops W hW V k b hb']
  exact ternary_result c a b y f hc ha hb hy _

theorem ssa_reshape (k : Nat) (x y : Ref sig .tc) (he : x.ty.elt = y.ty.elt) (hn : x.ty.shape.ShapeCasts y.ty.shape) (hx hy)
    (hop : ops.drop k = reshape (Val := Val) x y he hn hx hy :: ops.drop (k + 1)) (hy' : y ∉ W.drop (k + 1))
    (hx' : x ∉ W.drop k) :
    after ops V (Proc.devRef .tc y) = fun i => he ▸ shapeCast y.ty.shape (after ops V (Proc.devRef .tc x)) hn i := by
  rw [after_at ops W hW V k _ y hop hy', ← after_take ops W hW V k x hx']; exact reshape_result x y he hn hx hy _

theorem ssa_nary (k : Nat) {n : Nat} (xs : Fin n → Ref sig .tc) (y : Ref sig .tc)
    (f : ((j : Fin n) → (xs j).ty.Contents Val) → y.ty.Contents Val) (hxs hy)
    (hop : ops.drop k = nary xs y f hxs hy :: ops.drop (k + 1)) (hy' : y ∉ W.drop (k + 1))
    (hxs' : ∀ j, xs j ∉ W.drop k) :
    after ops V (Proc.devRef .tc y) = f (fun j => after ops V (Proc.devRef .tc (xs j))) := by
  rw [after_at ops W hW V k _ y hop hy', nary_result]
  exact congrArg f (funext fun j => after_take ops W hW V k (xs j) (hxs' j))

end Idealize.ShloMosaic.StableHlo.Ssa

end
-- ==== Proof.LibSsaWin.lean ====
/-
  Windows of a single-assignment host line.

  When every buffer of a line of host operations is written at most once, a buffer written inside a stretch of the
  line (the operations at positions k, …, k + n − 1) and never after it ends at what that stretch alone computes from
  the contents the first k operations leave. Together with the fact that a buffer not written from position k on
  already has its final contents after the first k operations, this reads any buffer's final contents as a short
  computation over other buffers' FINAL contents, one stretch at a time.
-/
import proofs.«413670_j78391743086995_4_alg».proof.Proof.LibSsa

noncomputable section

namespace Idealize.ShloMosaic.StableHlo.Ssa

open Idealize.ShloMosaic Idealize.ShloMosaic.StableHlo

variable {τ : Topo} {sig : RefSig} {Val : EltTy → Type}

theorem WritesOnly.take : ∀ (k : Nat) (ops : List (HloOp τ sig Val)) (W : List (Ref sig .tc)),
    WritesOnly ops W → WritesOnly (ops.take k) (W.take k)
  | 0, _, _, _ => by simp only [List.take_zero]; trivial
  | _ + 1, [], [], _ => trivial
  | k + 1, _ :: ops, _ :: W, h => ⟨h.1, WritesOnly.take k ops W h.2⟩
  | _ + 1, [], _ :: _, h => h.elim
  | _ + 1, _ :: _, [], h => h.elim

theorem WritesOnly.nil : WritesOnly ([] : List (HloOp τ sig Val)) [] := trivial

theorem WritesOnly.cons {op : HloOp τ sig Val} {ops : List (HloOp τ sig Val)} {w : Ref sig .tc} {W : List (Ref sig .tc)}
    (h : op.writes = {Proc.devRef .tc w}) (hs : WritesOnly ops W) : WritesOnly (op :: ops) (w :: W) := ⟨h, hs⟩

/-- One operation run alone leaves its result. -/
theorem after_single (op : HloOp τ sig Val) (V : Valuation τ sig Val) : after [op] V = op.result V := rfl

/-- The buffer `y`, written inside the stretch of `n` operations starting at position `k` or not at all, and not
    written after that stretch, ends at what the stretch alone leaves in it from the contents after the first `k`
    operations. -/
theorem after_window (ops : List (HloOp τ sig Val)) (W : List (Ref sig .tc)) (hW : WritesOnly ops W)
    (V : Valuation τ sig Val) (k n : Nat) (y : Ref sig .tc) (hy : y ∉ W.drop (k + n)) :
    after ops V (Proc.devRef .tc y) = after ((ops.drop k).take n) (after (ops.take k) V) (Proc.devRef .tc y) := by
  have e : ops = ops.take k ++ ((ops.drop k).take n ++ ops.drop (k + n)) := by
    conv_lhs => rw [← List.take_append_drop k ops, ← List.take_append_drop n (ops.drop k)]
    rw [List.drop_drop]
  conv_lhs => rw [e, after_append, after_append]
  have h2 : WritesOnly (ops.drop (k + n)) (W.drop (k + n)) := hW.drop (k + n)
  exact after_of_not_written _ _ _ y h2 hy

end Idealize.ShloMosaic.StableHlo.Ssa

end
-- ==== Proof.KernelWrites.lean ====
/- The buffers the kernel program's host operations and regions write, each region counted as the one operation that rewrites its result buffer, in program order: position k holds the buffer that operation k writes. -/
import proofs.«413670_j78391743086995_4_alg».proof.KernelIdeal

namespace Cert.KernelIdeal.Fold

open Idealize.ShloMosaic Cert.KernelIdeal

noncomputable def written : List (Ref sig .tc) :=
  [
    main_v0, main_v1, main_v2, main_v3, main_cst, main_v4, main_v5, main_v6,
    main_cst_0, main_v7, main_v8, main_cst_1, main_call0_v0, main_call0_v1, main_v9, main_cst_2,
    main_v10, main_v11, main_v12, main_cst_3, main_call1_v0, main_call1_v1, main_v13, main_c,
    main_v14, main_v15, main_c_4, main_v16, main_v17, main_v18, main_v19, main_v20,
    main_v21, main_c_5, main_v22, main_v23, main_c_6, main_v24, main_v25, main_v26,
    main_v27, main_v28, main_v29, main_v30, main_v31, main_v32, main_c_7, main_v33,
    main_v34, main_c_8, main_v35, main_v36, main_v37, main_v38, main_v39, main_v40,
    main_v41, main_v42, main_cst_9, main_v43, main_v44, main_v45, main_v46, main_v47,
    main_v48, main_v48, main_c_10, main_v49, main_v50, main_c_11, main_v51, main_v52,
    main_v53, main_v54, main_v55, main_v56, main_v57, main_v58, main_cst_12, main_v59,
    main_v60, main_v61, main_v62, main_v63, main_v64, main_v64, main_c_13, main_v65,
    main_v66, main_c_14, main_v67, main_v68, main_v69, main_v70, main_v71, main_v72,
    main_v73, main_v74, main_cst_15, main_v75, main_v76, main_v77, main_v78, main_v79,
    main_v80, main_v81, main_v82, main_v83, main_v83, main_v84, main_v85, main_v86,
    main_c_16, main_v87, main_v88, main_c_17, main_v89, main_v90, main_v91, main_v92,
    main_v93, main_v94, main_v95, main_v96, main_cst_18, main_v97, main_v98, main_v99,
    main_v100, main_v101, main_v102, main_v102, main_c_19, main_v103, main_v104, main_c_20,
    main_v105, main_v106, main_v107, main_v108, main_v109, main_v110, main_v111, main_v112,
    main_cst_21, main_v113, main_v114, main_v115, main_v116, main_v117, main_v118, main_v118,
    main_c_22, main_v119, main_v120, main_c_23, main_v121, main_v122, main_v123, main_v124,
    main_v125, main_v126, main_v127, main_v128, main_cst_24, main_v129, main_v130, main_v131,
    main_v132, main_v133, main_v134, main_v135, main_v136, main_v137, main_v137, main_v138,
    main_v139, main_v140, main_c_25, main_v141, main_v142, main_c_26, main_v143, main_v144,
    main_v145, main_v146, main_v147, main_v148, main_v149, main_v150, main_cst_27, main_v151,
    main_v152, main_v153, main_v154, main_v155, main_v156, main_v156, main_c_28, main_v157,
    main_v158, main_c_29, main_v159, main_v160, main_v161, main_v162, main_v163, main_v164,
    main_v165, main_v166, main_cst_30, main_v167, main_v168, main_v169, main_v170, main_v171,
    main_v172, main_v172, main_c_31, main_v173, main_v174, main_c_32, main_v175, main_v176,
    main_v177, main_v178, main_v179, main_v180, main_v181, main_v182, main_cst_33, main_v183,
    main_v184, main_v185, main_v186, main_v187, main_v188, main_v189, main_v190, main_v191,
    main_v191 ]

end Cert.KernelIdeal.Fold
-- ==== Proof.Spec.lean ====
/-
  The three dense stages of one TAGConv layer, as functions of whole arrays over the extended reals.

  A layer keeps a running output of shape [100000, 32]. It starts as the product of the node features with the first
  weight matrix; each further hop adds the product of that hop's aggregated features with the hop's weight matrix; the
  last hop also adds the bias row to every node and clamps below at zero. A product's entry (i, j) is the sum over the
  32 feature columns k of features (i, k) times weights (k, j).
-/
import Idealize.ShloMosaic.PureOps.Ideal
import Idealize.ShloMosaic.Lib.ValueIdx

noncomputable section

namespace Cert.Spec

open Idealize.ShloMosaic Idealize.ShloMosaic.ValueIdx

/-- Node features and every running output: 100000 nodes by 32 features. -/
abbrev SN : Shape := ⟨2, ![100000, 32]⟩
/-- One hop's weight matrix. -/
abbrev SW : Shape := ⟨2, ![32, 32]⟩
/-- The bias as a single row. -/
abbrev SB : Shape := ⟨2, ![1, 32]⟩

/-- Features times weights: entry (i, j) sums features (i, k) · weights (k, j) over the 32 columns k. -/
def mm (x : FVec Ideal SN .f32) (w : FVec Ideal SW .f32) : FVec Ideal SN .f32 :=
  fun i => ∑ k : Fin 32, x (ix2 (i 0) k) * w (ix2 k (i 1))

/-- A middle hop: the running output plus this hop's product. -/
def linAcc (h : FVec Ideal SN .f32) (w : FVec Ideal SW .f32) (o : FVec Ideal SN .f32) : FVec Ideal SN .f32 :=
  fun i => o i + mm h w i

/-- The last hop: running output plus product plus the bias row, clamped below at zero. -/
def linFin (h : FVec Ideal SN .f32) (w : FVec Ideal SW .f32) (b : FVec Ideal SB .f32) (o : FVec Ideal SN .f32) :
    FVec Ideal SN .f32 :=
  fun i => max ((o i + mm h w i) + b (ix2 0 (i 1))) 0

end Cert.Spec

end
-- ==== Proof.RegionMath.lean ====
/-
  One 2000-row block of a dense stage, read at an index.

  The contraction of a [2000, 32] block of features with a [32, 32] weight matrix has, at entry (p, q), the sum over
  the 32 columns k of features (p, k) times weights (k, q). When the features' block is rows b·2000 … b·2000 + 1999
  of a [100000, 32] array, that sum is the whole-array product's entry at row b·2000 + p.
-/
import proofs.«413670_j78391743086995_4_alg».proof.Proof.Gen.KernelIdeal
import proofs.«413670_j78391743086995_4_alg».proof.Proof.Spec
import Idealize.ShloMosaic.Lib.ValueIdx
import Idealize.ShloMosaic.PureOps.Ideal.Laws
import Idealize.ShloMosaic.Lib.Pipeline.Value

noncomputable section

namespace Cert.KernelIdeal.RegionMath

open Idealize.ShloMosaic Idealize.ShloMosaic.ValueIdx

/-! ## The contraction's operand indices, axis by axis -/

theorem lhs_axis0 (i : S2000x32.Idx) (q : dot_S2000x32_S32x32_S2000x32_1_0_0_1_n_n.contr.Idx) :
    (dot_S2000x32_S32x32_S2000x32_1_0_0_1_n_n.lhsIdx i q 0).val = (i 0).val := by
  unfold DotDims.lhsIdx
  rw [dif_neg (show ¬(0 : Fin S2000x32.rank) ∈ dot_S2000x32_S32x32_S2000x32_1_0_0_1_n_n.lhsBatch by decide), dif_pos (show (0 : Fin S2000x32.rank) ∈ dot_S2000x32_S32x32_S2000x32_1_0_0_1_n_n.lhsNonContracting by decide)]
  rfl
theorem lhs_axis1 (i : S2000x32.Idx) (q : dot_S2000x32_S32x32_S2000x32_1_0_0_1_n_n.contr.Idx) :
    (dot_S2000x32_S32x32_S2000x32_1_0_0_1_n_n.lhsIdx i q 1).val = (q ⟨0, by decide⟩).val :=
  dot_S2000x32_S32x32_S2000x32_1_0_0_1_n_n.lhsIdx_val_of_single rfl i q
theorem rhs_axis0 (i : S2000x32.Idx) (q : dot_S2000x32_S32x32_S2000x32_1_0_0_1_n_n.contr.Idx) :
    (dot_S2000x32_S32x32_S2000x32_1_0_0_1_n_n.rhsIdx i q 0).val = (q ⟨0, by decide⟩).val :=
  dot_S2000x32_S32x32_S2000x32_1_0_0_1_n_n.rhsIdx_val_of_single rfl i q
theorem rhs_axis1 (i : S2000x32.Idx) (q : dot_S2000x32_S32x32_S2000x32_1_0_0_1_n_n.contr.Idx) :
    (dot_S2000x32_S32x32_S2000x32_1_0_0_1_n_n.rhsIdx i q 1).val = (i 1).val := by
  unfold DotDims.rhsIdx
  rw [dif_neg (show ¬(1 : Fin S32x32.rank) ∈ dot_S2000x32_S32x32_S2000x32_1_0_0_1_n_n.rhsBatch by decide), dif_pos (show (1 : Fin S32x32.rank) ∈ dot_S2000x32_S32x32_S2000x32_1_0_0_1_n_n.rhsNonContracting by decide)]
  rfl

/-! ## The block product at an index -/

/-- A block of features times the weights, accumulated into zero: entry (p, q) is the sum over the columns k of
    features (p, k) · weights (k, q). -/
theorem matmul_block_apply (x : FVec Ideal S2000x32 .f32) (w : FVec Ideal S32x32 .f32) (j : S2000x32.Idx) :
    matmul dot_S2000x32_S32x32_S2000x32_1_0_0_1_n_n none x w (constant S2000x32 .f32 0x00000000#32) j
      = ∑ k : Fin 32, x (ix2 (j 0) k) * w (ix2 k (j 1)) := by
  refine (Ideal.matmul_constant_zero_apply dot_S2000x32_S32x32_S2000x32_1_0_0_1_n_n none x w j).trans ?_
  rw [← Equiv.sum_comp (ValueIdx.contrEquiv1 dot_S2000x32_S32x32_S2000x32_1_0_0_1_n_n 32 rfl rfl).symm]
  refine Finset.sum_congr rfl fun k _ => ?_
  have hk := ValueIdx.contrEquiv1_symm_val dot_S2000x32_S32x32_S2000x32_1_0_0_1_n_n 32 rfl rfl k
  have el : dot_S2000x32_S32x32_S2000x32_1_0_0_1_n_n.lhsIdx j ((ValueIdx.contrEquiv1 dot_S2000x32_S32x32_S2000x32_1_0_0_1_n_n 32 rfl rfl).symm k) = ix2 (j 0) k := funext fun a => Fin.ext (by
    match a with
    | ⟨0, _⟩ => exact lhs_axis0 _ _
    | ⟨1, _⟩ => exact (lhs_axis1 _ _).trans hk)
  have er : dot_S2000x32_S32x32_S2000x32_1_0_0_1_n_n.rhsIdx j ((ValueIdx.contrEquiv1 dot_S2000x32_S32x32_S2000x32_1_0_0_1_n_n 32 rfl rfl).symm k) = ix2 k (j 1) := funext fun a => Fin.ext (by
    match a with
    | ⟨0, _⟩ => exact (rhs_axis0 _ _).trans hk
    | ⟨1, _⟩ => exact rhs_axis1 _ _)
  exact congrArg₂ (· * ·) (congrArg x el) (congrArg w er)

/-! ## The bias row spread over a block -/

/-- A [1, 32] row broadcast to [2000, 32] reads, at (p, q), the row's entry q. -/
theorem bias_row_apply (b : FVec Ideal S1x32 .f32) (h : S1x32.Broadcasts S2000x32) (j : S2000x32.Idx) :
    broadcastTo S2000x32 b h j = b (ix2 0 (j 1)) := by
  refine broadcastTo_apply b h j (ix2 0 (j 1)) (fun a => ?_)
  match a with
  | ⟨0, _⟩ => rfl
  | ⟨1, _⟩ => rfl

/-! ## From a block to the whole array -/

/-- When the features' block is rows b·2000 … b·2000 + 1999 of the array `A` and the weights' block is all of `W`,
    the block's sum at (p, q) is the whole-array product at (b·2000 + p, q). -/
theorem block_sum_eq_mm (A : FVec Ideal Cert.Spec.SN .f32) (W : FVec Ideal Cert.Spec.SW .f32) (b : Nat)
    (x : FVec Ideal S2000x32 .f32) (w : FVec Ideal S32x32 .f32)
    (hx : ∀ (p : Fin 2000) (k : Fin 32) (r : Fin 100000), r.val = b * 2000 + p.val → x (ix2 p k) = A (ix2 r k))
    (hw : ∀ k q : Fin 32, w (ix2 k q) = W (ix2 k q))
    (j : S2000x32.Idx) (i : Cert.Spec.SN.Idx) (hi0 : (i 0).val = b * 2000 + (j 0).val) (hi1 : (i 1).val = (j 1).val) :
    ∑ k : Fin 32, x (ix2 (j 0) k) * w (ix2 k (j 1)) = Cert.Spec.mm A W i := by
  unfold Cert.Spec.mm
  refine Finset.sum_congr rfl fun k _ => ?_
  have e1 : (j 1 : Fin 32) = i 1 := Fin.ext hi1.symm
  exact congrArg₂ (· * ·) (hx (j 0) k (i 0) hi0) ((hw k (j 1)).trans (congrArg (fun q : Fin 32 => W (ix2 k q)) e1))

end Cert.KernelIdeal.RegionMath

end
-- ==== Proof.RegionVal0.lean ====
/-
  The first dense stage of a layer, over the whole array.

  The stage runs over 50 blocks of 2000 rows. At block t it reads rows t·2000 … t·2000 + 1999 of the node features
  and the whole weight matrix, and writes the block of the product: entry (p, q) of the block is the sum over the 32
  columns k of features (t·2000 + p, k) times weights (k, q), which is the whole-array product at row t·2000 + p. The
  50 blocks tile the 100000 rows (row r lies in block r / 2000), so the array written is the product.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features' and the output's blocks are block t of the rows, all
    columns; the weights' block is the whole matrix. -/
private theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's result at (p, q): the sum over the columns k of features (p, k) · weights (k, q). -/
private theorem payload_apply (x0 : Vec Ideal S2000x32 .f32) (x1 : Vec Ideal S32x32 .f32) (j : S2000x32.Idx) :
    k0_pay1 x0 x1 j = ∑ k : Fin 32, x0 (ix2 (j 0) k) * x1 (ix2 k (j 1)) := by
  unfold k0_pay1
  simp only [shapeCast_self]
  exact matmul_block_apply x0 x1 j

section
variable (V : (c : Dev nD) → (b : Ref sig .tc) → Buf (Elt Ideal) ((c : Thread nD τ).loc b)) (c : Dev nD)

/-- The features' block at point t is rows t·2000 … of the features. -/
private theorem features_block (t : Fin cfg0.N) (p : Fin 2000) (k : Fin 32) (r : Fin 100000)
    (hr : r.val = t.val * 2000 + p.val) :
    (iblk0 V c 0 t : Vec Ideal S2000x32 .f32) (ix2 p k) = (V c main_arg0 : FVec Ideal Cert.Spec.SN .f32) (ix2 r k) := by
  obtain ⟨e0, e1, -, -, -, -⟩ := block_indices t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 32 + 1 * k.val = k.val; omega

/-- The weights' block at every point is the whole matrix. -/
private theorem weights_block (t : Fin cfg0.N) (k q : Fin 32) :
    (iblk0 V c 1 t : Vec Ideal S32x32 .f32) (ix2 k q) = (V c main_v31 : FVec Ideal Cert.Spec.SW .f32) (ix2 k q) := by
  obtain ⟨-, -, e2, e3, -, -⟩ := block_indices t
  show V c main_v31 (((cfg0.win 1).blk t).view.emb (ix2 k q)) = V c main_v31 (ix2 k q)
  refine congrArg (V c main_v31) (funext fun a => Fin.ext ?_)
  match a with
  | ⟨0, _⟩ => show win0_1.index t (0 : Fin 2) * 32 + 1 * k.val = k.val; omega
  | ⟨1, _⟩ => show win0_1.index t (1 : Fin 2) * 32 + 1 * q.val = q.val; omega

/-- What point t writes back is block t of the product. -/
private theorem flushed_eq (t : Fin cfg0.N) :
    (dat0 (F := Ideal) V c).flushed 2 t
      = ((cfg0.win 2).blk t).view.read (Elt Ideal) (Cert.Spec.mm (V c main_arg0) (V c main_v31)) := by
  show (cfg0.win 2).cut (grid0.coords t) ((dat0 V c).after 2 t) = _
  rw [after0_2]
  unfold out0_2
  rw [View.canon_unit_zero origin_eq]
  simp only [View.ld_unit_zero (S := S2000x32) origin_eq, View.ld_unit_zero (S := S32x32) origin_eq]
  obtain ⟨-, -, -, -, e4, e5⟩ := block_indices t
  funext j
  refine (payload_apply (iblk0 V c 0 t) (iblk0 V c 1 t) _).trans ?_
  refine block_sum_eq_mm (V c main_arg0) (V c main_v31) t.val (iblk0 V c 0 t) (iblk0 V c 1 t)
    (fun p k r hr => features_block V c t p k r hr) (fun k q => weights_block V c t k q) _ _ ?_ ?_
  · show win0_2.index t (0 : Fin 2) * 2000 + 1 * (j 0).val = t.val * 2000 + (j 0).val; omega
  · show win0_2.index t (1 : Fin 2) * 32 + 1 * (j 1).val = (j 1).val; omega

/-- An index of the array is in point t's output block iff each coordinate is in the block's range on its axis. -/
private theorem mem_block (t : Fin cfg0.N) (i : S100000x32.Idx) :
    i ∈ ((cfg0.win 2).blk t).view.set ↔ ∀ a : Fin 2, win0_2.index t a * S2000x32.size a ≤ (i a).val
      ∧ (i a).val < win0_2.index t a * S2000x32.size a + S2000x32.size a := by
  show i ∈ ((View.whole (Pipeline.arrRef spec0 2)).slice (win0_2.rect t)).set ↔ _
  rw [View.set_slice_whole, Rect.mem_set_unit]
  exact Iff.rfl

/-- Row r is in the block of point r / 2000. -/
private theorem rows_covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have ht : (i 0).val / 2000 < cfg0.N := by show (i 0).val / 2000 < 50; omega
  obtain ⟨-, -, -, -, e4, e5⟩ := block_indices ⟨(i 0).val / 2000, ht⟩
  have e4' : win0_2.index ⟨(i 0).val / 2000, ht⟩ (0 : Fin 2) = (i 0).val / 2000 := e4
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    omega
  | ⟨1, _⟩ =>
    show win0_2.index ⟨(i 0).val / 2000, ht⟩ (1 : Fin 2) * 32 ≤ (i 1).val
      ∧ (i 1).val < win0_2.index ⟨(i 0).val / 2000, ht⟩ (1 : Fin 2) * 32 + 32
    omega

/-- The array the stage leaves is the product of the features with the weights. -/
theorem final0 : (dat0 (F := Ideal) V c).arrAt 2 cfg0.N = Cert.Spec.mm (V c main_arg0) (V c main_v31) :=
  (dat0 (F := Ideal) V c).arrAt_eq_of_cover 2 (Cert.Spec.mm (V c main_arg0) (V c main_v31))
    (fun t _ => flushed_eq V c t) (rows_covered)

end

end Cert.KernelIdeal.RegionVal

end
-- ==== Proof.KernelStep0.lean ====
/-
  A region's exit contents are its entry contents with ONE buffer rewritten.
  The first region of a layer leaves every buffer as it found it except its result, which ends at the product of the
  node features with the layer's first weight matrix. So, as far as buffer contents go, the region is one more host
  operation: a two-operand operation writing the result buffer.
-/
import proofs.«413670_j78391743086995_4_alg».proof.Proof.Gen.KernelIdeal.Frame
import proofs.«413670_j78391743086995_4_alg».proof.Proof.Spec
import proofs.«413670_j78391743086995_4_alg».proof.Proof.RegionVal0
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: features times weights. -/
abbrev rop0 : HloOp τ sig (Elt Ideal) :=
  StableHlo.binary main_arg0 main_v31 main_v32
    ((fun x w => Cert.Spec.mm x w) : (⟨S100000x32, .f32⟩ : BufTy).Contents (Elt Ideal) → (⟨S32x32, .f32⟩ : BufTy).Contents (Elt Ideal) → (⟨S100000x32, .f32⟩ : BufTy).Contents (Elt Ideal))

/-- Leaving the region, each input array is as entered, the result array holds the product, and no other buffer was
    touched: the contents after the region are the operation's result over the contents before it. -/
theorem W6_eq (c : Dev nD) : W6 m ρ c = (rop0).result (W5 m ρ c) := by
  funext b
  by_cases h : ∃ w, Proc.devRef .tc (Pipeline.arrRef spec0 w) = b
  · obtain ⟨w, rfl⟩ := h
    rw [W6_arr m ρ c w]
    match w with
    | ⟨0, _⟩ =>
      rw [HloOp.result_of_not_mem _ _ (by rw [binary_writes, Finset.mem_singleton]; exact devRef_ne_of_ne (show Pipeline.arrRef spec0 (0 : Fin cfg0.W) ≠ main_v32 by decide))]
      exact ((dat0 (V5 m ρ) c).arrAt_in 0 rfl _).trans (A_eq0 (V5 m ρ) c 0)
    | ⟨1, _⟩ =>
      rw [HloOp.result_of_not_mem _ _ (by rw [binary_writes, Finset.mem_singleton]; exact devRef_ne_of_ne (show Pipeline.arrRef spec0 (1 : Fin cfg0.W) ≠ main_v32 by decide))]
      exact ((dat0 (V5 m ρ) c).arrAt_in 1 rfl _).trans (A_eq0 (V5 m ρ) c 1)
    | ⟨2, _⟩ =>
      exact (Cert.KernelIdeal.RegionVal.final0 (V5 m ρ) c).trans (binary_result main_arg0 main_v31 main_v32 _ _ _ _ (W5 m ρ c)).symm
  · rw [HloOp.result_of_not_mem _ _ (by
      rw [binary_writes, Finset.mem_singleton]
      exact fun e => h ⟨2, e.symm⟩)]
    unfold W6 Pipeline.withArrays
    rw [dif_neg h]

end Cert.KernelIdeal.Fold

end
-- ==== Proof.RegionVal1.lean ====
/-
  A middle dense stage of a layer, over the whole array.

  The stage runs over 50 blocks of 2000 rows. At block t it reads rows t·2000 … t·2000 + 1999 of the hop's aggregated
  features and of the running output, and the whole weight matrix, and writes the block of the new running output:
  entry (p, q) of the block is the running output at (t·2000 + p, q) plus the sum over the 32 columns k of
  features (t·2000 + p, k) times weights (k, q). The 50 blocks tile the 100000 rows (row r lies in block r / 2000), so
  the array written is the running output plus the product.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features', the running output's and the new output's blocks are
    block t of the rows, all columns; the weights' block is the whole matrix. -/
private theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The body's result at (p, q): the running output there plus the sum over the columns k of
    features (p, k) · weights (k, q). -/
private theorem payload_apply (o : Vec Ideal S2000x32 .f32) (x0 : Vec Ideal S2000x32 .f32) (x1 : Vec Ideal S32x32 .f32)
    (j : S2000x32.Idx) :
    k1_pay1 o x0 x1 j = o j + ∑ k : Fin 32, x0 (ix2 (j 0) k) * x1 (ix2 k (j 1)) := by
  unfold k1_pay1
  simp only [shapeCast_self]
  exact (addf_apply _ _ j).trans (congrArg (o j + ·) (matmul_block_apply x0 x1 j))

section
variable (V : (c : Dev nD) → (b : Ref sig .tc) → Buf (Elt Ideal) ((c : Thread nD τ).loc b)) (c : Dev nD)

/-- The features' block at point t is rows t·2000 … of the features. -/
private theorem features_block (t : Fin cfg1.N) (p : Fin 2000) (k : Fin 32) (r : Fin 100000)
    (hr : r.val = t.val * 2000 + p.val) :
    (iblk1 V c 0 t : Vec Ideal S2000x32 .f32) (ix2 p k) = (V c main_v45 : FVec Ideal Cert.Spec.SN .f32) (ix2 r k) := by
  obtain ⟨e0, e1, -, -, -, -, -, -⟩ := block_indices t
  show V c main_v45 (((cfg1.win 0).blk t).view.emb (ix2 p k)) = V c main_v45 (ix2 r k)
  refine congrArg (V c main_v45) (funext fun a => Fin.ext ?_)
  match a with
  | ⟨0, _⟩ => show win1_0.index t (0 : Fin 2) * 2000 + 1 * p.val = r.val; omega
  | ⟨1, _⟩ => show win1_0.index t (1 : Fin 2) * 32 + 1 * k.val = k.val; omega

/-- The weights' block at every point is the whole matrix. -/
private theorem weights_block (t : Fin cfg1.N) (k q : Fin 32) :
    (iblk1 V c 1 t : Vec Ideal S32x32 .f32) (ix2 k q) = (V c main_v47 : FVec Ideal Cert.Spec.SW .f32) (ix2 k q) := by
  obtain ⟨-, -, e2, e3, -, -, -, -⟩ := block_indices t
  show V c main_v47 (((cfg1.win 1).blk t).view.emb (ix2 k q)) = V c main_v47 (ix2 k q)
  refine congrArg (V c main_v47) (funext fun a => Fin.ext ?_)
  match a with
  | ⟨0, _⟩ => show win1_1.index t (0 : Fin 2) * 32 + 1 * k.val = k.val; omega
  | ⟨1, _⟩ => show win1_1.index t (1 : Fin 2) * 32 + 1 * q.val = q.val; omega

/-- The running output's block at point t is rows t·2000 … of the running output. -/
private theorem running_block (t : Fin cfg1.N) (j : S2000x32.Idx) (i : Cert.Spec.SN.Idx)
    (hi0 : (i 0).val = t.val * 2000 + (j 0).val) (hi1 : (i 1).val = (j 1).val) :
    (iblk1 V c 2 t : Vec Ideal S2000x32 .f32) j = (V c main_v32 : FVec Ideal Cert.Spec.SN .f32) i := by
  obtain ⟨-, -, -, -, e4, e5, -, -⟩ := block_indices t
  show V c main_v32 (((cfg1.win 2).blk t).view.emb j) = V c main_v32 i
  refine congrArg (V c main_v32) (funext fun a => Fin.ext ?_)
  match a with
  | ⟨0, _⟩ => show win1_2.index t (0 : Fin 2) * 2000 + 1 * (j 0).val = (i 0).val; omega
  | ⟨1, _⟩ => show win1_2.index t (1 : Fin 2) * 32 + 1 * (j 1).val = (i 1).val; omega

/-- What point t writes back is block t of the running output plus the product. -/
private theorem flushed_eq (t : Fin cfg1.N) :
    (dat1 (F := Ideal) V c).flushed 3 t
      = ((cfg1.win 3).blk t).view.read (Elt Ideal)
          (Cert.Spec.linAcc (V c main_v45) (V c main_v47) (V c main_v32)) := by
  show (cfg1.win 3).cut (grid1.coords t) ((dat1 V c).after 3 t) = _
  rw [after1_3]
  unfold out1_3
  rw [View.canon_unit_zero origin_eq]
  simp only [View.ld_unit_zero (S := S2000x32) origin_eq, View.ld_unit_zero (S := S32x32) origin_eq]
  obtain ⟨-, -, -, -, -, -, e6, e7⟩ := block_indices t
  funext j
  refine (payload_apply (iblk1 V c 2 t) (iblk1 V c 0 t) (iblk1 V c 1 t) _).trans ?_
  have h0 : ((((cfg1.win 3).blk t).view.emb j) 0).val = t.val * 2000 + (j 0).val := by
    show win1_3.index t (0 : Fin 2) * 2000 + 1 * (j 0).val = t.val * 2000 + (j 0).val; omega
  have h1 : ((((cfg1.win 3).blk t).view.emb j) 1).val = (j 1).val := by
    show win1_3.index t (1 : Fin 2) * 32 + 1 * (j 1).val = (j 1).val; omega
  exact congrArg₂ (· + ·) (running_block V c t _ (((cfg1.win 3).blk t).view.emb j) h0 h1)
    (block_sum_eq_mm (V c main_v45) (V c main_v47) t.val (iblk1 V c 0 t) (iblk1 V c 1 t)
      (fun p k r hr => features_block V c t p k r hr) (fun k q => weights_block V c t k q) _
      (((cfg1.win 3).blk t).view.emb j) h0 h1)

/-- An index of the array is in point t's output block iff each coordinate is in the block's range on its axis. -/
private theorem mem_block (t : Fin cfg1.N) (i : S100000x32.Idx) :
    i ∈ ((cfg1.win 3).blk t).view.set ↔ ∀ a : Fin 2, win1_3.index t a * S2000x32.size a ≤ (i a).val
      ∧ (i a).val < win1_3.index t a * S2000x32.size a + S2000x32.size a := by
  show i ∈ ((View.whole (Pipeline.arrRef spec1 3)).slice (win1_3.rect t)).set ↔ _
  rw [View.set_slice_whole, Rect.mem_set_unit]
  exact Iff.rfl

/-- Row r is in the block of point r / 2000. -/
private theorem rows_covered (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have ht : (i 0).val / 2000 < cfg1.N := by show (i 0).val / 2000 < 50; omega
  obtain ⟨-, -, -, -, -, -, e6, e7⟩ := block_indices ⟨(i 0).val / 2000, ht⟩
  have e6' : win1_3.index ⟨(i 0).val / 2000, ht⟩ (0 : Fin 2) = (i 0).val / 2000 := e6
  refine ⟨⟨(i 0).val / 2000, ht⟩, flush1_3 _, ?_⟩
  rw [mem_block]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    omega
  | ⟨1, _⟩ =>
    show win1_3.index ⟨(i 0).val / 2000, ht⟩ (1 : Fin 2) * 32 ≤ (i 1).val
      ∧ (i 1).val < win1_3.index ⟨(i 0).val / 2000, ht⟩ (1 : Fin 2) * 32 + 32
    omega

/-- The array the stage leaves is the running output plus the product of the features with the weights. -/
theorem final1 : (dat1 (F := Ideal) V c).arrAt 3 cfg1.N
    = Cert.Spec.linAcc (V c main_v45) (V c main_v47) (V c main_v32) :=
  (dat1 (F := Ideal) V c).arrAt_eq_of_cover 3 (Cert.Spec.linAcc (V c main_v45) (V c main_v47) (V c main_v32))
    (fun t _ => flushed_eq V c t) (rows_covered)

end

end Cert.KernelIdeal.RegionVal

end
-- ==== Proof.KernelStep1.lean ====
/-
  A region's exit contents are its entry contents with ONE buffer rewritten.
  A middle hop's region leaves every buffer as it found it except its result, which ends at the running output plus
  the product of the hop's aggregated features with the hop's weight matrix: a three-operand operation writing the
  result buffer.
-/
import proofs.«413670_j78391743086995_4_alg».proof.Proof.Gen.KernelIdeal.Frame
import proofs.«413670_j78391743086995_4_alg».proof.Proof.Spec
import proofs.«413670_j78391743086995_4_alg».proof.Proof.RegionVal1
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: running output plus features times weights. -/
abbrev rop1 : HloOp τ sig (Elt Ideal) :=
  StableHlo.ternary main_v45 main_v47 main_v32 main_v48
    ((fun h w o => Cert.Spec.linAcc h w o) : (⟨S100000x32, .f32⟩ : BufTy).Contents (Elt Ideal) → (⟨S32x32, .f32⟩ : BufTy).Contents (Elt Ideal) → (⟨S100000x32, .f32⟩ : BufTy).Contents (Elt Ideal) → (⟨S100000x32, .f32⟩ : BufTy).Contents (Elt Ideal))

/-- Leaving the region, each input array is as entered, the result array holds the sum, and no other buffer was
    touched. -/
theorem W8_eq (c : Dev nD) : W8 m ρ c = (rop1).result (W7 m ρ c) := by
  funext b
  by_cases h : ∃ w, Proc.devRef .tc (Pipeline.arrRef spec1 w) = b
  · obtain ⟨w, rfl⟩ := h
    rw [W8_arr m ρ c w]
    match w with
    | ⟨0, _⟩ =>
      rw [HloOp.result_of_not_mem _ _ (by rw [ternary_writes, Finset.mem_singleton]; exact devRef_ne_of_ne (show Pipeline.arrRef spec1 (0 : Fin cfg1.W) ≠ main_v48 by decide))]
      exact ((dat1 (V7 m ρ) c).arrAt_in 0 rfl _).trans (A_eq1 (V7 m ρ) c 0)
    | ⟨1, _⟩ =>
      rw [HloOp.result_of_not_mem _ _ (by rw [ternary_writes, Finset.mem_singleton]; exact devRef_ne_of_ne (show Pipeline.arrRef spec1 (1 : Fin cfg1.W) ≠ main_v48 by decide))]
      exact ((dat1 (V7 m ρ) c).arrAt_in 1 rfl _).trans (A_eq1 (V7 m ρ) c 1)
    | ⟨2, _⟩ =>
      rw [HloOp.result_of_not_mem _ _ (by rw [ternary_writes, Finset.mem_singleton]; exact devRef_ne_of_ne (show Pipeline.arrRef spec1 (2 : Fin cfg1.W) ≠ main_v48 by decide))]
      exact ((dat1 (V7 m ρ) c).arrAt_in 2 rfl _).trans (A_eq1 (V7 m ρ) c 2)
    | ⟨3, _⟩ =>
      exact (Cert.KernelIdeal.RegionVal.final1 (V7 m ρ) c).trans (ternary_result main_v45 main_v47 main_v32 main_v48 _ _ _ _ _ (W7 m ρ c)).symm
  · rw [HloOp.result_of_not_mem _ _ (by
      rw [ternary_writes, Finset.mem_singleton]
      exact fun e => h ⟨3, e.symm⟩)]
    unfold W8 Pipeline.withArrays
    rw [dif_neg h]

end Cert.KernelIdeal.Fold

end
-- ==== Proof.RegionVal2.lean ====
/-
  A middle dense stage of a layer, over the whole array.

  The stage runs over 50 blocks of 2000 rows. At block t it reads rows t·2000 … t·2000 + 1999 of the hop's aggregated
  features and of the running output, and the whole weight matrix, and writes the block of the new running output:
  entry (p, q) of the block is the running output at (t·2000 + p, q) plus the sum over the 32 columns k of
  features (t·2000 + p, k) times weights (k, q). The 50 blocks tile the 100000 rows (row r lies in block r / 2000), so
  the array written is the running output plus the product.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features', the running output's and the new output's blocks are
    block t of the rows, all columns; the weights' block is the whole matrix. -/
private theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The body's result at (p, q): the running output there plus the sum over the columns k of
    features (p, k) · weights (k, q). -/
private theorem payload_apply (o : Vec Ideal S2000x32 .f32) (x0 : Vec Ideal S2000x32 .f32) (x1 : Vec Ideal S32x32 .f32)
    (j : S2000x32.Idx) :
    k2_pay1 o x0 x1 j = o j + ∑ k : Fin 32, x0 (ix2 (j 0) k) * x1 (ix2 k (j 1)) := by
  unfold k2_pay1
  simp only [shapeCast_self]
  exact (addf_apply _ _ j).trans (congrArg (o j + ·) (matmul_block_apply x0 x1 j))

section
variable (V : (c : Dev nD) → (b : Ref sig .tc) → Buf (Elt Ideal) ((c : Thread nD τ).loc b)) (c : Dev nD)

/-- The features' block at point t is rows t·2000 … of the features. -/
private theorem features_block (t : Fin cfg2.N) (p : Fin 2000) (k : Fin 32) (r : Fin 100000)
    (hr : r.val = t.val * 2000 + p.val) :
    (iblk2 V c 0 t : Vec Ideal S2000x32 .f32) (ix2 p k) = (V c main_v61 : FVec Ideal Cert.Spec.SN .f32) (ix2 r k) := by
  obtain ⟨e0, e1, -, -, -, -, -, -⟩ := block_indices t
  show V c main_v61 (((cfg2.win 0).blk t).view.emb (ix2 p k)) = V c main_v61 (ix2 r k)
  refine congrArg (V c main_v61) (funext fun a => Fin.ext ?_)
  match a with
  | ⟨0, _⟩ => show win2_0.index t (0 : Fin 2) * 2000 + 1 * p.val = r.val; omega
  | ⟨1, _⟩ => show win2_0.index t (1 : Fin 2) * 32 + 1 * k.val = k.val; omega

/-- The weights' block at every point is the whole matrix. -/
private theorem weights_block (t : Fin cfg2.N) (k q : Fin 32) :
    (iblk2 V c 1 t : Vec Ideal S32x32 .f32) (ix2 k q) = (V c main_v63 : FVec Ideal Cert.Spec.SW .f32) (ix2 k q) := by
  obtain ⟨-, -, e2, e3, -, -, -, -⟩ := block_indices t
  show V c main_v63 (((cfg2.win 1).blk t).view.emb (ix2 k q)) = V c main_v63 (ix2 k q)
  refine congrArg (V c main_v63) (funext fun a => Fin.ext ?_)
  match a with
  | ⟨0, _⟩ => show win2_1.index t (0 : Fin 2) * 32 + 1 * k.val = k.val; omega
  | ⟨1, _⟩ => show win2_1.index t (1 : Fin 2) * 32 + 1 * q.val = q.val; omega

/-- The running output's block at point t is rows t·2000 … of the running output. -/
private theorem running_block (t : Fin cfg2.N) (j : S2000x32.Idx) (i : Cert.Spec.SN.Idx)
    (hi0 : (i 0).val = t.val * 2000 + (j 0).val) (hi1 : (i 1).val = (j 1).val) :
    (iblk2 V c 2 t : Vec Ideal S2000x32 .f32) j = (V c main_v48 : FVec Ideal Cert.Spec.SN .f32) i := by
  obtain ⟨-, -, -, -, e4, e5, -, -⟩ := block_indices t
  show V c main_v48 (((cfg2.win 2).blk t).view.emb j) = V c main_v48 i
  refine congrArg (V c main_v48) (funext fun a => Fin.ext ?_)
  match a with
  | ⟨0, _⟩ => show win2_2.index t (0 : Fin 2) * 2000 + 1 * (j 0).val = (i 0).val; omega
  | ⟨1, _⟩ => show win2_2.index t (1 : Fin 2) * 32 + 1 * (j 1).val = (i 1).val; omega

/-- What point t writes back is block t of the running output plus the product. -/
private theorem flushed_eq (t : Fin cfg2.N) :
    (dat2 (F := Ideal) V c).flushed 3 t
      = ((cfg2.win 3).blk t).view.read (Elt Ideal)
          (Cert.Spec.linAcc (V c main_v61) (V c main_v63) (V c main_v48)) := by
  show (cfg2.win 3).cut (grid2.coords t) ((dat2 V c).after 3 t) = _
  rw [after2_3]
  unfold out2_3
  rw [View.canon_unit_zero origin_eq]
  simp only [View.ld_unit_zero (S := S2000x32) origin_eq, View.ld_unit_zero (S := S32x32) origin_eq]
  obtain ⟨-, -, -, -, -, -, e6, e7⟩ := block_indices t
  funext j
  refine (payload_apply (iblk2 V c 2 t) (iblk2 V c 0 t) (iblk2 V c 1 t) _).trans ?_
  have h0 : ((((cfg2.win 3).blk t).view.emb j) 0).val = t.val * 2000 + (j 0).val := by
    show win2_3.index t (0 : Fin 2) * 2000 + 1 * (j 0).val = t.val * 2000 + (j 0).val; omega
  have h1 : ((((cfg2.win 3).blk t).view.emb j) 1).val = (j 1).val := by
    show win2_3.index t (1 : Fin 2) * 32 + 1 * (j 1).val = (j 1).val; omega
  exact congrArg₂ (· + ·) (running_block V c t _ (((cfg2.win 3).blk t).view.emb j) h0 h1)
    (block_sum_eq_mm (V c main_v61) (V c main_v63) t.val (iblk2 V c 0 t) (iblk2 V c 1 t)
      (fun p k r hr => features_block V c t p k r hr) (fun k q => weights_block V c t k q) _
      (((cfg2.win 3).blk t).view.emb j) h0 h1)

/-- An index of the array is in point t's output block iff each coordinate is in the block's range on its axis. -/
private theorem mem_block (t : Fin cfg2.N) (i : S100000x32.Idx) :
    i ∈ ((cfg2.win 3).blk t).view.set ↔ ∀ a : Fin 2, win2_3.index t a * S2000x32.size a ≤ (i a).val
      ∧ (i a).val < win2_3.index t a * S2000x32.size a + S2000x32.size a := by
  show i ∈ ((View.whole (Pipeline.arrRef spec2 3)).slice (win2_3.rect t)).set ↔ _
  rw [View.set_slice_whole, Rect.mem_set_unit]
  exact Iff.rfl

/-- Row r is in the block of point r / 2000. -/
private theorem rows_covered (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have ht : (i 0).val / 2000 < cfg2.N := by show (i 0).val / 2000 < 50; omega
  obtain ⟨-, -, -, -, -, -, e6, e7⟩ := block_indices ⟨(i 0).val / 2000, ht⟩
  have e6' : win2_3.index ⟨(i 0).val / 2000, ht⟩ (0 : Fin 2) = (i 0).val / 2000 := e6
  refine ⟨⟨(i 0).val / 2000, ht⟩, flush2_3 _, ?_⟩
  rw [mem_block]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    omega
  | ⟨1, _⟩ =>
    show win2_3.index ⟨(i 0).val / 2000, ht⟩ (1 : Fin 2) * 32 ≤ (i 1).val
      ∧ (i 1).val < win2_3.index ⟨(i 0).val / 2000, ht⟩ (1 : Fin 2) * 32 + 32
    omega

/-- The array the stage leaves is the running output plus the product of the features with the weights. -/
theorem final2 : (dat2 (F := Ideal) V c).arrAt 3 cfg2.N
    = Cert.Spec.linAcc (V c main_v61) (V c main_v63) (V c main_v48) :=
  (dat2 (F := Ideal) V c).arrAt_eq_of_cover 3 (Cert.Spec.linAcc (V c main_v61) (V c main_v63) (V c main_v48))
    (fun t _ => flushed_eq V c t) (rows_covered)

end

end Cert.KernelIdeal.RegionVal

end
-- ==== Proof.KernelStep2.lean ====
/-
  A region's exit contents are its entry contents with ONE buffer rewritten.
  A middle hop's region leaves every buffer as it found it except its result, which ends at the running output plus
  the product of the hop's aggregated features with the hop's weight matrix: a three-operand operation writing the
  result buffer.
-/
import proofs.«413670_j78391743086995_4_alg».proof.Proof.Gen.KernelIdeal.Frame
import proofs.«413670_j78391743086995_4_alg».proof.Proof.Spec
import proofs.«413670_j78391743086995_4_alg».proof.Proof.RegionVal2
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: running output plus features times weights. -/
abbrev rop2 : HloOp τ sig (Elt Ideal) :=
  StableHlo.ternary main_v61 main_v63 main_v48 main_v64
    ((fun h w o => Cert.Spec.linAcc h w o) : (⟨S100000x32, .f32⟩ : BufTy).Contents (Elt Ideal) → (⟨S32x32, .f32⟩ : BufTy).Contents (Elt Ideal) → (⟨S100000x32, .f32⟩ : BufTy).Contents (Elt Ideal) → (⟨S100000x32, .f32⟩ : BufTy).Contents (Elt Ideal))

/-- Leaving the region, each input array is as entered, the result array holds the sum, and no other buffer was
    touched. -/
theorem W10_eq (c : Dev nD) : W10 m ρ c = (rop2).result (W9 m ρ c) := by
  funext b
  by_cases h : ∃ w, Proc.devRef .tc (Pipeline.arrRef spec2 w) = b
  · obtain ⟨w, rfl⟩ := h
    rw [W10_arr m ρ c w]
    match w with
    | ⟨0, _⟩ =>
      rw [HloOp.result_of_not_mem _ _ (by rw [ternary_writes, Finset.mem_singleton]; exact devRef_ne_of_ne (show Pipeline.arrRef spec2 (0 : Fin cfg2.W) ≠ main_v64 by decide))]
      exact ((dat2 (V9 m ρ) c).arrAt_in 0 rfl _).trans (A_eq2 (V9 m ρ) c 0)
    | ⟨1, _⟩ =>
      rw [HloOp.result_of_not_mem _ _ (by rw [ternary_writes, Finset.mem_singleton]; exact devRef_ne_of_ne (show Pipeline.arrRef spec2 (1 : Fin cfg2.W) ≠ main_v64 by decide))]
      exact ((dat2 (V9 m ρ) c).arrAt_in 1 rfl _).trans (A_eq2 (V9 m ρ) c 1)
    | ⟨2, _⟩ =>
      rw [HloOp.result_of_not_mem _ _ (by rw [ternary_writes, Finset.mem_singleton]; exact devRef_ne_of_ne (show Pipeline.arrRef spec2 (2 : Fin cfg2.W) ≠ main_v64 by decide))]
      exact ((dat2 (V9 m ρ) c).arrAt_in 2 rfl _).trans (A_eq2 (V9 m ρ) c 2)
    | ⟨3, _⟩ =>
      exact (Cert.KernelIdeal.RegionVal.final2 (V9 m ρ) c).trans (ternary_result main_v61 main_v63 main_v48 main_v64 _ _ _ _ _ (W9 m ρ c)).symm
  · rw [HloOp.result_of_not_mem _ _ (by
      rw [ternary_writes, Finset.mem_singleton]
      exact fun e => h ⟨3, e.symm⟩)]
    unfold W10 Pipeline.withArrays
    rw [dif_neg h]

end Cert.KernelIdeal.Fold

end
-- ==== Proof.RegionVal3.lean ====
/-
  The last dense stage of a layer, over the whole array.

  The stage runs over 50 blocks of 2000 rows. At block t it reads rows t·2000 … t·2000 + 1999 of the hop's aggregated
  features and of the running output, the whole weight matrix and the bias row, and writes the block of the layer's
  output: entry (p, q) of the block is the running output at (t·2000 + p, q), plus the sum over the 32 columns k of
  features (t·2000 + p, k) times weights (k, q), plus the bias at q, clamped below at zero. The 50 blocks tile the
  100000 rows (row r lies in block r / 2000), so the array written is that function of the whole arrays.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features', the running output's and the new output's blocks are
    block t of the rows, all columns; the weights' block is the whole matrix and the bias' block the whole row. -/
private theorem block_indices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The body's result at (p, q): the running output there, plus the sum over the columns k of
    features (p, k) · weights (k, q), plus the bias at q, clamped below at zero. -/
private theorem payload_apply (o : Vec Ideal S2000x32 .f32) (x0 : Vec Ideal S2000x32 .f32) (x1 : Vec Ideal S32x32 .f32)
    (b : Vec Ideal S1x32 .f32) (j : S2000x32.Idx) :
    k3_pay1 o x0 x1 b j = max ((o j + ∑ k : Fin 32, x0 (ix2 (j 0) k) * x1 (ix2 k (j 1))) + b (ix2 0 (j 1))) 0 := by
  unfold k3_pay1
  simp only [shapeCast_self]
  refine (maximumf_apply _ _ j).trans (congrArg₂ max ?_ ?_)
  · exact (addf_apply _ _ j).trans (congrArg₂ (· + ·)
      ((addf_apply _ _ j).trans (congrArg (o j + ·) (matmul_block_apply x0 x1 j))) (bias_row_apply b _ j))
  · show Ideal.ofBits .f32 0x00000000#32 = 0
    exact Ideal.ofBits_zero_f32

section
variable (V : (c : Dev nD) → (b : Ref sig .tc) → Buf (Elt Ideal) ((c : Thread nD τ).loc b)) (c : Dev nD)

/-- The features' block at point t is rows t·2000 … of the features. -/
private theorem features_block (t : Fin cfg3.N) (p : Fin 2000) (k : Fin 32) (r : Fin 100000)
    (hr : r.val = t.val * 2000 + p.val) :
    (iblk3 V c 0 t : Vec Ideal S2000x32 .f32) (ix2 p k) = (V c main_v77 : FVec Ideal Cert.Spec.SN .f32) (ix2 r k) := by
  obtain ⟨e0, e1, -, -, -, -, -, -, -, -⟩ := block_indices t
  show V c main_v77 (((cfg3.win 0).blk t).view.emb (ix2 p k)) = V c main_v77 (ix2 r k)
  refine congrArg (V c main_v77) (funext fun a => Fin.ext ?_)
  match a with
  | ⟨0, _⟩ => show win3_0.index t (0 : Fin 2) * 2000 + 1 * p.val = r.val; omega
  | ⟨1, _⟩ => show win3_0.index t (1 : Fin 2) * 32 + 1 * k.val = k.val; omega

/-- The weights' block at every point is the whole matrix. -/
private theorem weights_block (t : Fin cfg3.N) (k q : Fin 32) :
    (iblk3 V c 1 t : Vec Ideal S32x32 .f32) (ix2 k q) = (V c main_v79 : FVec Ideal Cert.Spec.SW .f32) (ix2 k q) := by
  obtain ⟨-, -, e2, e3, -, -, -, -, -, -⟩ := block_indices t
  show V c main_v79 (((cfg3.win 1).blk t).view.emb (ix2 k q)) = V c main_v79 (ix2 k q)
  refine congrArg (V c main_v79) (funext fun a => Fin.ext ?_)
  match a with
  | ⟨0, _⟩ => show win3_1.index t (0 : Fin 2) * 32 + 1 * k.val = k.val; omega
  | ⟨1, _⟩ => show win3_1.index t (1 : Fin 2) * 32 + 1 * q.val = q.val; omega

/-- The bias' block at every point is the whole row. -/
private theorem bias_block (t : Fin cfg3.N) (q : Fin 32) :
    (iblk3 V c 2 t : Vec Ideal S1x32 .f32) (ix2 0 q) = (V c main_v82 : FVec Ideal Cert.Spec.SB .f32) (ix2 0 q) := by
  obtain ⟨-, -, -, -, e4, e5, -, -, -, -⟩ := block_indices t
  show V c main_v82 (((cfg3.win 2).blk t).view.emb (ix2 0 q)) = V c main_v82 (ix2 0 q)
  refine congrArg (V c main_v82) (funext fun a => Fin.ext ?_)
  match a with
  | ⟨0, _⟩ => show win3_2.index t (0 : Fin 2) * 1 + 1 * 0 = 0; omega
  | ⟨1, _⟩ => show win3_2.index t (1 : Fin 2) * 32 + 1 * q.val = q.val; omega

/-- The running output's block at point t is rows t·2000 … of the running output. -/
private theorem running_block (t : Fin cfg3.N) (j : S2000x32.Idx) (i : Cert.Spec.SN.Idx)
    (hi0 : (i 0).val = t.val * 2000 + (j 0).val) (hi1 : (i 1).val = (j 1).val) :
    (iblk3 V c 3 t : Vec Ideal S2000x32 .f32) j = (V c main_v64 : FVec Ideal Cert.Spec.SN .f32) i := by
  obtain ⟨-, -, -, -, -, -, e6, e7, -, -⟩ := block_indices t
  show V c main_v64 (((cfg3.win 3).blk t).view.emb j) = V c main_v64 i
  refine congrArg (V c main_v64) (funext fun a => Fin.ext ?_)
  match a with
  | ⟨0, _⟩ => show win3_3.index t (0 : Fin 2) * 2000 + 1 * (j 0).val = (i 0).val; omega
  | ⟨1, _⟩ => show win3_3.index t (1 : Fin 2) * 32 + 1 * (j 1).val = (i 1).val; omega

/-- What point t writes back is block t of the layer's output. -/
private theorem flushed_eq (t : Fin cfg3.N) :
    (dat3 (F := Ideal) V c).flushed 4 t
      = ((cfg3.win 4).blk t).view.read (Elt Ideal)
          (Cert.Spec.linFin (V c main_v77) (V c main_v79) (V c main_v82) (V c main_v64)) := by
  show (cfg3.win 4).cut (grid3.coords t) ((dat3 V c).after 4 t) = _
  rw [after3_4]
  unfold out3_4
  rw [View.canon_unit_zero origin_eq]
  simp only [View.ld_unit_zero (S := S2000x32) origin_eq, View.ld_unit_zero (S := S32x32) origin_eq,
    View.ld_unit_zero (S := S1x32) origin_eq]
  obtain ⟨-, -, -, -, -, -, -, -, e8, e9⟩ := block_indices t
  funext j
  refine (payload_apply (iblk3 V c 3 t) (iblk3 V c 0 t) (iblk3 V c 1 t) (iblk3 V c 2 t) _).trans ?_
  have h0 : ((((cfg3.win 4).blk t).view.emb j) 0).val = t.val * 2000 + (j 0).val := by
    show win3_4.index t (0 : Fin 2) * 2000 + 1 * (j 0).val = t.val * 2000 + (j 0).val; omega
  have h1 : ((((cfg3.win 4).blk t).view.emb j) 1).val = (j 1).val := by
    show win3_4.index t (1 : Fin 2) * 32 + 1 * (j 1).val = (j 1).val; omega
  have hq : (⟨(j 1).val, (j 1).isLt⟩ : Fin 32) = (((cfg3.win 4).blk t).view.emb j) 1 := Fin.ext h1.symm
  exact congrArg₂ max (congrArg₂ (· + ·)
    (congrArg₂ (· + ·) (running_block V c t _ (((cfg3.win 4).blk t).view.emb j) h0 h1)
      (block_sum_eq_mm (V c main_v77) (V c main_v79) t.val (iblk3 V c 0 t) (iblk3 V c 1 t)
        (fun p k r hr => features_block V c t p k r hr) (fun k q => weights_block V c t k q) _
        (((cfg3.win 4).blk t).view.emb j) h0 h1))
    ((bias_block V c t _).trans (congrArg (fun q : Fin 32 => (V c main_v82 : FVec Ideal Cert.Spec.SB .f32) (ix2 0 q)) hq)))
    rfl

/-- An index of the array is in point t's output block iff each coordinate is in the block's range on its axis. -/
private theorem mem_block (t : Fin cfg3.N) (i : S100000x32.Idx) :
    i ∈ ((cfg3.win 4).blk t).view.set ↔ ∀ a : Fin 2, win3_4.index t a * S2000x32.size a ≤ (i a).val
      ∧ (i a).val < win3_4.index t a * S2000x32.size a + S2000x32.size a := by
  show i ∈ ((View.whole (Pipeline.arrRef spec3 4)).slice (win3_4.rect t)).set ↔ _
  rw [View.set_slice_whole, Rect.mem_set_unit]
  exact Iff.rfl

/-- Row r is in the block of point r / 2000. -/
private theorem rows_covered (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  have ht : (i 0).val / 2000 < cfg3.N := by show (i 0).val / 2000 < 50; omega
  obtain ⟨-, -, -, -, -, -, -, -, e8, e9⟩ := block_indices ⟨(i 0).val / 2000, ht⟩
  have e8' : win3_4.index ⟨(i 0).val / 2000, ht⟩ (0 : Fin 2) = (i 0).val / 2000 := e8
  refine ⟨⟨(i 0).val / 2000, ht⟩, flush3_4 _, ?_⟩
  rw [mem_block]
  intro a
  match a with
  | ⟨0, _⟩ =>
    show win3_4.index ⟨(i 0).val / 2000, ht⟩ (0 : Fin 2) * 2000 ≤ (i 0).val
      ∧ (i 0).val < win3_4.index ⟨(i 0).val / 2000, ht⟩ (0 : Fin 2) * 2000 + 2000
    omega
  | ⟨1, _⟩ =>
    show win3_4.index ⟨(i 0).val / 2000, ht⟩ (1 : Fin 2) * 32 ≤ (i 1).val
      ∧ (i 1).val < win3_4.index ⟨(i 0).val / 2000, ht⟩ (1 : Fin 2) * 32 + 32
    omega

/-- The array the stage leaves is the layer's output: running output plus product plus bias, clamped below at zero. -/
theorem final3 : (dat3 (F := Ideal) V c).arrAt 4 cfg3.N
    = Cert.Spec.linFin (V c main_v77) (V c main_v79) (V c main_v82) (V c main_v64) :=
  (dat3 (F := Ideal) V c).arrAt_eq_of_cover 4
    (Cert.Spec.linFin (V c main_v77) (V c main_v79) (V c main_v82) (V c main_v64))
    (fun t _ => flushed_eq V c t) (rows_covered)

end

end Cert.KernelIdeal.RegionVal

end
-- ==== Proof.KernelStep3.lean ====
/-
  A region's exit contents are its entry contents with ONE buffer rewritten.
  A layer's last region leaves every buffer as it found it except its result, which ends at the running output plus
  the last hop's product plus the bias row, clamped below at zero: a four-operand operation writing the result
  buffer.
-/
import proofs.«413670_j78391743086995_4_alg».proof.Proof.Gen.KernelIdeal.Frame
import proofs.«413670_j78391743086995_4_alg».proof.Proof.Spec
import proofs.«413670_j78391743086995_4_alg».proof.Proof.RegionVal3
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: the layer's output. -/
abbrev rop3 : HloOp τ sig (Elt Ideal) :=
  StableHlo.quaternary main_v77 main_v79 main_v82 main_v64 main_v83
    ((fun h w b o => Cert.Spec.linFin h w b o) : (⟨S100000x32, .f32⟩ : BufTy).Contents (Elt Ideal) → (⟨S32x32, .f32⟩ : BufTy).Contents (Elt Ideal) → (⟨S1x32, .f32⟩ : BufTy).Contents (Elt Ideal) → (⟨S100000x32, .f32⟩ : BufTy).Contents (Elt Ideal) → (⟨S100000x32, .f32⟩ : BufTy).Contents (Elt Ideal))

set_option maxHeartbeats 2000000 in
/-- Leaving the region, each input array is as entered, the result array holds the layer's output, and no other
    buffer was touched. -/
theorem W12_eq (c : Dev nD) : W12 m ρ c = (rop3).result (W11 m ρ c) := by
  funext b
  by_cases h : ∃ w, Proc.devRef .tc (Pipeline.arrRef spec3 w) = b
  · obtain ⟨w, rfl⟩ := h
    rw [W12_arr m ρ c w]
    match w with
    | ⟨0, _⟩ =>
      rw [HloOp.result_of_not_mem _ _ (by rw [quaternary_writes, Finset.mem_singleton]; exact devRef_ne_of_ne (show Pipeline.arrRef spec3 (0 : Fin cfg3.W) ≠ main_v83 by decide))]
      exact ((dat3 (V11 m ρ) c).arrAt_in 0 rfl _).trans (A_eq3 (V11 m ρ) c 0)
    | ⟨1, _⟩ =>
      rw [HloOp.result_of_not_mem _ _ (by rw [quaternary_writes, Finset.mem_singleton]; exact devRef_ne_of_ne (show Pipeline.arrRef spec3 (1 : Fin cfg3.W) ≠ main_v83 by decide))]
      exact ((dat3 (V11 m ρ) c).arrAt_in 1 rfl _).trans (A_eq3 (V11 m ρ) c 1)
    | ⟨2, _⟩ =>
      rw [HloOp.result_of_not_mem _ _ (by rw [quaternary_writes, Finset.mem_singleton]; exact devRef_ne_of_ne (show Pipeline.arrRef spec3 (2 : Fin cfg3.W) ≠ main_v83 by decide))]
      exact ((dat3 (V11 m ρ) c).arrAt_in 2 rfl _).trans (A_eq3 (V11 m ρ) c 2)
    | ⟨3, _⟩ =>
      rw [HloOp.result_of_not_mem _ _ (by rw [quaternary_writes, Finset.mem_singleton]; exact devRef_ne_of_ne (show Pipeline.arrRef spec3 (3 : Fin cfg3.W) ≠ main_v83 by decide))]
      exact ((dat3 (V11 m ρ) c).arrAt_in 3 rfl _).trans (A_eq3 (V11 m ρ) c 3)
    | ⟨4, _⟩ =>
      exact (Cert.KernelIdeal.RegionVal.final3 (V11 m ρ) c).trans (quaternary_result main_v77 main_v79 main_v82 main_v64 main_v83 _ _ _ _ _ _ (W11 m ρ c)).symm
  · rw [HloOp.result_of_not_mem _ _ (by
      rw [quaternary_writes, Finset.mem_singleton]
      exact fun e => h ⟨4, e.symm⟩)]
    unfold W12 Pipeline.withArrays
    rw [dif_neg h]

end Cert.KernelIdeal.Fold

end
-- ==== Proof.RegionVal4.lean ====
/-
  The first dense stage of a layer, over the whole array.

  The stage runs over 50 blocks of 2000 rows. At block t it reads rows t·2000 … t·2000 + 1999 of the node features
  and the whole weight matrix, and writes the block of the product: entry (p, q) of the block is the sum over the 32
  columns k of features (t·2000 + p, k) times weights (k, q), which is the whole-array product at row t·2000 + p. The
  50 blocks tile the 100000 rows (row r lies in block r / 2000), so the array written is the product.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features' and the output's blocks are block t of the rows, all
    columns; the weights' block is the whole matrix. -/
private theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's result at (p, q): the sum over the columns k of features (p, k) · weights (k, q). -/
private theorem payload_apply (x0 : Vec Ideal S2000x32 .f32) (x1 : Vec Ideal S32x32 .f32) (j : S2000x32.Idx) :
    k4_pay1 x0 x1 j = ∑ k : Fin 32, x0 (ix2 (j 0) k) * x1 (ix2 k (j 1)) := by
  unfold k4_pay1
  simp only [shapeCast_self]
  exact matmul_block_apply x0 x1 j

section
variable (V : (c : Dev nD) → (b : Ref sig .tc) → Buf (Elt Ideal) ((c : Thread nD τ).loc b)) (c : Dev nD)

/-- The features' block at point t is rows t·2000 … of the features. -/
private theorem features_block (t : Fin cfg4.N) (p : Fin 2000) (k : Fin 32) (r : Fin 100000)
    (hr : r.val = t.val * 2000 + p.val) :
    (iblk4 V c 0 t : Vec Ideal S2000x32 .f32) (ix2 p k) = (V c main_v83 : FVec Ideal Cert.Spec.SN .f32) (ix2 r k) := by
  obtain ⟨e0, e1, -, -, -, -⟩ := block_indices t
  show V c main_v83 (((cfg4.win 0).blk t).view.emb (ix2 p k)) = V c main_v83 (ix2 r k)
  refine congrArg (V c main_v83) (funext fun a => Fin.ext ?_)
  match a with
  | ⟨0, _⟩ => show win4_0.index t (0 : Fin 2) * 2000 + 1 * p.val = r.val; omega
  | ⟨1, _⟩ => show win4_0.index t (1 : Fin 2) * 32 + 1 * k.val = k.val; omega

/-- The weights' block at every point is the whole matrix. -/
private theorem weights_block (t : Fin cfg4.N) (k q : Fin 32) :
    (iblk4 V c 1 t : Vec Ideal S32x32 .f32) (ix2 k q) = (V c main_v85 : FVec Ideal Cert.Spec.SW .f32) (ix2 k q) := by
  obtain ⟨-, -, e2, e3, -, -⟩ := block_indices t
  show V c main_v85 (((cfg4.win 1).blk t).view.emb (ix2 k q)) = V c main_v85 (ix2 k q)
  refine congrArg (V c main_v85) (funext fun a => Fin.ext ?_)
  match a with
  | ⟨0, _⟩ => show win4_1.index t (0 : Fin 2) * 32 + 1 * k.val = k.val; omega
  | ⟨1, _⟩ => show win4_1.index t (1 : Fin 2) * 32 + 1 * q.val = q.val; omega

/-- What point t writes back is block t of the product. -/
private theorem flushed_eq (t : Fin cfg4.N) :
    (dat4 (F := Ideal) V c).flushed 2 t
      = ((cfg4.win 2).blk t).view.read (Elt Ideal) (Cert.Spec.mm (V c main_v83) (V c main_v85)) := by
  show (cfg4.win 2).cut (grid4.coords t) ((dat4 V c).after 2 t) = _
  rw [after4_2]
  unfold out4_2
  rw [View.canon_unit_zero origin_eq]
  simp only [View.ld_unit_zero (S := S2000x32) origin_eq, View.ld_unit_zero (S := S32x32) origin_eq]
  obtain ⟨-, -, -, -, e4, e5⟩ := block_indices t
  funext j
  refine (payload_apply (iblk4 V c 0 t) (iblk4 V c 1 t) _).trans ?_
  refine block_sum_eq_mm (V c main_v83) (V c main_v85) t.val (iblk4 V c 0 t) (iblk4 V c 1 t)
    (fun p k r hr => features_block V c t p k r hr) (fun k q => weights_block V c t k q) _ _ ?_ ?_
  · show win4_2.index t (0 : Fin 2) * 2000 + 1 * (j 0).val = t.val * 2000 + (j 0).val; omega
  · show win4_2.index t (1 : Fin 2) * 32 + 1 * (j 1).val = (j 1).val; omega

/-- An index of the array is in point t's output block iff each coordinate is in the block's range on its axis. -/
private theorem mem_block (t : Fin cfg4.N) (i : S100000x32.Idx) :
    i ∈ ((cfg4.win 2).blk t).view.set ↔ ∀ a : Fin 2, win4_2.index t a * S2000x32.size a ≤ (i a).val
      ∧ (i a).val < win4_2.index t a * S2000x32.size a + S2000x32.size a := by
  show i ∈ ((View.whole (Pipeline.arrRef spec4 2)).slice (win4_2.rect t)).set ↔ _
  rw [View.set_slice_whole, Rect.mem_set_unit]
  exact Iff.rfl

/-- Row r is in the block of point r / 2000. -/
private theorem rows_covered (i : S100000x32.Idx) :
    ∃ t : Fin cfg4.N, (cfg4.win 2).flush t = true ∧ i ∈ ((cfg4.win 2).blk t).view.set := by
  have hi0 : (i 0).val < 100000 := (i 0).isLt
  have hi1 : (i 1).val < 32 := (i 1).isLt
  have ht : (i 0).val / 2000 < cfg4.N := by show (i 0).val / 2000 < 50; omega
  obtain ⟨-, -, -, -, e4, e5⟩ := block_indices ⟨(i 0).val / 2000, ht⟩
  have e4' : win4_2.index ⟨(i 0).val / 2000, ht⟩ (0 : Fin 2) = (i 0).val / 2000 := e4
  refine ⟨⟨(i 0).val / 2000, ht⟩, flush4_2 _, ?_⟩
  rw [mem_block]
  intro a
  match a with
  | ⟨0, _⟩ =>
    show win4_2.index ⟨(i 0).val / 2000, ht⟩ (0 : Fin 2) * 2000 ≤ (i 0).val
      ∧ (i 0).val < win4_2.index ⟨(i 0).val / 2000, ht⟩ (0 : Fin 2) * 2000 + 2000
    omega
  | ⟨1, _⟩ =>
    show win4_2.index ⟨(i 0).val / 2000, ht⟩ (1 : Fin 2) * 32 ≤ (i 1).val
      ∧ (i 1).val < win4_2.index ⟨(i 0).val / 2000, ht⟩ (1 : Fin 2) * 32 + 32
    omega

/-- The array the stage leaves is the product of the features with the weights. -/
theorem final4 : (dat4 (F := Ideal) V c).arrAt 2 cfg4.N = Cert.Spec.mm (V c main_v83) (V c main_v85) :=
  (dat4 (F := Ideal) V c).arrAt_eq_of_cover 2 (Cert.Spec.mm (V c main_v83) (V c main_v85))
    (fun t _ => flushed_eq V c t) (rows_covered)

end

end Cert.KernelIdeal.RegionVal

end
-- ==== Proof.KernelStep4.lean ====
/-
  A region's exit contents are its entry contents with ONE buffer rewritten.
  The first region of a layer leaves every buffer as it found it except its result, which ends at the product of the
  node features with the layer's first weight matrix. So, as far as buffer contents go, the region is one more host
  operation: a two-operand operation writing the result buffer.
-/
import proofs.«413670_j78391743086995_4_alg».proof.Proof.Gen.KernelIdeal.Frame
import proofs.«413670_j78391743086995_4_alg».proof.Proof.Spec
import proofs.«413670_j78391743086995_4_alg».proof.Proof.RegionVal4
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: features times weights. -/
abbrev rop4 : HloOp τ sig (Elt Ideal) :=
  StableHlo.binary main_v83 main_v85 main_v86
    ((fun x w => Cert.Spec.mm x w) : (⟨S100000x32, .f32⟩ : BufTy).Contents (Elt Ideal) → (⟨S32x32, .f32⟩ : BufTy).Contents (Elt Ideal) → (⟨S100000x32, .f32⟩ : BufTy).Contents (Elt Ideal))

/-- Leaving the region, each input array is as entered, the result array holds the product, and no other buffer was
    touched: the contents after the region are the operation's result over the contents before it. -/
theorem W14_eq (c : Dev nD) : W14 m ρ c = (rop4).result (W13 m ρ c) := by
  funext b
  by_cases h : ∃ w, Proc.devRef .tc (Pipeline.arrRef spec4 w) = b
  · obtain ⟨w, rfl⟩ := h
    rw [W14_arr m ρ c w]
    match w with
    | ⟨0, _⟩ =>
      rw [HloOp.result_of_not_mem _ _ (by rw [binary_writes, Finset.mem_singleton]; exact devRef_ne_of_ne (show Pipeline.arrRef spec4 (0 : Fin cfg4.W) ≠ main_v86 by decide))]
      exact ((dat4 (V13 m ρ) c).arrAt_in 0 rfl _).trans (A_eq4 (V13 m ρ) c 0)
    | ⟨1, _⟩ =>
      rw [HloOp.result_of_not_mem _ _ (by rw [binary_writes, Finset.mem_singleton]; exact devRef_ne_of_ne (show Pipeline.arrRef spec4 (1 : Fin cfg4.W) ≠ main_v86 by decide))]
      exact ((dat4 (V13 m ρ) c).arrAt_in 1 rfl _).trans (A_eq4 (V13 m ρ) c 1)
    | ⟨2, _⟩ =>
      exact (Cert.KernelIdeal.RegionVal.final4 (V13 m ρ) c).trans (binary_result main_v83 main_v85 main_v86 _ _ _ _ (W13 m ρ c)).symm
  · rw [HloOp.result_of_not_mem _ _ (by
      rw [binary_writes, Finset.mem_singleton]
      exact fun e => h ⟨2, e.symm⟩)]
    unfold W14 Pipeline.withArrays
    rw [dif_neg h]

end Cert.KernelIdeal.Fold

end
-- ==== Proof.RegionVal5.lean ====
/-
  A middle dense stage of a layer, over the whole array.

  The stage runs over 50 blocks of 2000 rows. At block t it reads rows t·2000 … t·2000 + 1999 of the hop's aggregated
  features and of the running output, and the whole weight matrix, and writes the block of the new running output:
  entry (p, q) of the block is the running output at (t·2000 + p, q) plus the sum over the 32 columns k of
  features (t·2000 + p, k) times weights (k, q). The 50 blocks tile the 100000 rows (row r lies in block r / 2000), so
  the array written is the running output plus the product.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features', the running output's and the new output's blocks are
    block t of the rows, all columns; the weights' block is the whole matrix. -/
private theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- The body's result at (p, q): the running output there plus the sum over the columns k of
    features (p, k) · weights (k, q). -/
private theorem payload_apply (o : Vec Ideal S2000x32 .f32) (x0 : Vec Ideal S2000x32 .f32) (x1 : Vec Ideal S32x32 .f32)
    (j : S2000x32.Idx) :
    k5_pay1 o x0 x1 j = o j + ∑ k : Fin 32, x0 (ix2 (j 0) k) * x1 (ix2 k (j 1)) := by
  unfold k5_pay1
  simp only [shapeCast_self]
  exact (addf_apply _ _ j).trans (congrArg (o j + ·) (matmul_block_apply x0 x1 j))

section
variable (V : (c : Dev nD) → (b : Ref sig .tc) → Buf (Elt Ideal) ((c : Thread nD τ).loc b)) (c : Dev nD)

/-- The features' block at point t is rows t·2000 … of the features. -/
private theorem features_block (t : Fin cfg5.N) (p : Fin 2000) (k : Fin 32) (r : Fin 100000)
    (hr : r.val = t.val * 2000 + p.val) :
    (iblk5 V c 0 t : Vec Ideal S2000x32 .f32) (ix2 p k) = (V c main_v99 : FVec Ideal Cert.Spec.SN .f32) (ix2 r k) := by
  obtain ⟨e0, e1, -, -, -, -, -, -⟩ := block_indices t
  show V c main_v99 (((cfg5.win 0).blk t).view.emb (ix2 p k)) = V c main_v99 (ix2 r k)
  refine congrArg (V c main_v99) (funext fun a => Fin.ext ?_)
  match a with
  | ⟨0, _⟩ => show win5_0.index t (0 : Fin 2) * 2000 + 1 * p.val = r.val; omega
  | ⟨1, _⟩ => show win5_0.index t (1 : Fin 2) * 32 + 1 * k.val = k.val; omega

/-- The weights' block at every point is the whole matrix. -/
private theorem weights_block (t : Fin cfg5.N) (k q : Fin 32) :
    (iblk5 V c 1 t : Vec Ideal S32x32 .f32) (ix2 k q) = (V c main_v101 : FVec Ideal Cert.Spec.SW .f32) (ix2 k q) := by
  obtain ⟨-, -, e2, e3, -, -, -, -⟩ := block_indices t
  show V c main_v101 (((cfg5.win 1).blk t).view.emb (ix2 k q)) = V c main_v101 (ix2 k q)
  refine congrArg (V c main_v101) (funext fun a => Fin.ext ?_)
  match a with
  | ⟨0, _⟩ => show win5_1.index t (0 : Fin 2) * 32 + 1 * k.val = k.val; omega
  | ⟨1, _⟩ => show win5_1.index t (1 : Fin 2) * 32 + 1 * q.val = q.val; omega

/-- The running output's block at point t is rows t·2000 … of the running output. -/
private theorem running_block (t : Fin cfg5.N) (j : S2000x32.Idx) (i : Cert.Spec.SN.Idx)
    (hi0 : (i 0).val = t.val * 2000 + (j 0).val) (hi1 : (i 1).val = (j 1).val) :
    (iblk5 V c 2 t : Vec Ideal S2000x32 .f32) j = (V c main_v86 : FVec Ideal Cert.Spec.SN .f32) i := by
  obtain ⟨-, -, -, -, e4, e5, -, -⟩ := block_indices t
  show V c main_v86 (((cfg5.win 2).blk t).view.emb j) = V c main_v86 i
  refine congrArg (V c main_v86) (funext fun a => Fin.ext ?_)
  match a with
  | ⟨0, _⟩ => show win5_2.index t (0 : Fin 2) * 2000 + 1 * (j 0).val = (i 0).val; omega
  | ⟨1, _⟩ => show win5_2.index t (1 : Fin 2) * 32 + 1 * (j 1).val = (i 1).val; omega

/-- What point t writes back is block t of the running output plus the product. -/
private theorem flushed_eq (t : Fin cfg5.N) :
    (dat5 (F := Ideal) V c).flushed 3 t
      = ((cfg5.win 3).blk t).view.read (Elt Ideal)
          (Cert.Spec.linAcc (V c main_v99) (V c main_v101) (V c main_v86)) := by
  show (cfg5.win 3).cut (grid5.coords t) ((dat5 V c).after 3 t) = _
  rw [after5_3]
  unfold out5_3
  rw [View.canon_unit_zero origin_eq]
  simp only [View.ld_unit_zero (S := S2000x32) origin_eq, View.ld_unit_zero (S := S32x32) origin_eq]
  obtain ⟨-, -, -, -, -, -, e6, e7⟩ := block_indices t
  funext j
  refine (payload_apply (iblk5 V c 2 t) (iblk5 V c 0 t) (iblk5 V c 1 t) _).trans ?_
  have h0 : ((((cfg5.win 3).blk t).view.emb j) 0).val = t.val * 2000 + (j 0).val := by
    show win5_3.index t (0 : Fin 2) * 2000 + 1 * (j 0).val = t.val * 2000 + (j 0).val; omega
  have h1 : ((((cfg5.win 3).blk t).view.emb j) 1).val = (j 1).val := by
    show win5_3.index t (1 : Fin 2) * 32 + 1 * (j 1).val = (j 1).val; omega
  exact congrArg₂ (· + ·) (running_block V c t _ (((cfg5.win 3).blk t).view.emb j) h0 h1)
    (block_sum_eq_mm (V c main_v99) (V c main_v101) t.val (iblk5 V c 0 t) (iblk5 V c 1 t)
      (fun p k r hr => features_block V c t p k r hr) (fun k q => weights_block V c t k q) _
      (((cfg5.win 3).blk t).view.emb j) h0 h1)

/-- An index of the array is in point t's output block iff each coordinate is in the block's range on its axis. -/
private theorem mem_block (t : Fin cfg5.N) (i : S100000x32.Idx) :
    i ∈ ((cfg5.win 3).blk t).view.set ↔ ∀ a : Fin 2, win5_3.index t a * S2000x32.size a ≤ (i a).val
      ∧ (i a).val < win5_3.index t a * S2000x32.size a + S2000x32.size a := by
  show i ∈ ((View.whole (Pipeline.arrRef spec5 3)).slice (win5_3.rect t)).set ↔ _
  rw [View.set_slice_whole, Rect.mem_set_unit]
  exact Iff.rfl

/-- Row r is in the block of point r / 2000. -/
private theorem rows_covered (i : S100000x32.Idx) :
    ∃ t : Fin cfg5.N, (cfg5.win 3).flush t = true ∧ i ∈ ((cfg5.win 3).blk t).view.set := by
  have hi0 : (i 0).val < 100000 := (i 0).isLt
  have hi1 : (i 1).val < 32 := (i 1).isLt
  have ht : (i 0).val / 2000 < cfg5.N := by show (i 0).val / 2000 < 50; omega
  obtain ⟨-, -, -, -, -, -, e6, e7⟩ := block_indices ⟨(i 0).val / 2000, ht⟩
  have e6' : win5_3.index ⟨(i 0).val / 2000, ht⟩ (0 : Fin 2) = (i 0).val / 2000 := e6
  refine ⟨⟨(i 0).val / 2000, ht⟩, flush5_3 _, ?_⟩
  rw [mem_block]
  intro a
  match a with
  | ⟨0, _⟩ =>
    show win5_3.index ⟨(i 0).val / 2000, ht⟩ (0 : Fin 2) * 2000 ≤ (i 0).val
      ∧ (i 0).val < win5_3.index ⟨(i 0).val / 2000, ht⟩ (0 : Fin 2) * 2000 + 2000
    omega
  | ⟨1, _⟩ =>
    show win5_3.index ⟨(i 0).val / 2000, ht⟩ (1 : Fin 2) * 32 ≤ (i 1).val
      ∧ (i 1).val < win5_3.index ⟨(i 0).val / 2000, ht⟩ (1 : Fin 2) * 32 + 32
    omega

/-- The array the stage leaves is the running output plus the product of the features with the weights. -/
theorem final5 : (dat5 (F := Ideal) V c).arrAt 3 cfg5.N
    = Cert.Spec.linAcc (V c main_v99) (V c main_v101) (V c main_v86) :=
  (dat5 (F := Ideal) V c).arrAt_eq_of_cover 3 (Cert.Spec.linAcc (V c main_v99) (V c main_v101) (V c main_v86))
    (fun t _ => flushed_eq V c t) (rows_covered)

end

end Cert.KernelIdeal.RegionVal

end
-- ==== Proof.KernelStep5.lean ====
/-
  A region's exit contents are its entry contents with ONE buffer rewritten.
  A middle hop's region leaves every buffer as it found it except its result, which ends at the running output plus
  the product of the hop's aggregated features with the hop's weight matrix: a three-operand operation writing the
  result buffer.
-/
import proofs.«413670_j78391743086995_4_alg».proof.Proof.Gen.KernelIdeal.Frame
import proofs.«413670_j78391743086995_4_alg».proof.Proof.Spec
import proofs.«413670_j78391743086995_4_alg».proof.Proof.RegionVal5
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: running output plus features times weights. -/
abbrev rop5 : HloOp τ sig (Elt Ideal) :=
  StableHlo.ternary main_v99 main_v101 main_v86 main_v102
    ((fun h w o => Cert.Spec.linAcc h w o) : (⟨S100000x32, .f32⟩ : BufTy).Contents (Elt Ideal) → (⟨S32x32, .f32⟩ : BufTy).Contents (Elt Ideal) → (⟨S100000x32, .f32⟩ : BufTy).Contents (Elt Ideal) → (⟨S100000x32, .f32⟩ : BufTy).Contents (Elt Ideal))

/-- Leaving the region, each input array is as entered, the result array holds the sum, and no other buffer was
    touched. -/
theorem W16_eq (c : Dev nD) : W16 m ρ c = (rop5).result (W15 m ρ c) := by
  funext b
  by_cases h : ∃ w, Proc.devRef .tc (Pipeline.arrRef spec5 w) = b
  · obtain ⟨w, rfl⟩ := h
    rw [W16_arr m ρ c w]
    match w with
    | ⟨0, _⟩ =>
      rw [HloOp.result_of_not_mem _ _ (by rw [ternary_writes, Finset.mem_singleton]; exact devRef_ne_of_ne (show Pipeline.arrRef spec5 (0 : Fin cfg5.W) ≠ main_v102 by decide))]
      exact ((dat5 (V15 m ρ) c).arrAt_in 0 rfl _).trans (A_eq5 (V15 m ρ) c 0)
    | ⟨1, _⟩ =>
      rw [HloOp.result_of_not_mem _ _ (by rw [ternary_writes, Finset.mem_singleton]; exact devRef_ne_of_ne (show Pipeline.arrRef spec5 (1 : Fin cfg5.W) ≠ main_v102 by decide))]
      exact ((dat5 (V15 m ρ) c).arrAt_in 1 rfl _).trans (A_eq5 (V15 m ρ) c 1)
    | ⟨2, _⟩ =>
      rw [HloOp.result_of_not_mem _ _ (by rw [ternary_writes, Finset.mem_singleton]; exact devRef_ne_of_ne (show Pipeline.arrRef spec5 (2 : Fin cfg5.W) ≠ main_v102 by decide))]
      exact ((dat5 (V15 m ρ) c).arrAt_in 2 rfl _).trans (A_eq5 (V15 m ρ) c 2)
    | ⟨3, _⟩ =>
      exact (Cert.KernelIdeal.RegionVal.final5 (V15 m ρ) c).trans (ternary_result main_v99 main_v101 main_v86 main_v102 _ _ _ _ _ (W15 m ρ c)).symm
  · rw [HloOp.result_of_not_mem _ _ (by
      rw [ternary_writes, Finset.mem_singleton]
      exact fun e => h ⟨3, e.symm⟩)]
    unfold W16 Pipeline.withArrays
    rw [dif_neg h]

end Cert.KernelIdeal.Fold

end
-- ==== Proof.RegionVal6.lean ====
/-
  A middle dense stage of a layer, over the whole array.

  The stage runs over 50 blocks of 2000 rows. At block t it reads rows t·2000 … t·2000 + 1999 of the hop's aggregated
  features and of the running output, and the whole weight matrix, and writes the block of the new running output:
  entry (p, q) of the block is the running output at (t·2000 + p, q) plus the sum over the 32 columns k of
  features (t·2000 + p, k) times weights (k, q). The 50 blocks tile the 100000 rows (row r lies in block r / 2000), so
  the array written is the running output plus the product.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features', the running output's and the new output's blocks are
    block t of the rows, all columns; the weights' block is the whole matrix. -/
private theorem block_indices : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- The body's result at (p, q): the running output there plus the sum over the columns k of
    features (p, k) · weights (k, q). -/
private theorem payload_apply (o : Vec Ideal S2000x32 .f32) (x0 : Vec Ideal S2000x32 .f32) (x1 : Vec Ideal S32x32 .f32)
    (j : S2000x32.Idx) :
    k6_pay1 o x0 x1 j = o j + ∑ k : Fin 32, x0 (ix2 (j 0) k) * x1 (ix2 k (j 1)) := by
  unfold k6_pay1
  simp only [shapeCast_self]
  exact (addf_apply _ _ j).trans (congrArg (o j + ·) (matmul_block_apply x0 x1 j))

section
variable (V : (c : Dev nD) → (b : Ref sig .tc) → Buf (Elt Ideal) ((c : Thread nD τ).loc b)) (c : Dev nD)

/-- The features' block at point t is rows t·2000 … of the features. -/
private theorem features_block (t : Fin cfg6.N) (p : Fin 2000) (k : Fin 32) (r : Fin 100000)
    (hr : r.val = t.val * 2000 + p.val) :
    (iblk6 V c 0 t : Vec Ideal S2000x32 .f32) (ix2 p k) = (V c main_v115 : FVec Ideal Cert.Spec.SN .f32) (ix2 r k) := by
  obtain ⟨e0, e1, -, -, -, -, -, -⟩ := block_indices t
  show V c main_v115 (((cfg6.win 0).blk t).view.emb (ix2 p k)) = V c main_v115 (ix2 r k)
  refine congrArg (V c main_v115) (funext fun a => Fin.ext ?_)
  match a with
  | ⟨0, _⟩ => show win6_0.index t (0 : Fin 2) * 2000 + 1 * p.val = r.val; omega
  | ⟨1, _⟩ => show win6_0.index t (1 : Fin 2) * 32 + 1 * k.val = k.val; omega

/-- The weights' block at every point is the whole matrix. -/
private theorem weights_block (t : Fin cfg6.N) (k q : Fin 32) :
    (iblk6 V c 1 t : Vec Ideal S32x32 .f32) (ix2 k q) = (V c main_v117 : FVec Ideal Cert.Spec.SW .f32) (ix2 k q) := by
  obtain ⟨-, -, e2, e3, -, -, -, -⟩ := block_indices t
  show V c main_v117 (((cfg6.win 1).blk t).view.emb (ix2 k q)) = V c main_v117 (ix2 k q)
  refine congrArg (V c main_v117) (funext fun a => Fin.ext ?_)
  match a with
  | ⟨0, _⟩ => show win6_1.index t (0 : Fin 2) * 32 + 1 * k.val = k.val; omega
  | ⟨1, _⟩ => show win6_1.index t (1 : Fin 2) * 32 + 1 * q.val = q.val; omega

/-- The running output's block at point t is rows t·2000 … of the running output. -/
private theorem running_block (t : Fin cfg6.N) (j : S2000x32.Idx) (i : Cert.Spec.SN.Idx)
    (hi0 : (i 0).val = t.val * 2000 + (j 0).val) (hi1 : (i 1).val = (j 1).val) :
    (iblk6 V c 2 t : Vec Ideal S2000x32 .f32) j = (V c main_v102 : FVec Ideal Cert.Spec.SN .f32) i := by
  obtain ⟨-, -, -, -, e4, e5, -, -⟩ := block_indices t
  show V c main_v102 (((cfg6.win 2).blk t).view.emb j) = V c main_v102 i
  refine congrArg (V c main_v102) (funext fun a => Fin.ext ?_)
  match a with
  | ⟨0, _⟩ => show win6_2.index t (0 : Fin 2) * 2000 + 1 * (j 0).val = (i 0).val; omega
  | ⟨1, _⟩ => show win6_2.index t (1 : Fin 2) * 32 + 1 * (j 1).val = (i 1).val; omega

/-- What point t writes back is block t of the running output plus the product. -/
private theorem flushed_eq (t : Fin cfg6.N) :
    (dat6 (F := Ideal) V c).flushed 3 t
      = ((cfg6.win 3).blk t).view.read (Elt Ideal)
          (Cert.Spec.linAcc (V c main_v115) (V c main_v117) (V c main_v102)) := by
  show (cfg6.win 3).cut (grid6.coords t) ((dat6 V c).after 3 t) = _
  rw [after6_3]
  unfold out6_3
  rw [View.canon_unit_zero origin_eq]
  simp only [View.ld_unit_zero (S := S2000x32) origin_eq, View.ld_unit_zero (S := S32x32) origin_eq]
  obtain ⟨-, -, -, -, -, -, e6, e7⟩ := block_indices t
  funext j
  refine (payload_apply (iblk6 V c 2 t) (iblk6 V c 0 t) (iblk6 V c 1 t) _).trans ?_
  have h0 : ((((cfg6.win 3).blk t).view.emb j) 0).val = t.val * 2000 + (j 0).val := by
    show win6_3.index t (0 : Fin 2) * 2000 + 1 * (j 0).val = t.val * 2000 + (j 0).val; omega
  have h1 : ((((cfg6.win 3).blk t).view.emb j) 1).val = (j 1).val := by
    show win6_3.index t (1 : Fin 2) * 32 + 1 * (j 1).val = (j 1).val; omega
  exact congrArg₂ (· + ·) (running_block V c t _ (((cfg6.win 3).blk t).view.emb j) h0 h1)
    (block_sum_eq_mm (V c main_v115) (V c main_v117) t.val (iblk6 V c 0 t) (iblk6 V c 1 t)
      (fun p k r hr => features_block V c t p k r hr) (fun k q => weights_block V c t k q) _
      (((cfg6.win 3).blk t).view.emb j) h0 h1)

/-- An index of the array is in point t's output block iff each coordinate is in the block's range on its axis. -/
private theorem mem_block (t : Fin cfg6.N) (i : S100000x32.Idx) :
    i ∈ ((cfg6.win 3).blk t).view.set ↔ ∀ a : Fin 2, win6_3.index t a * S2000x32.size a ≤ (i a).val
      ∧ (i a).val < win6_3.index t a * S2000x32.size a + S2000x32.size a := by
  show i ∈ ((View.whole (Pipeline.arrRef spec6 3)).slice (win6_3.rect t)).set ↔ _
  rw [View.set_slice_whole, Rect.mem_set_unit]
  exact Iff.rfl

/-- Row r is in the block of point r / 2000. -/
private theorem rows_covered (i : S100000x32.Idx) :
    ∃ t : Fin cfg6.N, (cfg6.win 3).flush t = true ∧ i ∈ ((cfg6.win 3).blk t).view.set := by
  have hi0 : (i 0).val < 100000 := (i 0).isLt
  have hi1 : (i 1).val < 32 := (i 1).isLt
  have ht : (i 0).val / 2000 < cfg6.N := by show (i 0).val / 2000 < 50; omega
  obtain ⟨-, -, -, -, -, -, e6, e7⟩ := block_indices ⟨(i 0).val / 2000, ht⟩
  have e6' : win6_3.index ⟨(i 0).val / 2000, ht⟩ (0 : Fin 2) = (i 0).val / 2000 := e6
  refine ⟨⟨(i 0).val / 2000, ht⟩, flush6_3 _, ?_⟩
  rw [mem_block]
  intro a
  match a with
  | ⟨0, _⟩ =>
    show win6_3.index ⟨(i 0).val / 2000, ht⟩ (0 : Fin 2) * 2000 ≤ (i 0).val
      ∧ (i 0).val < win6_3.index ⟨(i 0).val / 2000, ht⟩ (0 : Fin 2) * 2000 + 2000
    omega
  | ⟨1, _⟩ =>
    show win6_3.index ⟨(i 0).val / 2000, ht⟩ (1 : Fin 2) * 32 ≤ (i 1).val
      ∧ (i 1).val < win6_3.index ⟨(i 0).val / 2000, ht⟩ (1 : Fin 2) * 32 + 32
    omega

/-- The array the stage leaves is the running output plus the product of the features with the weights. -/
theorem final6 : (dat6 (F := Ideal) V c).arrAt 3 cfg6.N
    = Cert.Spec.linAcc (V c main_v115) (V c main_v117) (V c main_v102) :=
  (dat6 (F := Ideal) V c).arrAt_eq_of_cover 3 (Cert.Spec.linAcc (V c main_v115) (V c main_v117) (V c main_v102))
    (fun t _ => flushed_eq V c t) (rows_covered)

end

end Cert.KernelIdeal.RegionVal

end
-- ==== Proof.KernelStep6.lean ====
/-
  A region's exit contents are its entry contents with ONE buffer rewritten.
  A middle hop's region leaves every buffer as it found it except its result, which ends at the running output plus
  the product of the hop's aggregated features with the hop's weight matrix: a three-operand operation writing the
  result buffer.
-/
import proofs.«413670_j78391743086995_4_alg».proof.Proof.Gen.KernelIdeal.Frame
import proofs.«413670_j78391743086995_4_alg».proof.Proof.Spec
import proofs.«413670_j78391743086995_4_alg».proof.Proof.RegionVal6
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: running output plus features times weights. -/
abbrev rop6 : HloOp τ sig (Elt Ideal) :=
  StableHlo.ternary main_v115 main_v117 main_v102 main_v118
    ((fun h w o => Cert.Spec.linAcc h w o) : (⟨S100000x32, .f32⟩ : BufTy).Contents (Elt Ideal) → (⟨S32x32, .f32⟩ : BufTy).Contents (Elt Ideal) → (⟨S100000x32, .f32⟩ : BufTy).Contents (Elt Ideal) → (⟨S100000x32, .f32⟩ : BufTy).Contents (Elt Ideal))

/-- Leaving the region, each input array is as entered, the result array holds the sum, and no other buffer was
    touched. -/
theorem W18_eq (c : Dev nD) : W18 m ρ c = (rop6).result (W17 m ρ c) := by
  funext b
  by_cases h : ∃ w, Proc.devRef .tc (Pipeline.arrRef spec6 w) = b
  · obtain ⟨w, rfl⟩ := h
    rw [W18_arr m ρ c w]
    match w with
    | ⟨0, _⟩ =>
      rw [HloOp.result_of_not_mem _ _ (by rw [ternary_writes, Finset.mem_singleton]; exact devRef_ne_of_ne (show Pipeline.arrRef spec6 (0 : Fin cfg6.W) ≠ main_v118 by decide))]
      exact ((dat6 (V17 m ρ) c).arrAt_in 0 rfl _).trans (A_eq6 (V17 m ρ) c 0)
    | ⟨1, _⟩ =>
      rw [HloOp.result_of_not_mem _ _ (by rw [ternary_writes, Finset.mem_singleton]; exact devRef_ne_of_ne (show Pipeline.arrRef spec6 (1 : Fin cfg6.W) ≠ main_v118 by decide))]
      exact ((dat6 (V17 m ρ) c).arrAt_in 1 rfl _).trans (A_eq6 (V17 m ρ) c 1)
    | ⟨2, _⟩ =>
      rw [HloOp.result_of_not_mem _ _ (by rw [ternary_writes, Finset.mem_singleton]; exact devRef_ne_of_ne (show Pipeline.arrRef spec6 (2 : Fin cfg6.W) ≠ main_v118 by decide))]
      exact ((dat6 (V17 m ρ) c).arrAt_in 2 rfl _).trans (A_eq6 (V17 m ρ) c 2)
    | ⟨3, _⟩ =>
      exact (Cert.KernelIdeal.RegionVal.final6 (V17 m ρ) c).trans (ternary_result main_v115 main_v117 main_v102 main_v118 _ _ _ _ _ (W17 m ρ c)).symm
  · rw [HloOp.result_of_not_mem _ _ (by
      rw [ternary_writes, Finset.mem_singleton]
      exact fun e => h ⟨3, e.symm⟩)]
    unfold W18 Pipeline.withArrays
    rw [dif_neg h]

end Cert.KernelIdeal.Fold

end
-- ==== Proof.RegionVal7.lean ====
/-
  The last dense stage of a layer, over the whole array.

  The stage runs over 50 blocks of 2000 rows. At block t it reads rows t·2000 … t·2000 + 1999 of the hop's aggregated
  features and of the running output, the whole weight matrix and the bias row, and writes the block of the layer's
  output: entry (p, q) of the block is the running output at (t·2000 + p, q), plus the sum over the 32 columns k of
  features (t·2000 + p, k) times weights (k, q), plus the bias at q, clamped below at zero. The 50 blocks tile the
  100000 rows (row r lies in block r / 2000), so the array written is that function of the whole arrays.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features', the running output's and the new output's blocks are
    block t of the rows, all columns; the weights' block is the whole matrix and the bias' block the whole row. -/
private theorem block_indices : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

/-- The body's result at (p, q): the running output there, plus the sum over the columns k of
    features (p, k) · weights (k, q), plus the bias at q, clamped below at zero. -/
private theorem payload_apply (o : Vec Ideal S2000x32 .f32) (x0 : Vec Ideal S2000x32 .f32) (x1 : Vec Ideal S32x32 .f32)
    (b : Vec Ideal S1x32 .f32) (j : S2000x32.Idx) :
    k7_pay1 o x0 x1 b j = max ((o j + ∑ k : Fin 32, x0 (ix2 (j 0) k) * x1 (ix2 k (j 1))) + b (ix2 0 (j 1))) 0 := by
  unfold k7_pay1
  simp only [shapeCast_self]
  refine (maximumf_apply _ _ j).trans (congrArg₂ max ?_ ?_)
  · exact (addf_apply _ _ j).trans (congrArg₂ (· + ·)
      ((addf_apply _ _ j).trans (congrArg (o j + ·) (matmul_block_apply x0 x1 j))) (bias_row_apply b _ j))
  · show Ideal.ofBits .f32 0x00000000#32 = 0
    exact Ideal.ofBits_zero_f32

section
variable (V : (c : Dev nD) → (b : Ref sig .tc) → Buf (Elt Ideal) ((c : Thread nD τ).loc b)) (c : Dev nD)

/-- The features' block at point t is rows t·2000 … of the features. -/
private theorem features_block (t : Fin cfg7.N) (p : Fin 2000) (k : Fin 32) (r : Fin 100000)
    (hr : r.val = t.val * 2000 + p.val) :
    (iblk7 V c 0 t : Vec Ideal S2000x32 .f32) (ix2 p k) = (V c main_v131 : FVec Ideal Cert.Spec.SN .f32) (ix2 r k) := by
  obtain ⟨e0, e1, -, -, -, -, -, -, -, -⟩ := block_indices t
  show V c main_v131 (((cfg7.win 0).blk t).view.emb (ix2 p k)) = V c main_v131 (ix2 r k)
  refine congrArg (V c main_v131) (funext fun a => Fin.ext ?_)
  match a with
  | ⟨0, _⟩ => show win7_0.index t (0 : Fin 2) * 2000 + 1 * p.val = r.val; omega
  | ⟨1, _⟩ => show win7_0.index t (1 : Fin 2) * 32 + 1 * k.val = k.val; omega

/-- The weights' block at every point is the whole matrix. -/
private theorem weights_block (t : Fin cfg7.N) (k q : Fin 32) :
    (iblk7 V c 1 t : Vec Ideal S32x32 .f32) (ix2 k q) = (V c main_v133 : FVec Ideal Cert.Spec.SW .f32) (ix2 k q) := by
  obtain ⟨-, -, e2, e3, -, -, -, -, -, -⟩ := block_indices t
  show V c main_v133 (((cfg7.win 1).blk t).view.emb (ix2 k q)) = V c main_v133 (ix2 k q)
  refine congrArg (V c main_v133) (funext fun a => Fin.ext ?_)
  match a with
  | ⟨0, _⟩ => show win7_1.index t (0 : Fin 2) * 32 + 1 * k.val = k.val; omega
  | ⟨1, _⟩ => show win7_1.index t (1 : Fin 2) * 32 + 1 * q.val = q.val; omega

/-- The bias' block at every point is the whole row. -/
private theorem bias_block (t : Fin cfg7.N) (q : Fin 32) :
    (iblk7 V c 2 t : Vec Ideal S1x32 .f32) (ix2 0 q) = (V c main_v136 : FVec Ideal Cert.Spec.SB .f32) (ix2 0 q) := by
  obtain ⟨-, -, -, -, e4, e5, -, -, -, -⟩ := block_indices t
  show V c main_v136 (((cfg7.win 2).blk t).view.emb (ix2 0 q)) = V c main_v136 (ix2 0 q)
  refine congrArg (V c main_v136) (funext fun a => Fin.ext ?_)
  match a with
  | ⟨0, _⟩ => show win7_2.index t (0 : Fin 2) * 1 + 1 * 0 = 0; omega
  | ⟨1, _⟩ => show win7_2.index t (1 : Fin 2) * 32 + 1 * q.val = q.val; omega

/-- The running output's block at point t is rows t·2000 … of the running output. -/
private theorem running_block (t : Fin cfg7.N) (j : S2000x32.Idx) (i : Cert.Spec.SN.Idx)
    (hi0 : (i 0).val = t.val * 2000 + (j 0).val) (hi1 : (i 1).val = (j 1).val) :
    (iblk7 V c 3 t : Vec Ideal S2000x32 .f32) j = (V c main_v118 : FVec Ideal Cert.Spec.SN .f32) i := by
  obtain ⟨-, -, -, -, -, -, e6, e7, -, -⟩ := block_indices t
  show V c main_v118 (((cfg7.win 3).blk t).view.emb j) = V c main_v118 i
  refine congrArg (V c main_v118) (funext fun a => Fin.ext ?_)
  match a with
  | ⟨0, _⟩ => show win7_3.index t (0 : Fin 2) * 2000 + 1 * (j 0).val = (i 0).val; omega
  | ⟨1, _⟩ => show win7_3.index t (1 : Fin 2) * 32 + 1 * (j 1).val = (i 1).val; omega

/-- What point t writes back is block t of the layer's output. -/
private theorem flushed_eq (t : Fin cfg7.N) :
    (dat7 (F := Ideal) V c).flushed 4 t
      = ((cfg7.win 4).blk t).view.read (Elt Ideal)
          (Cert.Spec.linFin (V c main_v131) (V c main_v133) (V c main_v136) (V c main_v118)) := by
  show (cfg7.win 4).cut (grid7.coords t) ((dat7 V c).after 4 t) = _
  rw [after7_4]
  unfold out7_4
  rw [View.canon_unit_zero origin_eq]
  simp only [View.ld_unit_zero (S := S2000x32) origin_eq, View.ld_unit_zero (S := S32x32) origin_eq,
    View.ld_unit_zero (S := S1x32) origin_eq]
  obtain ⟨-, -, -, -, -, -, -, -, e8, e9⟩ := block_indices t
  funext j
  refine (payload_apply (iblk7 V c 3 t) (iblk7 V c 0 t) (iblk7 V c 1 t) (iblk7 V c 2 t) _).trans ?_
  have h0 : ((((cfg7.win 4).blk t).view.emb j) 0).val = t.val * 2000 + (j 0).val := by
    show win7_4.index t (0 : Fin 2) * 2000 + 1 * (j 0).val = t.val * 2000 + (j 0).val; omega
  have h1 : ((((cfg7.win 4).blk t).view.emb j) 1).val = (j 1).val := by
    show win7_4.index t (1 : Fin 2) * 32 + 1 * (j 1).val = (j 1).val; omega
  have hq : (⟨(j 1).val, (j 1).isLt⟩ : Fin 32) = (((cfg7.win 4).blk t).view.emb j) 1 := Fin.ext h1.symm
  exact congrArg₂ max (congrArg₂ (· + ·)
    (congrArg₂ (· + ·) (running_block V c t _ (((cfg7.win 4).blk t).view.emb j) h0 h1)
      (block_sum_eq_mm (V c main_v131) (V c main_v133) t.val (iblk7 V c 0 t) (iblk7 V c 1 t)
        (fun p k r hr => features_block V c t p k r hr) (fun k q => weights_block V c t k q) _
        (((cfg7.win 4).blk t).view.emb j) h0 h1))
    ((bias_block V c t _).trans (congrArg (fun q : Fin 32 => (V c main_v136 : FVec Ideal Cert.Spec.SB .f32) (ix2 0 q)) hq)))
    rfl

/-- An index of the array is in point t's output block iff each coordinate is in the block's range on its axis. -/
private theorem mem_block (t : Fin cfg7.N) (i : S100000x32.Idx) :
    i ∈ ((cfg7.win 4).blk t).view.set ↔ ∀ a : Fin 2, win7_4.index t a * S2000x32.size a ≤ (i a).val
      ∧ (i a).val < win7_4.index t a * S2000x32.size a + S2000x32.size a := by
  show i ∈ ((View.whole (Pipeline.arrRef spec7 4)).slice (win7_4.rect t)).set ↔ _
  rw [View.set_slice_whole, Rect.mem_set_unit]
  exact Iff.rfl

/-- Row r is in the block of point r / 2000. -/
private theorem rows_covered (i : S100000x32.Idx) :
    ∃ t : Fin cfg7.N, (cfg7.win 4).flush t = true ∧ i ∈ ((cfg7.win 4).blk t).view.set := by
  have hi0 : (i 0).val < 100000 := (i 0).isLt
  have hi1 : (i 1).val < 32 := (i 1).isLt
  have ht : (i 0).val / 2000 < cfg7.N := by show (i 0).val / 2000 < 50; omega
  obtain ⟨-, -, -, -, -, -, -, -, e8, e9⟩ := block_indices ⟨(i 0).val / 2000, ht⟩
  have e8' : win7_4.index ⟨(i 0).val / 2000, ht⟩ (0 : Fin 2) = (i 0).val / 2000 := e8
  refine ⟨⟨(i 0).val / 2000, ht⟩, flush7_4 _, ?_⟩
  rw [mem_block]
  intro a
  match a with
  | ⟨0, _⟩ =>
    show win7_4.index ⟨(i 0).val / 2000, ht⟩ (0 : Fin 2) * 2000 ≤ (i 0).val
      ∧ (i 0).val < win7_4.index ⟨(i 0).val / 2000, ht⟩ (0 : Fin 2) * 2000 + 2000
    omega
  | ⟨1, _⟩ =>
    show win7_4.index ⟨(i 0).val / 2000, ht⟩ (1 : Fin 2) * 32 ≤ (i 1).val
      ∧ (i 1).val < win7_4.index ⟨(i 0).val / 2000, ht⟩ (1 : Fin 2) * 32 + 32
    omega

/-- The array the stage leaves is the layer's output: running output plus product plus bias, clamped below at zero. -/
theorem final7 : (dat7 (F := Ideal) V c).arrAt 4 cfg7.N
    = Cert.Spec.linFin (V c main_v131) (V c main_v133) (V c main_v136) (V c main_v118) :=
  (dat7 (F := Ideal) V c).arrAt_eq_of_cover 4
    (Cert.Spec.linFin (V c main_v131) (V c main_v133) (V c main_v136) (V c main_v118))
    (fun t _ => flushed_eq V c t) (rows_covered)

end

end Cert.KernelIdeal.RegionVal

end
-- ==== Proof.KernelStep7.lean ====
/-
  A region's exit contents are its entry contents with ONE buffer rewritten.
  A layer's last region leaves every buffer as it found it except its result, which ends at the running output plus
  the last hop's product plus the bias row, clamped below at zero: a four-operand operation writing the result
  buffer.
-/
import proofs.«413670_j78391743086995_4_alg».proof.Proof.Gen.KernelIdeal.Frame
import proofs.«413670_j78391743086995_4_alg».proof.Proof.Spec
import proofs.«413670_j78391743086995_4_alg».proof.Proof.RegionVal7
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: the layer's output. -/
abbrev rop7 : HloOp τ sig (Elt Ideal) :=
  StableHlo.quaternary main_v131 main_v133 main_v136 main_v118 main_v137
    ((fun h w b o => Cert.Spec.linFin h w b o) : (⟨S100000x32, .f32⟩ : BufTy).Contents (Elt Ideal) → (⟨S32x32, .f32⟩ : BufTy).Contents (Elt Ideal) → (⟨S1x32, .f32⟩ : BufTy).Contents (Elt Ideal) → (⟨S100000x32, .f32⟩ : BufTy).Contents (Elt Ideal) → (⟨S100000x32, .f32⟩ : BufTy).Contents (Elt Ideal))

set_option maxHeartbeats 2000000 in
/-- Leaving the region, each input array is as entered, the result array holds the layer's output, and no other
    buffer was touched. -/
theorem W20_eq (c : Dev nD) : W20 m ρ c = (rop7).result (W19 m ρ c) := by
  funext b
  by_cases h : ∃ w, Proc.devRef .tc (Pipeline.arrRef spec7 w) = b
  · obtain ⟨w, rfl⟩ := h
    rw [W20_arr m ρ c w]
    match w with
    | ⟨0, _⟩ =>
      rw [HloOp.result_of_not_mem _ _ (by rw [quaternary_writes, Finset.mem_singleton]; exact devRef_ne_of_ne (show Pipeline.arrRef spec7 (0 : Fin cfg7.W) ≠ main_v137 by decide))]
      exact ((dat7 (V19 m ρ) c).arrAt_in 0 rfl _).trans (A_eq7 (V19 m ρ) c 0)
    | ⟨1, _⟩ =>
      rw [HloOp.result_of_not_mem _ _ (by rw [quaternary_writes, Finset.mem_singleton]; exact devRef_ne_of_ne (show Pipeline.arrRef spec7 (1 : Fin cfg7.W) ≠ main_v137 by decide))]
      exact ((dat7 (V19 m ρ) c).arrAt_in 1 rfl _).trans (A_eq7 (V19 m ρ) c 1)
    | ⟨2, _⟩ =>
      rw [HloOp.result_of_not_mem _ _ (by rw [quaternary_writes, Finset.mem_singleton]; exact devRef_ne_of_ne (show Pipeline.arrRef spec7 (2 : Fin cfg7.W) ≠ main_v137 by decide))]
      exact ((dat7 (V19 m ρ) c).arrAt_in 2 rfl _).trans (A_eq7 (V19 m ρ) c 2)
    | ⟨3, _⟩ =>
      rw [HloOp.result_of_not_mem _ _ (by rw [quaternary_writes, Finset.mem_singleton]; exact devRef_ne_of_ne (show Pipeline.arrRef spec7 (3 : Fin cfg7.W) ≠ main_v137 by decide))]
      exact ((dat7 (V19 m ρ) c).arrAt_in 3 rfl _).trans (A_eq7 (V19 m ρ) c 3)
    | ⟨4, _⟩ =>
      exact (Cert.KernelIdeal.RegionVal.final7 (V19 m ρ) c).trans (quaternary_result main_v131 main_v133 main_v136 main_v118 main_v137 _ _ _ _ _ _ (W19 m ρ c)).symm
  · rw [HloOp.result_of_not_mem _ _ (by
      rw [quaternary_writes, Finset.mem_singleton]
      exact fun e => h ⟨4, e.symm⟩)]
    unfold W20 Pipeline.withArrays
    rw [dif_neg h]

end Cert.KernelIdeal.Fold

end
-- ==== Proof.RegionVal8.lean ====
/-
  The first dense stage of a layer, over the whole array.

  The stage runs over 50 blocks of 2000 rows. At block t it reads rows t·2000 … t·2000 + 1999 of the node features
  and the whole weight matrix, and writes the block of the product: entry (p, q) of the block is the sum over the 32
  columns k of features (t·2000 + p, k) times weights (k, q), which is the whole-array product at row t·2000 + p. The
  50 blocks tile the 100000 rows (row r lies in block r / 2000), so the array written is the product.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features' and the output's blocks are block t of the rows, all
    columns; the weights' block is the whole matrix. -/
private theorem block_indices : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The body's result at (p, q): the sum over the columns k of features (p, k) · weights (k, q). -/
private theorem payload_apply (x0 : Vec Ideal S2000x32 .f32) (x1 : Vec Ideal S32x32 .f32) (j : S2000x32.Idx) :
    k8_pay1 x0 x1 j = ∑ k : Fin 32, x0 (ix2 (j 0) k) * x1 (ix2 k (j 1)) := by
  unfold k8_pay1
  simp only [shapeCast_self]
  exact matmul_block_apply x0 x1 j

section
variable (V : (c : Dev nD) → (b : Ref sig .tc) → Buf (Elt Ideal) ((c : Thread nD τ).loc b)) (c : Dev nD)

/-- The features' block at point t is rows t·2000 … of the features. -/
private theorem features_block (t : Fin cfg8.N) (p : Fin 2000) (k : Fin 32) (r : Fin 100000)
    (hr : r.val = t.val * 2000 + p.val) :
    (iblk8 V c 0 t : Vec Ideal S2000x32 .f32) (ix2 p k) = (V c main_v137 : FVec Ideal Cert.Spec.SN .f32) (ix2 r k) := by
  obtain ⟨e0, e1, -, -, -, -⟩ := block_indices t
  show V c main_v137 (((cfg8.win 0).blk t).view.emb (ix2 p k)) = V c main_v137 (ix2 r k)
  refine congrArg (V c main_v137) (funext fun a => Fin.ext ?_)
  match a with
  | ⟨0, _⟩ => show win8_0.index t (0 : Fin 2) * 2000 + 1 * p.val = r.val; omega
  | ⟨1, _⟩ => show win8_0.index t (1 : Fin 2) * 32 + 1 * k.val = k.val; omega

/-- The weights' block at every point is the whole matrix. -/
private theorem weights_block (t : Fin cfg8.N) (k q : Fin 32) :
    (iblk8 V c 1 t : Vec Ideal S32x32 .f32) (ix2 k q) = (V c main_v139 : FVec Ideal Cert.Spec.SW .f32) (ix2 k q) := by
  obtain ⟨-, -, e2, e3, -, -⟩ := block_indices t
  show V c main_v139 (((cfg8.win 1).blk t).view.emb (ix2 k q)) = V c main_v139 (ix2 k q)
  refine congrArg (V c main_v139) (funext fun a => Fin.ext ?_)
  match a with
  | ⟨0, _⟩ => show win8_1.index t (0 : Fin 2) * 32 + 1 * k.val = k.val; omega
  | ⟨1, _⟩ => show win8_1.index t (1 : Fin 2) * 32 + 1 * q.val = q.val; omega

/-- What point t writes back is block t of the product. -/
private theorem flushed_eq (t : Fin cfg8.N) :
    (dat8 (F := Ideal) V c).flushed 2 t
      = ((cfg8.win 2).blk t).view.read (Elt Ideal) (Cert.Spec.mm (V c main_v137) (V c main_v139)) := by
  show (cfg8.win 2).cut (grid8.coords t) ((dat8 V c).after 2 t) = _
  rw [after8_2]
  unfold out8_2
  rw [View.canon_unit_zero origin_eq]
  simp only [View.ld_unit_zero (S := S2000x32) origin_eq, View.ld_unit_zero (S := S32x32) origin_eq]
  obtain ⟨-, -, -, -, e4, e5⟩ := block_indices t
  funext j
  refine (payload_apply (iblk8 V c 0 t) (iblk8 V c 1 t) _).trans ?_
  refine block_sum_eq_mm (V c main_v137) (V c main_v139) t.val (iblk8 V c 0 t) (iblk8 V c 1 t)
    (fun p k r hr => features_block V c t p k r hr) (fun k q => weights_block V c t k q) _ _ ?_ ?_
  · show win8_2.index t (0 : Fin 2) * 2000 + 1 * (j 0).val = t.val * 2000 + (j 0).val; omega
  · show win8_2.index t (1 : Fin 2) * 32 + 1 * (j 1).val = (j 1).val; omega

/-- An index of the array is in point t's output block iff each coordinate is in the block's range on its axis. -/
private theorem mem_block (t : Fin cfg8.N) (i : S100000x32.Idx) :
    i ∈ ((cfg8.win 2).blk t).view.set ↔ ∀ a : Fin 2, win8_2.index t a * S2000x32.size a ≤ (i a).val
      ∧ (i a).val < win8_2.index t a * S2000x32.size a + S2000x32.size a := by
  show i ∈ ((View.whole (Pipeline.arrRef spec8 2)).slice (win8_2.rect t)).set ↔ _
  rw [View.set_slice_whole, Rect.mem_set_unit]
  exact Iff.rfl

/-- Row r is in the block of point r / 2000. -/
private theorem rows_covered (i : S100000x32.Idx) :
    ∃ t : Fin cfg8.N, (cfg8.win 2).flush t = true ∧ i ∈ ((cfg8.win 2).blk t).view.set := by
  have hi0 : (i 0).val < 100000 := (i 0).isLt
  have hi1 : (i 1).val < 32 := (i 1).isLt
  have ht : (i 0).val / 2000 < cfg8.N := by show (i 0).val / 2000 < 50; omega
  obtain ⟨-, -, -, -, e4, e5⟩ := block_indices ⟨(i 0).val / 2000, ht⟩
  have e4' : win8_2.index ⟨(i 0).val / 2000, ht⟩ (0 : Fin 2) = (i 0).val / 2000 := e4
  refine ⟨⟨(i 0).val / 2000, ht⟩, flush8_2 _, ?_⟩
  rw [mem_block]
  intro a
  match a with
  | ⟨0, _⟩ =>
    show win8_2.index ⟨(i 0).val / 2000, ht⟩ (0 : Fin 2) * 2000 ≤ (i 0).val
      ∧ (i 0).val < win8_2.index ⟨(i 0).val / 2000, ht⟩ (0 : Fin 2) * 2000 + 2000
    omega
  | ⟨1, _⟩ =>
    show win8_2.index ⟨(i 0).val / 2000, ht⟩ (1 : Fin 2) * 32 ≤ (i 1).val
      ∧ (i 1).val < win8_2.index ⟨(i 0).val / 2000, ht⟩ (1 : Fin 2) * 32 + 32
    omega

/-- The array the stage leaves is the product of the features with the weights. -/
theorem final8 : (dat8 (F := Ideal) V c).arrAt 2 cfg8.N = Cert.Spec.mm (V c main_v137) (V c main_v139) :=
  (dat8 (F := Ideal) V c).arrAt_eq_of_cover 2 (Cert.Spec.mm (V c main_v137) (V c main_v139))
    (fun t _ => flushed_eq V c t) (rows_covered)

end

end Cert.KernelIdeal.RegionVal

end
-- ==== Proof.KernelStep8.lean ====
/-
  A region's exit contents are its entry contents with ONE buffer rewritten.
  The first region of a layer leaves every buffer as it found it except its result, which ends at the product of the
  node features with the layer's first weight matrix. So, as far as buffer contents go, the region is one more host
  operation: a two-operand operation writing the result buffer.
-/
import proofs.«413670_j78391743086995_4_alg».proof.Proof.Gen.KernelIdeal.Frame
import proofs.«413670_j78391743086995_4_alg».proof.Proof.Spec
import proofs.«413670_j78391743086995_4_alg».proof.Proof.RegionVal8
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: features times weights. -/
abbrev rop8 : HloOp τ sig (Elt Ideal) :=
  StableHlo.binary main_v137 main_v139 main_v140
    ((fun x w => Cert.Spec.mm x w) : (⟨S100000x32, .f32⟩ : BufTy).Contents (Elt Ideal) → (⟨S32x32, .f32⟩ : BufTy).Contents (Elt Ideal) → (⟨S100000x32, .f32⟩ : BufTy).Contents (Elt Ideal))

/-- Leaving the region, each input array is as entered, the result array holds the product, and no other buffer was
    touched: the contents after the region are the operation's result over the contents before it. -/
theorem W22_eq (c : Dev nD) : W22 m ρ c = (rop8).result (W21 m ρ c) := by
  funext b
  by_cases h : ∃ w, Proc.devRef .tc (Pipeline.arrRef spec8 w) = b
  · obtain ⟨w, rfl⟩ := h
    rw [W22_arr m ρ c w]
    match w with
    | ⟨0, _⟩ =>
      rw [HloOp.result_of_not_mem _ _ (by rw [binary_writes, Finset.mem_singleton]; exact devRef_ne_of_ne (show Pipeline.arrRef spec8 (0 : Fin cfg8.W) ≠ main_v140 by decide))]
      exact ((dat8 (V21 m ρ) c).arrAt_in 0 rfl _).trans (A_eq8 (V21 m ρ) c 0)
    | ⟨1, _⟩ =>
      rw [HloOp.result_of_not_mem _ _ (by rw [binary_writes, Finset.mem_singleton]; exact devRef_ne_of_ne (show Pipeline.arrRef spec8 (1 : Fin cfg8.W) ≠ main_v140 by decide))]
      exact ((dat8 (V21 m ρ) c).arrAt_in 1 rfl _).trans (A_eq8 (V21 m ρ) c 1)
    | ⟨2, _⟩ =>
      exact (Cert.KernelIdeal.RegionVal.final8 (V21 m ρ) c).trans (binary_result main_v137 main_v139 main_v140 _ _ _ _ (W21 m ρ c)).symm
  · rw [HloOp.result_of_not_mem _ _ (by
      rw [binary_writes, Finset.mem_singleton]
      exact fun e => h ⟨2, e.symm⟩)]
    unfold W22 Pipeline.withArrays
    rw [dif_neg h]

end Cert.KernelIdeal.Fold

end
-- ==== Proof.RegionVal9.lean ====
/-
  A middle dense stage of a layer, over the whole array.

  The stage runs over 50 blocks of 2000 rows. At block t it reads rows t·2000 … t·2000 + 1999 of the hop's aggregated
  features and of the running output, and the whole weight matrix, and writes the block of the new running output:
  entry (p, q) of the block is the running output at (t·2000 + p, q) plus the sum over the 32 columns k of
  features (t·2000 + p, k) times weights (k, q). The 50 blocks tile the 100000 rows (row r lies in block r / 2000), so
  the array written is the running output plus the product.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features', the running output's and the new output's blocks are
    block t of the rows, all columns; the weights' block is the whole matrix. -/
private theorem block_indices : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0
    ∧ win9_3.index t (0 : Fin 2) = t.val ∧ win9_3.index t (1 : Fin 2) = 0 :=
  (by decide +kernel : ∀ t : Fin grid9.N, _)

/-- The body's result at (p, q): the running output there plus the sum over the columns k of
    features (p, k) · weights (k, q). -/
private theorem payload_apply (o : Vec Ideal S2000x32 .f32) (x0 : Vec Ideal S2000x32 .f32) (x1 : Vec Ideal S32x32 .f32)
    (j : S2000x32.Idx) :
    k9_pay1 o x0 x1 j = o j + ∑ k : Fin 32, x0 (ix2 (j 0) k) * x1 (ix2 k (j 1)) := by
  unfold k9_pay1
  simp only [shapeCast_self]
  exact (addf_apply _ _ j).trans (congrArg (o j + ·) (matmul_block_apply x0 x1 j))

section
variable (V : (c : Dev nD) → (b : Ref sig .tc) → Buf (Elt Ideal) ((c : Thread nD τ).loc b)) (c : Dev nD)

/-- The features' block at point t is rows t·2000 … of the features. -/
private theorem features_block (t : Fin cfg9.N) (p : Fin 2000) (k : Fin 32) (r : Fin 100000)
    (hr : r.val = t.val * 2000 + p.val) :
    (iblk9 V c 0 t : Vec Ideal S2000x32 .f32) (ix2 p k) = (V c main_v153 : FVec Ideal Cert.Spec.SN .f32) (ix2 r k) := by
  obtain ⟨e0, e1, -, -, -, -, -, -⟩ := block_indices t
  show V c main_v153 (((cfg9.win 0).blk t).view.emb (ix2 p k)) = V c main_v153 (ix2 r k)
  refine congrArg (V c main_v153) (funext fun a => Fin.ext ?_)
  match a with
  | ⟨0, _⟩ => show win9_0.index t (0 : Fin 2) * 2000 + 1 * p.val = r.val; omega
  | ⟨1, _⟩ => show win9_0.index t (1 : Fin 2) * 32 + 1 * k.val = k.val; omega

/-- The weights' block at every point is the whole matrix. -/
private theorem weights_block (t : Fin cfg9.N) (k q : Fin 32) :
    (iblk9 V c 1 t : Vec Ideal S32x32 .f32) (ix2 k q) = (V c main_v155 : FVec Ideal Cert.Spec.SW .f32) (ix2 k q) := by
  obtain ⟨-, -, e2, e3, -, -, -, -⟩ := block_indices t
  show V c main_v155 (((cfg9.win 1).blk t).view.emb (ix2 k q)) = V c main_v155 (ix2 k q)
  refine congrArg (V c main_v155) (funext fun a => Fin.ext ?_)
  match a with
  | ⟨0, _⟩ => show win9_1.index t (0 : Fin 2) * 32 + 1 * k.val = k.val; omega
  | ⟨1, _⟩ => show win9_1.index t (1 : Fin 2) * 32 + 1 * q.val = q.val; omega

/-- The running output's block at point t is rows t·2000 … of the running output. -/
private theorem running_block (t : Fin cfg9.N) (j : S2000x32.Idx) (i : Cert.Spec.SN.Idx)
    (hi0 : (i 0).val = t.val * 2000 + (j 0).val) (hi1 : (i 1).val = (j 1).val) :
    (iblk9 V c 2 t : Vec Ideal S2000x32 .f32) j = (V c main_v140 : FVec Ideal Cert.Spec.SN .f32) i := by
  obtain ⟨-, -, -, -, e4, e5, -, -⟩ := block_indices t
  show V c main_v140 (((cfg9.win 2).blk t).view.emb j) = V c main_v140 i
  refine congrArg (V c main_v140) (funext fun a => Fin.ext ?_)
  match a with
  | ⟨0, _⟩ => show win9_2.index t (0 : Fin 2) * 2000 + 1 * (j 0).val = (i 0).val; omega
  | ⟨1, _⟩ => show win9_2.index t (1 : Fin 2) * 32 + 1 * (j 1).val = (i 1).val; omega

/-- What point t writes back is block t of the running output plus the product. -/
private theorem flushed_eq (t : Fin cfg9.N) :
    (dat9 (F := Ideal) V c).flushed 3 t
      = ((cfg9.win 3).blk t).view.read (Elt Ideal)
          (Cert.Spec.linAcc (V c main_v153) (V c main_v155) (V c main_v140)) := by
  show (cfg9.win 3).cut (grid9.coords t) ((dat9 V c).after 3 t) = _
  rw [after9_3]
  unfold out9_3
  rw [View.canon_unit_zero origin_eq]
  simp only [View.ld_unit_zero (S := S2000x32) origin_eq, View.ld_unit_zero (S := S32x32) origin_eq]
  obtain ⟨-, -, -, -, -, -, e6, e7⟩ := block_indices t
  funext j
  refine (payload_apply (iblk9 V c 2 t) (iblk9 V c 0 t) (iblk9 V c 1 t) _).trans ?_
  have h0 : ((((cfg9.win 3).blk t).view.emb j) 0).val = t.val * 2000 + (j 0).val := by
    show win9_3.index t (0 : Fin 2) * 2000 + 1 * (j 0).val = t.val * 2000 + (j 0).val; omega
  have h1 : ((((cfg9.win 3).blk t).view.emb j) 1).val = (j 1).val := by
    show win9_3.index t (1 : Fin 2) * 32 + 1 * (j 1).val = (j 1).val; omega
  exact congrArg₂ (· + ·) (running_block V c t _ (((cfg9.win 3).blk t).view.emb j) h0 h1)
    (block_sum_eq_mm (V c main_v153) (V c main_v155) t.val (iblk9 V c 0 t) (iblk9 V c 1 t)
      (fun p k r hr => features_block V c t p k r hr) (fun k q => weights_block V c t k q) _
      (((cfg9.win 3).blk t).view.emb j) h0 h1)

/-- An index of the array is in point t's output block iff each coordinate is in the block's range on its axis. -/
private theorem mem_block (t : Fin cfg9.N) (i : S100000x32.Idx) :
    i ∈ ((cfg9.win 3).blk t).view.set ↔ ∀ a : Fin 2, win9_3.index t a * S2000x32.size a ≤ (i a).val
      ∧ (i a).val < win9_3.index t a * S2000x32.size a + S2000x32.size a := by
  show i ∈ ((View.whole (Pipeline.arrRef spec9 3)).slice (win9_3.rect t)).set ↔ _
  rw [View.set_slice_whole, Rect.mem_set_unit]
  exact Iff.rfl

/-- Row r is in the block of point r / 2000. -/
private theorem rows_covered (i : S100000x32.Idx) :
    ∃ t : Fin cfg9.N, (cfg9.win 3).flush t = true ∧ i ∈ ((cfg9.win 3).blk t).view.set := by
  have hi0 : (i 0).val < 100000 := (i 0).isLt
  have hi1 : (i 1).val < 32 := (i 1).isLt
  have ht : (i 0).val / 2000 < cfg9.N := by show (i 0).val / 2000 < 50; omega
  obtain ⟨-, -, -, -, -, -, e6, e7⟩ := block_indices ⟨(i 0).val / 2000, ht⟩
  have e6' : win9_3.index ⟨(i 0).val / 2000, ht⟩ (0 : Fin 2) = (i 0).val / 2000 := e6
  refine ⟨⟨(i 0).val / 2000, ht⟩, flush9_3 _, ?_⟩
  rw [mem_block]
  intro a
  match a with
  | ⟨0, _⟩ =>
    show win9_3.index ⟨(i 0).val / 2000, ht⟩ (0 : Fin 2) * 2000 ≤ (i 0).val
      ∧ (i 0).val < win9_3.index ⟨(i 0).val / 2000, ht⟩ (0 : Fin 2) * 2000 + 2000
    omega
  | ⟨1, _⟩ =>
    show win9_3.index ⟨(i 0).val / 2000, ht⟩ (1 : Fin 2) * 32 ≤ (i 1).val
      ∧ (i 1).val < win9_3.index ⟨(i 0).val / 2000, ht⟩ (1 : Fin 2) * 32 + 32
    omega

/-- The array the stage leaves is the running output plus the product of the features with the weights. -/
theorem final9 : (dat9 (F := Ideal) V c).arrAt 3 cfg9.N
    = Cert.Spec.linAcc (V c main_v153) (V c main_v155) (V c main_v140) :=
  (dat9 (F := Ideal) V c).arrAt_eq_of_cover 3 (Cert.Spec.linAcc (V c main_v153) (V c main_v155) (V c main_v140))
    (fun t _ => flushed_eq V c t) (rows_covered)

end

end Cert.KernelIdeal.RegionVal

end
-- ==== Proof.KernelStep9.lean ====
/-
  A region's exit contents are its entry contents with ONE buffer rewritten.
  A middle hop's region leaves every buffer as it found it except its result, which ends at the running output plus
  the product of the hop's aggregated features with the hop's weight matrix: a three-operand operation writing the
  result buffer.
-/
import proofs.«413670_j78391743086995_4_alg».proof.Proof.Gen.KernelIdeal.Frame
import proofs.«413670_j78391743086995_4_alg».proof.Proof.Spec
import proofs.«413670_j78391743086995_4_alg».proof.Proof.RegionVal9
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: running output plus features times weights. -/
abbrev rop9 : HloOp τ sig (Elt Ideal) :=
  StableHlo.ternary main_v153 main_v155 main_v140 main_v156
    ((fun h w o => Cert.Spec.linAcc h w o) : (⟨S100000x32, .f32⟩ : BufTy).Contents (Elt Ideal) → (⟨S32x32, .f32⟩ : BufTy).Contents (Elt Ideal) → (⟨S100000x32, .f32⟩ : BufTy).Contents (Elt Ideal) → (⟨S100000x32, .f32⟩ : BufTy).Contents (Elt Ideal))

/-- Leaving the region, each input array is as entered, the result array holds the sum, and no other buffer was
    touched. -/
theorem W24_eq (c : Dev nD) : W24 m ρ c = (rop9).result (W23 m ρ c) := by
  funext b
  by_cases h : ∃ w, Proc.devRef .tc (Pipeline.arrRef spec9 w) = b
  · obtain ⟨w, rfl⟩ := h
    rw [W24_arr m ρ c w]
    match w with
    | ⟨0, _⟩ =>
      rw [HloOp.result_of_not_mem _ _ (by rw [ternary_writes, Finset.mem_singleton]; exact devRef_ne_of_ne (show Pipeline.arrRef spec9 (0 : Fin cfg9.W) ≠ main_v156 by decide))]
      exact ((dat9 (V23 m ρ) c).arrAt_in 0 rfl _).trans (A_eq9 (V23 m ρ) c 0)
    | ⟨1, _⟩ =>
      rw [HloOp.result_of_not_mem _ _ (by rw [ternary_writes, Finset.mem_singleton]; exact devRef_ne_of_ne (show Pipeline.arrRef spec9 (1 : Fin cfg9.W) ≠ main_v156 by decide))]
      exact ((dat9 (V23 m ρ) c).arrAt_in 1 rfl _).trans (A_eq9 (V23 m ρ) c 1)
    | ⟨2, _⟩ =>
      rw [HloOp.result_of_not_mem _ _ (by rw [ternary_writes, Finset.mem_singleton]; exact devRef_ne_of_ne (show Pipeline.arrRef spec9 (2 : Fin cfg9.W) ≠ main_v156 by decide))]
      exact ((dat9 (V23 m ρ) c).arrAt_in 2 rfl _).trans (A_eq9 (V23 m ρ) c 2)
    | ⟨3, _⟩ =>
      exact (Cert.KernelIdeal.RegionVal.final9 (V23 m ρ) c).trans (ternary_result main_v153 main_v155 main_v140 main_v156 _ _ _ _ _ (W23 m ρ c)).symm
  · rw [HloOp.result_of_not_mem _ _ (by
      rw [ternary_writes, Finset.mem_singleton]
      exact fun e => h ⟨3, e.symm⟩)]
    unfold W24 Pipeline.withArrays
    rw [dif_neg h]

end Cert.KernelIdeal.Fold

end
-- ==== Proof.RegionVal10.lean ====
/-
  A middle dense stage of a layer, over the whole array.

  The stage runs over 50 blocks of 2000 rows. At block t it reads rows t·2000 … t·2000 + 1999 of the hop's aggregated
  features and of the running output, and the whole weight matrix, and writes the block of the new running output:
  entry (p, q) of the block is the running output at (t·2000 + p, q) plus the sum over the 32 columns k of
  features (t·2000 + p, k) times weights (k, q). The 50 blocks tile the 100000 rows (row r lies in block r / 2000), so
  the array written is the running output plus the product.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features', the running output's and the new output's blocks are
    block t of the rows, all columns; the weights' block is the whole matrix. -/
private theorem block_indices : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0 :=
  (by decide +kernel : ∀ t : Fin grid10.N, _)

/-- The body's result at (p, q): the running output there plus the sum over the columns k of
    features (p, k) · weights (k, q). -/
private theorem payload_apply (o : Vec Ideal S2000x32 .f32) (x0 : Vec Ideal S2000x32 .f32) (x1 : Vec Ideal S32x32 .f32)
    (j : S2000x32.Idx) :
    k10_pay1 o x0 x1 j = o j + ∑ k : Fin 32, x0 (ix2 (j 0) k) * x1 (ix2 k (j 1)) := by
  unfold k10_pay1
  simp only [shapeCast_self]
  exact (addf_apply _ _ j).trans (congrArg (o j + ·) (matmul_block_apply x0 x1 j))

section
variable (V : (c : Dev nD) → (b : Ref sig .tc) → Buf (Elt Ideal) ((c : Thread nD τ).loc b)) (c : Dev nD)

/-- The features' block at point t is rows t·2000 … of the features. -/
private theorem features_block (t : Fin cfg10.N) (p : Fin 2000) (k : Fin 32) (r : Fin 100000)
    (hr : r.val = t.val * 2000 + p.val) :
    (iblk10 V c 0 t : Vec Ideal S2000x32 .f32) (ix2 p k) = (V c main_v169 : FVec Ideal Cert.Spec.SN .f32) (ix2 r k) := by
  obtain ⟨e0, e1, -, -, -, -, -, -⟩ := block_indices t
  show V c main_v169 (((cfg10.win 0).blk t).view.emb (ix2 p k)) = V c main_v169 (ix2 r k)
  refine congrArg (V c main_v169) (funext fun a => Fin.ext ?_)
  match a with
  | ⟨0, _⟩ => show win10_0.index t (0 : Fin 2) * 2000 + 1 * p.val = r.val; omega
  | ⟨1, _⟩ => show win10_0.index t (1 : Fin 2) * 32 + 1 * k.val = k.val; omega

/-- The weights' block at every point is the whole matrix. -/
private theorem weights_block (t : Fin cfg10.N) (k q : Fin 32) :
    (iblk10 V c 1 t : Vec Ideal S32x32 .f32) (ix2 k q) = (V c main_v171 : FVec Ideal Cert.Spec.SW .f32) (ix2 k q) := by
  obtain ⟨-, -, e2, e3, -, -, -, -⟩ := block_indices t
  show V c main_v171 (((cfg10.win 1).blk t).view.emb (ix2 k q)) = V c main_v171 (ix2 k q)
  refine congrArg (V c main_v171) (funext fun a => Fin.ext ?_)
  match a with
  | ⟨0, _⟩ => show win10_1.index t (0 : Fin 2) * 32 + 1 * k.val = k.val; omega
  | ⟨1, _⟩ => show win10_1.index t (1 : Fin 2) * 32 + 1 * q.val = q.val; omega

/-- The running output's block at point t is rows t·2000 … of the running output. -/
private theorem running_block (t : Fin cfg10.N) (j : S2000x32.Idx) (i : Cert.Spec.SN.Idx)
    (hi0 : (i 0).val = t.val * 2000 + (j 0).val) (hi1 : (i 1).val = (j 1).val) :
    (iblk10 V c 2 t : Vec Ideal S2000x32 .f32) j = (V c main_v156 : FVec Ideal Cert.Spec.SN .f32) i := by
  obtain ⟨-, -, -, -, e4, e5, -, -⟩ := block_indices t
  show V c main_v156 (((cfg10.win 2).blk t).view.emb j) = V c main_v156 i
  refine congrArg (V c main_v156) (funext fun a => Fin.ext ?_)
  match a with
  | ⟨0, _⟩ => show win10_2.index t (0 : Fin 2) * 2000 + 1 * (j 0).val = (i 0).val; omega
  | ⟨1, _⟩ => show win10_2.index t (1 : Fin 2) * 32 + 1 * (j 1).val = (i 1).val; omega

/-- What point t writes back is block t of the running output plus the product. -/
private theorem flushed_eq (t : Fin cfg10.N) :
    (dat10 (F := Ideal) V c).flushed 3 t
      = ((cfg10.win 3).blk t).view.read (Elt Ideal)
          (Cert.Spec.linAcc (V c main_v169) (V c main_v171) (V c main_v156)) := by
  show (cfg10.win 3).cut (grid10.coords t) ((dat10 V c).after 3 t) = _
  rw [after10_3]
  unfold out10_3
  rw [View.canon_unit_zero origin_eq]
  simp only [View.ld_unit_zero (S := S2000x32) origin_eq, View.ld_unit_zero (S := S32x32) origin_eq]
  obtain ⟨-, -, -, -, -, -, e6, e7⟩ := block_indices t
  funext j
  refine (payload_apply (iblk10 V c 2 t) (iblk10 V c 0 t) (iblk10 V c 1 t) _).trans ?_
  have h0 : ((((cfg10.win 3).blk t).view.emb j) 0).val = t.val * 2000 + (j 0).val := by
    show win10_3.index t (0 : Fin 2) * 2000 + 1 * (j 0).val = t.val * 2000 + (j 0).val; omega
  have h1 : ((((cfg10.win 3).blk t).view.emb j) 1).val = (j 1).val := by
    show win10_3.index t (1 : Fin 2) * 32 + 1 * (j 1).val = (j 1).val; omega
  exact congrArg₂ (· + ·) (running_block V c t _ (((cfg10.win 3).blk t).view.emb j) h0 h1)
    (block_sum_eq_mm (V c main_v169) (V c main_v171) t.val (iblk10 V c 0 t) (iblk10 V c 1 t)
      (fun p k r hr => features_block V c t p k r hr) (fun k q => weights_block V c t k q) _
      (((cfg10.win 3).blk t).view.emb j) h0 h1)

/-- An index of the array is in point t's output block iff each coordinate is in the block's range on its axis. -/
private theorem mem_block (t : Fin cfg10.N) (i : S100000x32.Idx) :
    i ∈ ((cfg10.win 3).blk t).view.set ↔ ∀ a : Fin 2, win10_3.index t a * S2000x32.size a ≤ (i a).val
      ∧ (i a).val < win10_3.index t a * S2000x32.size a + S2000x32.size a := by
  show i ∈ ((View.whole (Pipeline.arrRef spec10 3)).slice (win10_3.rect t)).set ↔ _
  rw [View.set_slice_whole, Rect.mem_set_unit]
  exact Iff.rfl

/-- Row r is in the block of point r / 2000. -/
private theorem rows_covered (i : S100000x32.Idx) :
    ∃ t : Fin cfg10.N, (cfg10.win 3).flush t = true ∧ i ∈ ((cfg10.win 3).blk t).view.set := by
  have hi0 : (i 0).val < 100000 := (i 0).isLt
  have hi1 : (i 1).val < 32 := (i 1).isLt
  have ht : (i 0).val / 2000 < cfg10.N := by show (i 0).val / 2000 < 50; omega
  obtain ⟨-, -, -, -, -, -, e6, e7⟩ := block_indices ⟨(i 0).val / 2000, ht⟩
  have e6' : win10_3.index ⟨(i 0).val / 2000, ht⟩ (0 : Fin 2) = (i 0).val / 2000 := e6
  refine ⟨⟨(i 0).val / 2000, ht⟩, flush10_3 _, ?_⟩
  rw [mem_block]
  intro a
  match a with
  | ⟨0, _⟩ =>
    show win10_3.index ⟨(i 0).val / 2000, ht⟩ (0 : Fin 2) * 2000 ≤ (i 0).val
      ∧ (i 0).val < win10_3.index ⟨(i 0).val / 2000, ht⟩ (0 : Fin 2) * 2000 + 2000
    omega
  | ⟨1, _⟩ =>
    show win10_3.index ⟨(i 0).val / 2000, ht⟩ (1 : Fin 2) * 32 ≤ (i 1).val
      ∧ (i 1).val < win10_3.index ⟨(i 0).val / 2000, ht⟩ (1 : Fin 2) * 32 + 32
    omega

/-- The array the stage leaves is the running output plus the product of the features with the weights. -/
theorem final10 : (dat10 (F := Ideal) V c).arrAt 3 cfg10.N
    = Cert.Spec.linAcc (V c main_v169) (V c main_v171) (V c main_v156) :=
  (dat10 (F := Ideal) V c).arrAt_eq_of_cover 3 (Cert.Spec.linAcc (V c main_v169) (V c main_v171) (V c main_v156))
    (fun t _ => flushed_eq V c t) (rows_covered)

end

end Cert.KernelIdeal.RegionVal

end
-- ==== Proof.KernelStep10.lean ====
/-
  A region's exit contents are its entry contents with ONE buffer rewritten.
  A middle hop's region leaves every buffer as it found it except its result, which ends at the running output plus
  the product of the hop's aggregated features with the hop's weight matrix: a three-operand operation writing the
  result buffer.
-/
import proofs.«413670_j78391743086995_4_alg».proof.Proof.Gen.KernelIdeal.Frame
import proofs.«413670_j78391743086995_4_alg».proof.Proof.Spec
import proofs.«413670_j78391743086995_4_alg».proof.Proof.RegionVal10
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: running output plus features times weights. -/
abbrev rop10 : HloOp τ sig (Elt Ideal) :=
  StableHlo.ternary main_v169 main_v171 main_v156 main_v172
    ((fun h w o => Cert.Spec.linAcc h w o) : (⟨S100000x32, .f32⟩ : BufTy).Contents (Elt Ideal) → (⟨S32x32, .f32⟩ : BufTy).Contents (Elt Ideal) → (⟨S100000x32, .f32⟩ : BufTy).Contents (Elt Ideal) → (⟨S100000x32, .f32⟩ : BufTy).Contents (Elt Ideal))

/-- Leaving the region, each input array is as entered, the result array holds the sum, and no other buffer was
    touched. -/
theorem W26_eq (c : Dev nD) : W26 m ρ c = (rop10).result (W25 m ρ c) := by
  funext b
  by_cases h : ∃ w, Proc.devRef .tc (Pipeline.arrRef spec10 w) = b
  · obtain ⟨w, rfl⟩ := h
    rw [W26_arr m ρ c w]
    match w with
    | ⟨0, _⟩ =>
      rw [HloOp.result_of_not_mem _ _ (by rw [ternary_writes, Finset.mem_singleton]; exact devRef_ne_of_ne (show Pipeline.arrRef spec10 (0 : Fin cfg10.W) ≠ main_v172 by decide))]
      exact ((dat10 (V25 m ρ) c).arrAt_in 0 rfl _).trans (A_eq10 (V25 m ρ) c 0)
    | ⟨1, _⟩ =>
      rw [HloOp.result_of_not_mem _ _ (by rw [ternary_writes, Finset.mem_singleton]; exact devRef_ne_of_ne (show Pipeline.arrRef spec10 (1 : Fin cfg10.W) ≠ main_v172 by decide))]
      exact ((dat10 (V25 m ρ) c).arrAt_in 1 rfl _).trans (A_eq10 (V25 m ρ) c 1)
    | ⟨2, _⟩ =>
      rw [HloOp.result_of_not_mem _ _ (by rw [ternary_writes, Finset.mem_singleton]; exact devRef_ne_of_ne (show Pipeline.arrRef spec10 (2 : Fin cfg10.W) ≠ main_v172 by decide))]
      exact ((dat10 (V25 m ρ) c).arrAt_in 2 rfl _).trans (A_eq10 (V25 m ρ) c 2)
    | ⟨3, _⟩ =>
      exact (Cert.KernelIdeal.RegionVal.final10 (V25 m ρ) c).trans (ternary_result main_v169 main_v171 main_v156 main_v172 _ _ _ _ _ (W25 m ρ c)).symm
  · rw [HloOp.result_of_not_mem _ _ (by
      rw [ternary_writes, Finset.mem_singleton]
      exact fun e => h ⟨3, e.symm⟩)]
    unfold W26 Pipeline.withArrays
    rw [dif_neg h]

end Cert.KernelIdeal.Fold

end
-- ==== Proof.RegionVal11.lean ====
/-
  The last dense stage of a layer, over the whole array.

  The stage runs over 50 blocks of 2000 rows. At block t it reads rows t·2000 … t·2000 + 1999 of the hop's aggregated
  features and of the running output, the whole weight matrix and the bias row, and writes the block of the layer's
  output: entry (p, q) of the block is the running output at (t·2000 + p, q), plus the sum over the 32 columns k of
  features (t·2000 + p, k) times weights (k, q), plus the bias at q, clamped below at zero. The 50 blocks tile the
  100000 rows (row r lies in block r / 2000), so the array written is that function of the whole arrays.
-/
import proofs.«413670_j78391743086995_4_alg».proof.Proof.Gen.KernelIdeal.Frame
import proofs.«413670_j78391743086995_4_alg».proof.Proof.Spec
import proofs.«413670_j78391743086995_4_alg».proof.Proof.RegionMath
import Idealize.ShloMosaic.Lib.Pipeline.Value
import Idealize.ShloMosaic.Lib.ValueIdx
import Idealize.ShloMosaic.PureOps.Ideal.Laws
import Idealize.ShloMosaic.Lib.ValueLayout

noncomputable section

namespace Cert.KernelIdeal.RegionVal

open Idealize.ShloMosaic Idealize.ShloMosaic.ValueIdx Idealize.ShloMosaic.TcCoe
open Cert.KernelIdeal.Gen Cert.KernelIdeal.RegionMath

private theorem origin_eq : (![0, 0] : Fin 2 → Nat) = fun _ => 0 := funext fun a => by fin_cases a <;> rfl

/-- The block indices over the grid: at point t the features', the running output's and the new output's blocks are
    block t of the rows, all columns; the weights' block is the whole matrix and the bias' block the whole row. -/
private theorem block_indices : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0 :=
  (by decide +kernel : ∀ t : Fin grid11.N, _)

/-- The body's result at (p, q): the running output there, plus the sum over the columns k of
    features (p, k) · weights (k, q), plus the bias at q, clamped below at zero. -/
private theorem payload_apply (o : Vec Ideal S2000x32 .f32) (x0 : Vec Ideal S2000x32 .f32) (x1 : Vec Ideal S32x32 .f32)
    (b : Vec Ideal S1x32 .f32) (j : S2000x32.Idx) :
    k11_pay1 o x0 x1 b j = max ((o j + ∑ k : Fin 32, x0 (ix2 (j 0) k) * x1 (ix2 k (j 1))) + b (ix2 0 (j 1))) 0 := by
  unfold k11_pay1
  simp only [shapeCast_self]
  refine (maximumf_apply _ _ j).trans (congrArg₂ max ?_ ?_)
  · exact (addf_apply _ _ j).trans (congrArg₂ (· + ·)
      ((addf_apply _ _ j).trans (congrArg (o j + ·) (matmul_block_apply x0 x1 j))) (bias_row_apply b _ j))
  · show Ideal.ofBits .f32 0x00000000#32 = 0
    exact Ideal.ofBits_zero_f32

section
variable (V : (c : Dev nD) → (b : Ref sig .tc) → Buf (Elt Ideal) ((c : Thread nD τ).loc b)) (c : Dev nD)

/-- The features' block at point t is rows t·2000 … of the features. -/
private theorem features_block (t : Fin cfg11.N) (p : Fin 2000) (k : Fin 32) (r : Fin 100000)
    (hr : r.val = t.val * 2000 + p.val) :
    (iblk11 V c 0 t : Vec Ideal S2000x32 .f32) (ix2 p k) = (V c main_v185 : FVec Ideal Cert.Spec.SN .f32) (ix2 r k) := by
  obtain ⟨e0, e1, -, -, -, -, -, -, -, -⟩ := block_indices t
  show V c main_v185 (((cfg11.win 0).blk t).view.emb (ix2 p k)) = V c main_v185 (ix2 r k)
  refine congrArg (V c main_v185) (funext fun a => Fin.ext ?_)
  match a with
  | ⟨0, _⟩ => show win11_0.index t (0 : Fin 2) * 2000 + 1 * p.val = r.val; omega
  | ⟨1, _⟩ => show win11_0.index t (1 : Fin 2) * 32 + 1 * k.val = k.val; omega

/-- The weights' block at every point is the whole matrix. -/
private theorem weights_block (t : Fin cfg11.N) (k q : Fin 32) :
    (iblk11 V c 1 t : Vec Ideal S32x32 .f32) (ix2 k q) = (V c main_v187 : FVec Ideal Cert.Spec.SW .f32) (ix2 k q) := by
  obtain ⟨-, -, e2, e3, -, -, -, -, -, -⟩ := block_indices t
  show V c main_v187 (((cfg11.win 1).blk t).view.emb (ix2 k q)) = V c main_v187 (ix2 k q)
  refine congrArg (V c main_v187) (funext fun a => Fin.ext ?_)
  match a with
  | ⟨0, _⟩ => show win11_1.index t (0 : Fin 2) * 32 + 1 * k.val = k.val; omega
  | ⟨1, _⟩ => show win11_1.index t (1 : Fin 2) * 32 + 1 * q.val = q.val; omega

/-- The bias' block at every point is the whole row. -/
private theorem bias_block (t : Fin cfg11.N) (q : Fin 32) :
    (iblk11 V c 2 t : Vec Ideal S1x32 .f32) (ix2 0 q) = (V c main_v190 : FVec Ideal Cert.Spec.SB .f32) (ix2 0 q) := by
  obtain ⟨-, -, -, -, e4, e5, -, -, -, -⟩ := block_indices t
  show V c main_v190 (((cfg11.win 2).blk t).view.emb (ix2 0 q)) = V c main_v190 (ix2 0 q)
  refine congrArg (V c main_v190) (funext fun a => Fin.ext ?_)
  match a with
  | ⟨0, _⟩ => show win11_2.index t (0 : Fin 2) * 1 + 1 * 0 = 0; omega
  | ⟨1, _⟩ => show win11_2.index t (1 : Fin 2) * 32 + 1 * q.val = q.val; omega

/-- The running output's block at point t is rows t·2000 … of the running output. -/
private theorem running_block (t : Fin cfg11.N) (j : S2000x32.Idx) (i : Cert.Spec.SN.Idx)
    (hi0 : (i 0).val = t.val * 2000 + (j 0).val) (hi1 : (i 1).val = (j 1).val) :
    (iblk11 V c 3 t : Vec Ideal S2000x32 .f32) j = (V c main_v172 : FVec Ideal Cert.Spec.SN .f32) i := by
  obtain ⟨-, -, -, -, -, -, e6, e7, -, -⟩ := block_indices t
  show V c main_v172 (((cfg11.win 3).blk t).view.emb j) = V c main_v172 i
  refine congrArg (V c main_v172) (funext fun a => Fin.ext ?_)
  match a with
  | ⟨0, _⟩ => show win11_3.index t (0 : Fin 2) * 2000 + 1 * (j 0).val = (i 0).val; omega
  | ⟨1, _⟩ => show win11_3.index t (1 : Fin 2) * 32 + 1 * (j 1).val = (i 1).val; omega

/-- What point t writes back is block t of the layer's output. -/
private theorem flushed_eq (t : Fin cfg11.N) :
    (dat11 (F := Ideal) V c).flushed 4 t
      = ((cfg11.win 4).blk t).view.read (Elt Ideal)
          (Cert.Spec.linFin (V c main_v185) (V c main_v187) (V c main_v190) (V c main_v172)) := by
  show (cfg11.win 4).cut (grid11.coords t) ((dat11 V c).after 4 t) = _
  rw [after11_4]
  unfold out11_4
  rw [View.canon_unit_zero origin_eq]
  simp only [View.ld_unit_zero (S := S2000x32) origin_eq, View.ld_unit_zero (S := S32x32) origin_eq,
    View.ld_unit_zero (S := S1x32) origin_eq]
  obtain ⟨-, -, -, -, -, -, -, -, e8, e9⟩ := block_indices t
  funext j
  refine (payload_apply (iblk11 V c 3 t) (iblk11 V c 0 t) (iblk11 V c 1 t) (iblk11 V c 2 t) _).trans ?_
  have h0 : ((((cfg11.win 4).blk t).view.emb j) 0).val = t.val * 2000 + (j 0).val := by
    show win11_4.index t (0 : Fin 2) * 2000 + 1 * (j 0).val = t.val * 2000 + (j 0).val; omega
  have h1 : ((((cfg11.win 4).blk t).view.emb j) 1).val = (j 1).val := by
    show win11_4.index t (1 : Fin 2) * 32 + 1 * (j 1).val = (j 1).val; omega
  have hq : (⟨(j 1).val, (j 1).isLt⟩ : Fin 32) = (((cfg11.win 4).blk t).view.emb j) 1 := Fin.ext h1.symm
  exact congrArg₂ max (congrArg₂ (· + ·)
    (congrArg₂ (· + ·) (running_block V c t _ (((cfg11.win 4).blk t).view.emb j) h0 h1)
      (block_sum_eq_mm (V c main_v185) (V c main_v187) t.val (iblk11 V c 0 t) (iblk11 V c 1 t)
        (fun p k r hr => features_block V c t p k r hr) (fun k q => weights_block V c t k q) _
        (((cfg11.win 4).blk t).view.emb j) h0 h1))
    ((bias_block V c t _).trans (congrArg (fun q : Fin 32 => (V c main_v190 : FVec Ideal Cert.Spec.SB .f32) (ix2 0 q)) hq)))
    rfl

/-- An index of the array is in point t's output block iff each coordinate is in the block's range on its axis. -/
private theorem mem_block (t : Fin cfg11.N) (i : S100000x32.Idx) :
    i ∈ ((cfg11.win 4).blk t).view.set ↔ ∀ a : Fin 2, win11_4.index t a * S2000x32.size a ≤ (i a).val
      ∧ (i a).val < win11_4.index t a * S2000x32.size a + S2000x32.size a := by
  show i ∈ ((View.whole (Pipeline.arrRef spec11 4)).slice (win11_4.rect t)).set ↔ _
  rw [View.set_slice_whole, Rect.mem_set_unit]
  exact Iff.rfl

/-- Row r is in the block of point r / 2000. -/
private theorem rows_covered (i : S100000x32.Idx) :
    ∃ t : Fin cfg11.N, (cfg11.win 4).flush t = true ∧ i ∈ ((cfg11.win 4).blk t).view.set := by
  have hi0 : (i 0).val < 100000 := (i 0).isLt
  have hi1 : (i 1).val < 32 := (i 1).isLt
  have ht : (i 0).val / 2000 < cfg11.N := by show (i 0).val / 2000 < 50; omega
  obtain ⟨-, -, -, -, -, -, -, -, e8, e9⟩ := block_indices ⟨(i 0).val / 2000, ht⟩
  have e8' : win11_4.index ⟨(i 0).val / 2000, ht⟩ (0 : Fin 2) = (i 0).val / 2000 := e8
  refine ⟨⟨(i 0).val / 2000, ht⟩, flush11_4 _, ?_⟩
  rw [mem_block]
  intro a
  match a with
  | ⟨0, _⟩ =>
    show win11_4.index ⟨(i 0).val / 2000, ht⟩ (0 : Fin 2) * 2000 ≤ (i 0).val
      ∧ (i 0).val < win11_4.index ⟨(i 0).val / 2000, ht⟩ (0 : Fin 2) * 2000 + 2000
    omega
  | ⟨1, _⟩ =>
    show win11_4.index ⟨(i 0).val / 2000, ht⟩ (1 : Fin 2) * 32 ≤ (i 1).val
      ∧ (i 1).val < win11_4.index ⟨(i 0).val / 2000, ht⟩ (1 : Fin 2) * 32 + 32
    omega

/-- The array the stage leaves is the layer's output: running output plus product plus bias, clamped below at zero. -/
theorem final11 : (dat11 (F := Ideal) V c).arrAt 4 cfg11.N
    = Cert.Spec.linFin (V c main_v185) (V c main_v187) (V c main_v190) (V c main_v172) :=
  (dat11 (F := Ideal) V c).arrAt_eq_of_cover 4
    (Cert.Spec.linFin (V c main_v185) (V c main_v187) (V c main_v190) (V c main_v172))
    (fun t _ => flushed_eq V c t) (rows_covered)

end

end Cert.KernelIdeal.RegionVal

end
-- ==== Proof.KernelStep11.lean ====
/-
  A region's exit contents are its entry contents with ONE buffer rewritten.
  A layer's last region leaves every buffer as it found it except its result, which ends at the running output plus
  the last hop's product plus the bias row, clamped below at zero: a four-operand operation writing the result
  buffer.
-/
import proofs.«413670_j78391743086995_4_alg».proof.Proof.Gen.KernelIdeal.Frame
import proofs.«413670_j78391743086995_4_alg».proof.Proof.Spec
import proofs.«413670_j78391743086995_4_alg».proof.Proof.RegionVal11
import Idealize.ShloMosaic.Lib.StableHlo.Run

noncomputable section

namespace Cert.KernelIdeal.Fold

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The region as one rewrite of its result buffer: the layer's output. -/
abbrev rop11 : HloOp τ sig (Elt Ideal) :=
  StableHlo.quaternary main_v185 main_v187 main_v190 main_v172 main_v191
    ((fun h w b o => Cert.Spec.linFin h w b o) : (⟨S100000x32, .f32⟩ : BufTy).Contents (Elt Ideal) → (⟨S32x32, .f32⟩ : BufTy).Contents (Elt Ideal) → (⟨S1x32, .f32⟩ : BufTy).Contents (Elt Ideal) → (⟨S100000x32, .f32⟩ : BufTy).Contents (Elt Ideal) → (⟨S100000x32, .f32⟩ : BufTy).Contents (Elt Ideal))

set_option maxHeartbeats 2000000 in
/-- Leaving the region, each input array is as entered, the result array holds the layer's output, and no other
    buffer was touched. -/
theorem W28_eq (c : Dev nD) : W28 m ρ c = (rop11).result (W27 m ρ c) := by
  funext b
  by_cases h : ∃ w, Proc.devRef .tc (Pipeline.arrRef spec11 w) = b
  · obtain ⟨w, rfl⟩ := h
    rw [W28_arr m ρ c w]
    match w with
    | ⟨0, _⟩ =>
      rw [HloOp.result_of_not_mem _ _ (by rw [quaternary_writes, Finset.mem_singleton]; exact devRef_ne_of_ne (show Pipeline.arrRef spec11 (0 : Fin cfg11.W) ≠ main_v191 by decide))]
      exact ((dat11 (V27 m ρ) c).arrAt_in 0 rfl _).trans (A_eq11 (V27 m ρ) c 0)
    | ⟨1, _⟩ =>
      rw [HloOp.result_of_not_mem _ _ (by rw [quaternary_writes, Finset.mem_singleton]; exact devRef_ne_of_ne (show Pipeline.arrRef spec11 (1 : Fin cfg11.W) ≠ main_v191 by decide))]
      exact ((dat11 (V27 m ρ) c).arrAt_in 1 rfl _).trans (A_eq11 (V27 m ρ) c 1)
    | ⟨2, _⟩ =>
      rw [HloOp.result_of_not_mem _ _ (by rw [quaternary_writes, Finset.mem_singleton]; exact devRef_ne_of_ne (show Pipeline.arrRef spec11 (2 : Fin cfg11.W) ≠ main_v191 by decide))]
      exact ((dat11 (V27 m ρ) c).arrAt_in 2 rfl _).trans (A_eq11 (V27 m ρ) c 2)
    | ⟨3, _⟩ =>
      rw [HloOp.result_of_not_mem _ _ (by rw [quaternary_writes, Finset.mem_singleton]; exact devRef_ne_of_ne (show Pipeline.arrRef spec11 (3 : Fin cfg11.W) ≠ main_v191 by decide))]
      exact ((dat11 (V27 m ρ) c).arrAt_in 3 rfl _).trans (A_eq11 (V27 m ρ) c 3)
    | ⟨4, _⟩ =>
      exact (Cert.KernelIdeal.RegionVal.final11 (V27 m ρ) c).trans (quaternary_result main_v185 main_v187 main_v190 main_v172 main_v191 _ _ _ _ _ _ (W27 m ρ c)).symm
  · rw [HloOp.result_of_not_mem _ _ (by
      rw [quaternary_writes, Finset.mem_singleton]
      exact fun e => h ⟨4, e.symm⟩)]
    unfold W28 Pipeline.withArrays
    rw [dif_neg h]

end Cert.KernelIdeal.Fold

end
-- ==== Proof.KernelFold.lean ====
/-
  The idealized kernel program as ONE line of operations.

  Between its regions the program runs stretches of host operations; each region, as far as buffer contents go, is one
  more operation that rewrites its result buffer (the region's value as a function of its operand arrays). Laid end to
  end these give a single line; the contents at the last segment boundary are the fold of that line over the launch
  contents, and every operation of the line writes exactly one named buffer.
-/
import proofs.«413670_j78391743086995_4_alg».proof.Proof.LibSsaWin
import proofs.«413670_j78391743086995_4_alg».proof.Proof.KernelWrites
import proofs.«413670_j78391743086995_4_alg».proof.Proof.KernelStep0
import proofs.«413670_j78391743086995_4_alg».proof.Proof.KernelStep1
import proofs.«413670_j78391743086995_4_alg».proof.Proof.KernelStep2
import proofs.«413670_j78391743086995_4_alg».proof.Proof.KernelStep3
import proofs.«413670_j78391743086995_4_alg».proof.Proof.KernelStep4
import proofs.«413670_j78391743086995_4_alg».proof.Proof.KernelStep5
import proofs.«413670_j78391743086995_4_alg».proof.Proof.KernelStep6
import proofs.«413670_j78391743086995_4_alg».proof.Proof.KernelStep7
import proofs.«413670_j78391743086995_4_alg».proof.Proof.KernelStep8
import proofs.«413670_j78391743086995_4_alg».proof.Proof.KernelStep9
import proofs.«413670_j78391743086995_4_alg».proof.Proof.KernelStep10
import proofs.«413670_j78391743086995_4_alg».proof.Proof.KernelStep11

noncomputable section

namespace Cert.KernelIdeal.Fold

open Idealize.ShloMosaic Idealize.ShloMosaic.TcCoe Idealize.ShloMosaic.StableHlo Idealize.ShloMosaic.StableHlo.Ssa Idealize.SL.Sem
open Cert.KernelIdeal Cert.KernelIdeal.Gen

/-- The program's operations in order: the host stretches, and each region as the operation that rewrites its result. -/
abbrev opsK : List (HloOp τ sig (Elt Ideal)) :=
  hostOps0 ++ (hostOps0_1 ++ (hostOps0_2 ++ (hostOps0_3 ++ (hostOps0_4 ++ ([rop0] ++ (hostOps1 ++ ([rop1] ++ (hostOps2 ++ ([rop2] ++ (hostOps3 ++ ([rop3] ++ (hostOps4 ++ ([rop4] ++ (hostOps5 ++ ([rop5] ++ (hostOps6 ++ ([rop6] ++ (hostOps7 ++ ([rop7] ++ (hostOps8 ++ ([rop8] ++ (hostOps9 ++ ([rop9] ++ (hostOps10 ++ ([rop10] ++ (hostOps11 ++ [rop11]))))))))))))))))))))))))))

variable (m : (ℓ : Loc nD τ sig) → Buf (Elt Ideal) ℓ) (ρ : Dev nD → PrngReg)

/-- The contents at the last segment boundary are the line's fold over the launch contents. -/
theorem fold_eq (c : Dev nD) : W28 m ρ c = after opsK (W0 m ρ c) := by
  simp only [opsK, StableHlo.after_append, after_single]
  rw [← W6_eq m ρ c, ← W8_eq m ρ c, ← W10_eq m ρ c, ← W12_eq m ρ c, ← W14_eq m ρ c, ← W16_eq m ρ c, ← W18_eq m ρ c, ← W20_eq m ρ c, ← W22_eq m ρ c, ← W24_eq m ρ c, ← W26_eq m ρ c, ← W28_eq m ρ c]

/-- Operation k of the line writes exactly the k-th buffer of the table. -/
theorem writesOnly : WritesOnly opsK written := by
  unfold written
  repeat (first | exact WritesOnly.nil | refine WritesOnly.cons (by rfl) ?_)

end Cert.KernelIdeal.Fold

end
-- ==== Proof.RefRun.lean ====
import proofs.«413670_j78391743086995_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 256 operations of the reference program's entry function, in order; an operation of a called
    function stands where its call stands, over typed references. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x00000000#32),
    unary main_cst main_v4 (broadcastInDim S100000 ![] bcast_S_S100000 : (⟨S_, .f32⟩ : BufTy).Contents (Elt F) → (⟨S100000, .f32⟩ : BufTy).Contents (Elt F)),
    unary main_v3 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_arg2 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_0 (constant S_ .f32 0x00000000#32),
    unary main_cst_0 main_v7 (broadcastInDim S100000 ![] bcast_S_S100000 : (⟨S_, .f32⟩ : BufTy).Contents (Elt F) → (⟨S100000, .f32⟩ : BufTy).Contents (Elt F)),
    binary main_v6 main_v7 main_v8 (cmpf .ogt : (⟨S100000, .f32⟩ : BufTy).Contents (Elt F) → (⟨S100000, .f32⟩ : BufTy).Contents (Elt F) → (⟨S100000, .i1⟩ : BufTy).Contents (Elt F)),
    nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v8) (TRef.of (T := ⟨S100000, .f32⟩) main_v6) (TRef.of (T := ⟨S100000, .f32⟩) main_call0_v1) (TRef.of (T := ⟨S100000, .f32⟩) main_v9) select,
    nullary main_cst_2 (constant S_ .f32 0x00000000#32),
    unary main_cst_2 main_v10 (broadcastInDim S100000 ![] bcast_S_S100000 : (⟨S_, .f32⟩ : BufTy).Contents (Elt F) → (⟨S100000, .f32⟩ : BufTy).Contents (Elt F)),
    binary main_v6 main_v10 main_v11 (cmpf .ogt : (⟨S100000, .f32⟩ : BufTy).Contents (Elt F) → (⟨S100000, .f32⟩ : BufTy).Contents (Elt F) → (⟨S100000, .i1⟩ : BufTy).Contents (Elt F)),
    unary main_v9 main_v12 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v11) (TRef.of (T := ⟨S100000, .f32⟩) main_v12) (TRef.of (T := ⟨S100000, .f32⟩) main_call1_v1) (TRef.of (T := ⟨S100000, .f32⟩) main_v13) select,
    nullary main_c (constantI S_ 32 0#32),
    unary main_c main_v14 (broadcastInDim S1600000 ![] bcast_S_S1600000 : (⟨S_, .i32⟩ : BufTy).Contents (Elt F) → (⟨S1600000, .i32⟩ : BufTy).Contents (Elt F)),
    binary main_v1 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v16 (broadcastInDim S1600000 ![] bcast_S_S1600000 : (⟨S_, .i32⟩ : BufTy).Contents (Elt F) → (⟨S1600000, .i32⟩ : BufTy).Contents (Elt F)),
    binary main_v1 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_v1 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_v13 main_v19 main_v20 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v20 main_arg2 main_v21 (mulf : (⟨S1600000, .f32⟩ : BufTy).Contents (Elt F) → (⟨S1600000, .f32⟩ : BufTy).Contents (Elt F) → (⟨S1600000, .f32⟩ : BufTy).Contents (Elt F)),
    nullary main_c_5 (constantI S_ 32 0#32),
    unary main_c_5 main_v22 (broadcastInDim S1600000 ![] bcast_S_S1600000 : (⟨S_, .i32⟩ : BufTy).Contents (Elt F) → (⟨S1600000, .i32⟩ : BufTy).Contents (Elt F)),
    binary main_v3 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v24 (broadcastInDim S1600000 ![] bcast_S_S1600000 : (⟨S_, .i32⟩ : BufTy).Contents (Elt F) → (⟨S1600000, .i32⟩ : BufTy).Contents (Elt F)),
    binary main_v3 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v13 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v21 main_v28 main_v29 (mulf : (⟨S1600000, .f32⟩ : BufTy).Contents (Elt F) → (⟨S1600000, .f32⟩ : BufTy).Contents (Elt F) → (⟨S1600000, .f32⟩ : BufTy).Contents (Elt F)),
    unary main_arg3 main_v30 ((extractStridedSlice S1x1x32x32 ![0, 0, 0, 0] · slices_S3x4x32x32_S1x1x32x32_0_0_0_0) : (⟨S3x4x32x32, .f32⟩ : BufTy).Contents (Elt F) → (⟨S1x1x32x32, .f32⟩ : BufTy).Contents (Elt F)),
    reshape main_v30 main_v31 rfl shapeCasts_S1x1x32x32_S32x32,
    binary main_arg0 main_v31 main_v32 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    nullary main_c_7 (constantI S_ 32 0#32),
    unary main_c_7 main_v33 (broadcastInDim S1600000 ![] bcast_S_S1600000 : (⟨S_, .i32⟩ : BufTy).Contents (Elt F) → (⟨S1600000, .i32⟩ : BufTy).Contents (Elt F)),
    binary main_v1 main_v33 main_v34 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v35 (broadcastInDim S1600000 ![] bcast_S_S1600000 : (⟨S_, .i32⟩ : BufTy).Contents (Elt F) → (⟨S1600000, .i32⟩ : BufTy).Contents (Elt F)),
    binary main_v1 main_v35 main_v36 (addi : (⟨S1600000, .i32⟩ : BufTy).Contents (Elt F) → (⟨S1600000, .i32⟩ : BufTy).Contents (Elt F) → (⟨S1600000, .i32⟩ : BufTy).Contents (Elt F)),
    ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v37 main_v38 (broadcastInDim S1600000x1 ![0] bcast_S1600000_S1600000x1_0 : (⟨S1600000, .i32⟩ : BufTy).Contents (Elt F) → (⟨S1600000x1, .i32⟩ : BufTy).Contents (Elt F)),
    binary main_arg0 main_v38 main_v39 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v29 main_v40 (broadcastInDim S1600000x1 ![0] bcast_S1600000_S1600000x1_0 : (⟨S1600000, .f32⟩ : BufTy).Contents (Elt F) → (⟨S1600000x1, .f32⟩ : BufTy).Contents (Elt F)),
    unary main_v40 main_v41 (broadcastInDim S1600000x32 ![0, 1] bcast_S1600000x1_S1600000x32_0_1 : (⟨S1600000x1, .f32⟩ : BufTy).Contents (Elt F) → (⟨S1600000x32, .f32⟩ : BufTy).Contents (Elt F)),
    binary main_v39 main_v41 main_v42 (mulf : (⟨S1600000x32, .f32⟩ : BufTy).Contents (Elt F) → (⟨S1600000x32, .f32⟩ : BufTy).Contents (Elt F) → (⟨S1600000x32, .f32⟩ : BufTy).Contents (Elt F)),
    nullary main_cst_9 (constant S_ .f32 0x00000000#32),
    unary main_cst_9 main_v43 (broadcastInDim S100000x32 ![] bcast_S_S100000x32 : (⟨S_, .f32⟩ : BufTy).Contents (Elt F) → (⟨S100000x32, .f32⟩ : BufTy).Contents (Elt F)),
    unary main_v3 main_v44 (broadcastInDim S1600000x1 ![0] bcast_S1600000_S1600000x1_0 : (⟨S1600000, .i32⟩ : BufTy).Contents (Elt F) → (⟨S1600000x1, .i32⟩ : BufTy).Contents (Elt F)),
    ternary main_v43 main_v44 main_v42 main_v45 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v46 ((extractStridedSlice S1x1x32x32 ![0, 1, 0, 0] · slices_S3x4x32x32_S1x1x32x32_0_1_0_0) : (⟨S3x4x32x32, .f32⟩ : BufTy).Contents (Elt F) → (⟨S1x1x32x32, .f32⟩ : BufTy).Contents (Elt F)),
    reshape main_v46 main_v47 rfl shapeCasts_S1x1x32x32_S32x32,
    binary main_v45 main_v47 main_v48 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v32 main_v48 main_v49 (addf : (⟨S100000x32, .f32⟩ : BufTy).Contents (Elt F) → (⟨S100000x32, .f32⟩ : BufTy).Contents (Elt F) → (⟨S100000x32, .f32⟩ : BufTy).Contents (Elt F)),
    nullary main_c_10 (constantI S_ 32 0#32),
    unary main_c_10 main_v50 (broadcastInDim S1600000 ![] bcast_S_S1600000 : (⟨S_, .i32⟩ : BufTy).Contents (Elt F) → (⟨S1600000, .i32⟩ : BufTy).Contents (Elt F)),
    binary main_v1 main_v50 main_v51 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v52 (broadcastInDim S1600000 ![] bcast_S_S1600000 : (⟨S_, .i32⟩ : BufTy).Contents (Elt F) → (⟨S1600000, .i32⟩ : BufTy).Contents (Elt F)),
    binary main_v1 main_v52 main_v53 (addi : (⟨S1600000, .i32⟩ : BufTy).Contents (Elt F) → (⟨S1600000, .i32⟩ : BufTy).Contents (Elt F) → (⟨S1600000, .i32⟩ : BufTy).Contents (Elt F)),
    ternary main_v51 main_v53 main_v1 main_v54 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v54 main_v55 (broadcastInDim S1600000x1 ![0] bcast_S1600000_S1600000x1_0 : (⟨S1600000, .i32⟩ : BufTy).Contents (Elt F) → (⟨S1600000x1, .i32⟩ : BufTy).Contents (Elt F)),
    binary main_v45 main_v55 main_v56 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v29 main_v57 (broadcastInDim S1600000x1 ![0] bcast_S1600000_S1600000x1_0 : (⟨S1600000, .f32⟩ : BufTy).Contents (Elt F) → (⟨S1600000x1, .f32⟩ : BufTy).Contents (Elt F)),
    unary main_v57 main_v58 (broadcastInDim S1600000x32 ![0, 1] bcast_S1600000x1_S1600000x32_0_1 : (⟨S1600000x1, .f32⟩ : BufTy).Contents (Elt F) → (⟨S1600000x32, .f32⟩ : BufTy).Contents (Elt F)),
    binary main_v56 main_v58 main_v59 (mulf : (⟨S1600000x32, .f32⟩ : BufTy).Contents (Elt F) → (⟨S1600000x32, .f32⟩ : BufTy).Contents (Elt F) → (⟨S1600000x32, .f32⟩ : BufTy).Contents (Elt F)),
    nullary main_cst_12 (constant S_ .f32 0x00000000#32),
    unary main_cst_12 main_v60 (broadcastInDim S100000x32 ![] bcast_S_S100000x32 : (⟨S_, .f32⟩ : BufTy).Contents (Elt F) → (⟨S100000x32, .f32⟩ : BufTy).Contents (Elt F)),
    unary main_v3 main_v61 (broadcastInDim S1600000x1 ![0] bcast_S1600000_S1600000x1_0 : (⟨S1600000, .i32⟩ : BufTy).Contents (Elt F) → (⟨S1600000x1, .i32⟩ : BufTy).Contents (Elt F)),
    ternary main_v60 main_v61 main_v59 main_v62 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v63 ((extractStridedSlice S1x1x32x32 ![0, 2, 0, 0] · slices_S3x4x32x32_S1x1x32x32_0_2_0_0) : (⟨S3x4x32x32, .f32⟩ : BufTy).Contents (Elt F) → (⟨S1x1x32x32, .f32⟩ : BufTy).Contents (Elt F)),
    reshape main_v63 main_v64 rfl shapeCasts_S1x1x32x32_S32x32,
    binary main_v62 main_v64 main_v65 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v49 main_v65 main_v66 (addf : (⟨S100000x32, .f32⟩ : BufTy).Contents (Elt F) → (⟨S100000x32, .f32⟩ : BufTy).Contents (Elt F) → (⟨S100000x32, .f32⟩ : BufTy).Contents (Elt F)),
    nullary main_c_13 (constantI S_ 32 0#32),
    unary main_c_13 main_v67 (broadcastInDim S1600000 ![] bcast_S_S1600000 : (⟨S_, .i32⟩ : BufTy).Contents (Elt F) → (⟨S1600000, .i32⟩ : BufTy).Contents (Elt F)),
    binary main_v1 main_v67 main_v68 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v69 (broadcastInDim S1600000 ![] bcast_S_S1600000 : (⟨S_, .i32⟩ : BufTy).Contents (Elt F) → (⟨S1600000, .i32⟩ : BufTy).Contents (Elt F)),
    binary main_v1 main_v69 main_v70 (addi : (⟨S1600000, .i32⟩ : BufTy).Contents (Elt F) → (⟨S1600000, .i32⟩ : BufTy).Contents (Elt F) → (⟨S1600000, .i32⟩ : BufTy).Contents (Elt F)),
    ternary main_v68 main_v70 main_v1 main_v71 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v71 main_v72 (broadcastInDim S1600000x1 ![0] bcast_S1600000_S1600000x1_0 : (⟨S1600000, .i32⟩ : BufTy).Contents (Elt F) → (⟨S1600000x1, .i32⟩ : BufTy).Contents (Elt F)),
    binary main_v62 main_v72 main_v73 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v29 main_v74 (broadcastInDim S1600000x1 ![0] bcast_S1600000_S1600000x1_0 : (⟨S1600000, .f32⟩ : BufTy).Contents (Elt F) → (⟨S1600000x1, .f32⟩ : BufTy).Contents (Elt F)),
    unary main_v74 main_v75 (broadcastInDim S1600000x32 ![0, 1] bcast_S1600000x1_S1600000x32_0_1 : (⟨S1600000x1, .f32⟩ : BufTy).Contents (Elt F) → (⟨S1600000x32, .f32⟩ : BufTy).Contents (Elt F)),
    binary main_v73 main_v75 main_v76 (mulf : (⟨S1600000x32, .f32⟩ : BufTy).Contents (Elt F) → (⟨S1600000x32, .f32⟩ : BufTy).Contents (Elt F) → (⟨S1600000x32, .f32⟩ : BufTy).Contents (Elt F)),
    nullary main_cst_15 (constant S_ .f32 0x00000000#32),
    unary main_cst_15 main_v77 (broadcastInDim S100000x32 ![] bcast_S_S100000x32 : (⟨S_, .f32⟩ : BufTy).Contents (Elt F) → (⟨S100000x32, .f32⟩ : BufTy).Contents (Elt F)),
    unary main_v3 main_v78 (broadcastInDim S1600000x1 ![0] bcast_S1600000_S1600000x1_0 : (⟨S1600000, .i32⟩ : BufTy).Contents (Elt F) → (⟨S1600000x1, .i32⟩ : BufTy).Contents (Elt F)),
    ternary main_v77 main_v78 main_v76 main_v79 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v80 ((extractStridedSlice S1x1x32x32 ![0, 3, 0, 0] · slices_S3x4x32x32_S1x1x32x32_0_3_0_0) : (⟨S3x4x32x32, .f32⟩ : BufTy).Contents (Elt F) → (⟨S1x1x32x32, .f32⟩ : BufTy).Contents (Elt F)),
    reshape main_v80 main_v81 rfl shapeCasts_S1x1x32x32_S32x32,
    binary main_v79 main_v81 main_v82 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v66 main_v82 main_v83 (addf : (⟨S100000x32, .f32⟩ : BufTy).Contents (Elt F) → (⟨S100000x32, .f32⟩ : BufTy).Contents (Elt F) → (⟨S100000x32, .f32⟩ : BufTy).Contents (Elt F)),
    unary main_arg4 main_v84 ((extractStridedSlice S1x32 ![0, 0] · slices_S3x32_S1x32_0_0) : (⟨S3x32, .f32⟩ : BufTy).Contents (Elt F) → (⟨S1x32, .f32⟩ : BufTy).Contents (Elt F)),
    reshape main_v84 main_v85 rfl shapeCasts_S1x32_S32,
    unary main_v85 main_v86 (broadcastInDim S1x32 ![1] bcast_S32_S1x32_1 : (⟨S32, .f32⟩ : BufTy).Contents (Elt F) → (⟨S1x32, .f32⟩ : BufTy).Contents (Elt F)),
    unary main_v86 main_v87 (broadcastInDim S100000x32 ![0, 1] bcast_S1x32_S100000x32_0_1 : (⟨S1x32, .f32⟩ : BufTy).Contents (Elt F) → (⟨S100000x32, .f32⟩ : BufTy).Contents (Elt F)),
    binary main_v83 main_v87 main_v88 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x32, .f32⟩) main_call2_v0) (broadcastInDim S100000x32 ![] bcast_S_S100000x32),
    TRef.binary (TRef.of (T := ⟨S100000x32, .f32⟩) main_v88) (TRef.of (T := ⟨S100000x32, .f32⟩) main_call2_v0) (TRef.of (T := ⟨S100000x32, .f32⟩) main_v89) maximumf,
    unary main_arg3 main_v90 ((extractStridedSlice S1x1x32x32 ![1, 0, 0, 0] · slices_S3x4x32x32_S1x1x32x32_1_0_0_0) : (⟨S3x4x32x32, .f32⟩ : BufTy).Contents (Elt F) → (⟨S1x1x32x32, .f32⟩ : BufTy).Contents (Elt F)),
    reshape main_v90 main_v91 rfl shapeCasts_S1x1x32x32_S32x32,
    binary main_v89 main_v91 main_v92 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    nullary main_c_16 (constantI S_ 32 0#32),
    unary main_c_16 main_v93 (broadcastInDim S1600000 ![] bcast_S_S1600000 : (⟨S_, .i32⟩ : BufTy).Contents (Elt F) → (⟨S1600000, .i32⟩ : BufTy).Contents (Elt F)),
    binary main_v1 main_v93 main_v94 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v95 (broadcastInDim S1600000 ![] bcast_S_S1600000 : (⟨S_, .i32⟩ : BufTy).Contents (Elt F) → (⟨S1600000, .i32⟩ : BufTy).Contents (Elt F)),
    binary main_v1 main_v95 main_v96 (addi : (⟨S1600000, .i32⟩ : BufTy).Contents (Elt F) → (⟨S1600000, .i32⟩ : BufTy).Contents (Elt F) → (⟨S1600000, .i32⟩ : BufTy).Contents (Elt F)),
    ternary main_v94 main_v96 main_v1 main_v97 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v97 main_v98 (broadcastInDim S1600000x1 ![0] bcast_S1600000_S1600000x1_0 : (⟨S1600000, .i32⟩ : BufTy).Contents (Elt F) → (⟨S1600000x1, .i32⟩ : BufTy).Contents (Elt F)),
    binary main_v89 main_v98 main_v99 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v29 main_v100 (broadcastInDim S1600000x1 ![0] bcast_S1600000_S1600000x1_0 : (⟨S1600000, .f32⟩ : BufTy).Contents (Elt F) → (⟨S1600000x1, .f32⟩ : BufTy).Contents (Elt F)),
    unary main_v100 main_v101 (broadcastInDim S1600000x32 ![0, 1] bcast_S1600000x1_S1600000x32_0_1 : (⟨S1600000x1, .f32⟩ : BufTy).Contents (Elt F) → (⟨S1600000x32, .f32⟩ : BufTy).Contents (Elt F)),
    binary main_v99 main_v101 main_v102 (mulf : (⟨S1600000x32, .f32⟩ : BufTy).Contents (Elt F) → (⟨S1600000x32, .f32⟩ : BufTy).Contents (Elt F) → (⟨S1600000x32, .f32⟩ : BufTy).Contents (Elt F)),
    nullary main_cst_18 (constant S_ .f32 0x00000000#32),
    unary main_cst_18 main_v103 (broadcastInDim S100000x32 ![] bcast_S_S100000x32 : (⟨S_, .f32⟩ : BufTy).Contents (Elt F) → (⟨S100000x32, .f32⟩ : BufTy).Contents (Elt F)),
    unary main_v3 main_v104 (broadcastInDim S1600000x1 ![0] bcast_S1600000_S1600000x1_0 : (⟨S1600000, .i32⟩ : BufTy).Contents (Elt F) → (⟨S1600000x1, .i32⟩ : BufTy).Contents (Elt F)),
    ternary main_v103 main_v104 main_v102 main_v105 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v106 ((extractStridedSlice S1x1x32x32 ![1, 1, 0, 0] · slices_S3x4x32x32_S1x1x32x32_1_1_0_0) : (⟨S3x4x32x32, .f32⟩ : BufTy).Contents (Elt F) → (⟨S1x1x32x32, .f32⟩ : BufTy).Contents (Elt F)),
    reshape main_v106 main_v107 rfl shapeCasts_S1x1x32x32_S32x32,
    binary main_v105 main_v107 main_v108 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v92 main_v108 main_v109 (addf : (⟨S100000x32, .f32⟩ : BufTy).Contents (Elt F) → (⟨S100000x32, .f32⟩ : BufTy).Contents (Elt F) → (⟨S100000x32, .f32⟩ : BufTy).Contents (Elt F)),
    nullary main_c_19 (constantI S_ 32 0#32),
    unary main_c_19 main_v110 (broadcastInDim S1600000 ![] bcast_S_S1600000 : (⟨S_, .i32⟩ : BufTy).Contents (Elt F) → (⟨S1600000, .i32⟩ : BufTy).Contents (Elt F)),
    binary main_v1 main_v110 main_v111 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v112 (broadcastInDim S1600000 ![] bcast_S_S1600000 : (⟨S_, .i32⟩ : BufTy).Contents (Elt F) → (⟨S1600000, .i32⟩ : BufTy).Contents (Elt F)),
    binary main_v1 main_v112 main_v113 (addi : (⟨S1600000, .i32⟩ : BufTy).Contents (Elt F) → (⟨S1600000, .i32⟩ : BufTy).Contents (Elt F) → (⟨S1600000, .i32⟩ : BufTy).Contents (Elt F)),
    ternary main_v111 main_v113 main_v1 main_v114 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v114 main_v115 (broadcastInDim S1600000x1 ![0] bcast_S1600000_S1600000x1_0 : (⟨S1600000, .i32⟩ : BufTy).Contents (Elt F) → (⟨S1600000x1, .i32⟩ : BufTy).Contents (Elt F)),
    binary main_v105 main_v115 main_v116 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v29 main_v117 (broadcastInDim S1600000x1 ![0] bcast_S1600000_S1600000x1_0 : (⟨S1600000, .f32⟩ : BufTy).Contents (Elt F) → (⟨S1600000x1, .f32⟩ : BufTy).Contents (Elt F)),
    unary main_v117 main_v118 (broadcastInDim S1600000x32 ![0, 1] bcast_S1600000x1_S1600000x32_0_1 : (⟨S1600000x1, .f32⟩ : BufTy).Contents (Elt F) → (⟨S1600000x32, .f32⟩ : BufTy).Contents (Elt F)),
    binary main_v116 main_v118 main_v119 (mulf : (⟨S1600000x32, .f32⟩ : BufTy).Contents (Elt F) → (⟨S1600000x32, .f32⟩ : BufTy).Contents (Elt F) → (⟨S1600000x32, .f32⟩ : BufTy).Contents (Elt F)),
    nullary main_cst_21 (constant S_ .f32 0x00000000#32),
    unary main_cst_21 main_v120 (broadcastInDim S100000x32 ![] bcast_S_S100000x32 : (⟨S_, .f32⟩ : BufTy).Contents (Elt F) → (⟨S100000x32, .f32⟩ : BufTy).Contents (Elt F)),
    unary main_v3 main_v121 (broadcastInDim S1600000x1 ![0] bcast_S1600000_S1600000x1_0 : (⟨S1600000, .i32⟩ : BufTy).Contents (Elt F) → (⟨S1600000x1, .i32⟩ : BufTy).Contents (Elt F)),
    ternary main_v120 main_v121 main_v119 main_v122 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v123 ((extractStridedSlice S1x1x32x32 ![1, 2, 0, 0] · slices_S3x4x32x32_S1x1x32x32_1_2_0_0) : (⟨S3x4x32x32, .f32⟩ : BufTy).Contents (Elt F) → (⟨S1x1x32x32, .f32⟩ : BufTy).Contents (Elt F)),
    reshape main_v123 main_v124 rfl shapeCasts_S1x1x32x32_S32x32,
    binary main_v122 main_v124 main_v125 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v109 main_v125 main_v126 (addf : (⟨S100000x32, .f32⟩ : BufTy).Contents (Elt F) → (⟨S100000x32, .f32⟩ : BufTy).Contents (Elt F) → (⟨S100000x32, .f32⟩ : BufTy).Contents (Elt F)),
    nullary main_c_22 (constantI S_ 32 0#32),
    unary main_c_22 main_v127 (broadcastInDim S1600000 ![] bcast_S_S1600000 : (⟨S_, .i32⟩ : BufTy).Contents (Elt F) → (⟨S1600000, .i32⟩ : BufTy).Contents (Elt F)),
    binary main_v1 main_v127 main_v128 (cmpi .slt : (⟨S1600000, .i32⟩ : BufTy).Contents (Elt F) → (⟨S1600000, .i32⟩ : BufTy).Contents (Elt F) → (⟨S1600000, .i1⟩ : BufTy).Contents (Elt F)),
    nullary main_c_23 (constantI S_ 32 100000#32),
    unary main_c_23 main_v129 (broadcastInDim S1600000 ![] bcast_S_S1600000 : (⟨S_, .i32⟩ : BufTy).Contents (Elt F) → (⟨S1600000, .i32⟩ : BufTy).Contents (Elt F)),
    binary main_v1 main_v129 main_v130 (addi : (⟨S1600000, .i32⟩ : BufTy).Contents (Elt F) → (⟨S1600000, .i32⟩ : BufTy).Contents (Elt F) → (⟨S1600000, .i32⟩ : BufTy).Contents (Elt F)),
    ternary main_v128 main_v130 main_v1 main_v131 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v131 main_v132 (broadcastInDim S1600000x1 ![0] bcast_S1600000_S1600000x1_0 : (⟨S1600000, .i32⟩ : BufTy).Contents (Elt F) → (⟨S1600000x1, .i32⟩ : BufTy).Contents (Elt F)),
    binary main_v122 main_v132 main_v133 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v29 main_v134 (broadcastInDim S1600000x1 ![0] bcast_S1600000_S1600000x1_0 : (⟨S1600000, .f32⟩ : BufTy).Contents (Elt F) → (⟨S1600000x1, .f32⟩ : BufTy).Contents (Elt F)),
    unary main_v134 main_v135 (broadcastInDim S1600000x32 ![0, 1] bcast_S1600000x1_S1600000x32_0_1 : (⟨S1600000x1, .f32⟩ : BufTy).Contents (Elt F) → (⟨S1600000x32, .f32⟩ : BufTy).Contents (Elt F)),
    binary main_v133 main_v135 main_v136 (mulf : (⟨S1600000x32, .f32⟩ : BufTy).Contents (Elt F) → (⟨S1600000x32, .f32⟩ : BufTy).Contents (Elt F) → (⟨S1600000x32, .f32⟩ : BufTy).Contents (Elt F)),
    nullary main_cst_24 (constant S_ .f32 0x00000000#32),
    unary main_cst_24 main_v137 (broadcastInDim S100000x32 ![] bcast_S_S100000x32 : (⟨S_, .f32⟩ : BufTy).Contents (Elt F) → (⟨S100000x32, .f32⟩ : BufTy).Contents (Elt F)),
    unary main_v3 main_v138 (broadcastInDim S1600000x1 ![0] bcast_S1600000_S1600000x1_0 : (⟨S1600000, .i32⟩ : BufTy).Contents (Elt F) → (⟨S1600000x1, .i32⟩ : BufTy).Contents (Elt F)),
    ternary main_v137 main_v138 main_v136 main_v139 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v140 ((extractStridedSlice S1x1x32x32 ![1, 3, 0, 0] · slices_S3x4x32x32_S1x1x32x32_1_3_0_0) : (⟨S3x4x32x32, .f32⟩ : BufTy).Contents (Elt F) → (⟨S1x1x32x32, .f32⟩ : BufTy).Contents (Elt F)),
    reshape main_v140 main_v141 rfl shapeCasts_S1x1x32x32_S32x32,
    binary main_v139 main_v141 main_v142 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v126 main_v142 main_v143 (addf : (⟨S100000x32, .f32⟩ : BufTy).Contents (Elt F) → (⟨S100000x32, .f32⟩ : BufTy).Contents (Elt F) → (⟨S100000x32, .f32⟩ : BufTy).Contents (Elt F)),
    unary main_arg4 main_v144 ((extractStridedSlice S1x32 ![1, 0] · slices_S3x32_S1x32_1_0) : (⟨S3x32, .f32⟩ : BufTy).Contents (Elt F) → (⟨S1x32, .f32⟩ : BufTy).Contents (Elt F)),
    reshape main_v144 main_v145 rfl shapeCasts_S1x32_S32,
    unary main_v145 main_v146 (broadcastInDim S1x32 ![1] bcast_S32_S1x32_1 : (⟨S32, .f32⟩ : BufTy).Contents (Elt F) → (⟨S1x32, .f32⟩ : BufTy).Contents (Elt F)),
    unary main_v146 main_v147 (broadcastInDim S100000x32 ![0, 1] bcast_S1x32_S100000x32_0_1 : (⟨S1x32, .f32⟩ : BufTy).Contents (Elt F) → (⟨S100000x32, .f32⟩ : BufTy).Contents (Elt F)),
    binary main_v143 main_v147 main_v148 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x32, .f32⟩) main_call3_v0) (broadcastInDim S100000x32 ![] bcast_S_S100000x32),
    TRef.binary (TRef.of (T := ⟨S100000x32, .f32⟩) main_v148) (TRef.of (T := ⟨S100000x32, .f32⟩) main_call3_v0) (TRef.of (T := ⟨S100000x32, .f32⟩) main_v149) maximumf,
    unary main_arg3 main_v150 ((extractStridedSlice S1x1x32x32 ![2, 0, 0, 0] · slices_S3x4x32x32_S1x1x32x32_2_0_0_0) : (⟨S3x4x32x32, .f32⟩ : BufTy).Contents (Elt F) → (⟨S1x1x32x32, .f32⟩ : BufTy).Contents (Elt F)),
    reshape main_v150 main_v151 rfl shapeCasts_S1x1x32x32_S32x32,
    binary main_v149 main_v151 main_v152 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    nullary main_c_25 (constantI S_ 32 0#32),
    unary main_c_25 main_v153 (broadcastInDim S1600000 ![] bcast_S_S1600000 : (⟨S_, .i32⟩ : BufTy).Contents (Elt F) → (⟨S1600000, .i32⟩ : BufTy).Contents (Elt F)),
    binary main_v1 main_v153 main_v154 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v155 (broadcastInDim S1600000 ![] bcast_S_S1600000 : (⟨S_, .i32⟩ : BufTy).Contents (Elt F) → (⟨S1600000, .i32⟩ : BufTy).Contents (Elt F)),
    binary main_v1 main_v155 main_v156 (addi : (⟨S1600000, .i32⟩ : BufTy).Contents (Elt F) → (⟨S1600000, .i32⟩ : BufTy).Contents (Elt F) → (⟨S1600000, .i32⟩ : BufTy).Contents (Elt F)),
    ternary main_v154 main_v156 main_v1 main_v157 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v157 main_v158 (broadcastInDim S1600000x1 ![0] bcast_S1600000_S1600000x1_0 : (⟨S1600000, .i32⟩ : BufTy).Contents (Elt F) → (⟨S1600000x1, .i32⟩ : BufTy).Contents (Elt F)),
    binary main_v149 main_v158 main_v159 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v29 main_v160 (broadcastInDim S1600000x1 ![0] bcast_S1600000_S1600000x1_0 : (⟨S1600000, .f32⟩ : BufTy).Contents (Elt F) → (⟨S1600000x1, .f32⟩ : BufTy).Contents (Elt F)),
    unary main_v160 main_v161 (broadcastInDim S1600000x32 ![0, 1] bcast_S1600000x1_S1600000x32_0_1 : (⟨S1600000x1, .f32⟩ : BufTy).Contents (Elt F) → (⟨S1600000x32, .f32⟩ : BufTy).Contents (Elt F)),
    binary main_v159 main_v161 main_v162 (mulf : (⟨S1600000x32, .f32⟩ : BufTy).Contents (Elt F) → (⟨S1600000x32, .f32⟩ : BufTy).Contents (Elt F) → (⟨S1600000x32, .f32⟩ : BufTy).Contents (Elt F)),
    nullary main_cst_27 (constant S_ .f32 0x00000000#32),
    unary main_cst_27 main_v163 (broadcastInDim S100000x32 ![] bcast_S_S100000x32 : (⟨S_, .f32⟩ : BufTy).Contents (Elt F) → (⟨S100000x32, .f32⟩ : BufTy).Contents (Elt F)),
    unary main_v3 main_v164 (broadcastInDim S1600000x1 ![0] bcast_S1600000_S1600000x1_0 : (⟨S1600000, .i32⟩ : BufTy).Contents (Elt F) → (⟨S1600000x1, .i32⟩ : BufTy).Contents (Elt F)),
    ternary main_v163 main_v164 main_v162 main_v165 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v166 ((extractStridedSlice S1x1x32x32 ![2, 1, 0, 0] · slices_S3x4x32x32_S1x1x32x32_2_1_0_0) : (⟨S3x4x32x32, .f32⟩ : BufTy).Contents (Elt F) → (⟨S1x1x32x32, .f32⟩ : BufTy).Contents (Elt F)),
    reshape main_v166 main_v167 rfl shapeCasts_S1x1x32x32_S32x32,
    binary main_v165 main_v167 main_v168 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v152 main_v168 main_v169 (addf : (⟨S100000x32, .f32⟩ : BufTy).Contents (Elt F) → (⟨S100000x32, .f32⟩ : BufTy).Contents (Elt F) → (⟨S100000x32, .f32⟩ : BufTy).Contents (Elt F)),
    nullary main_c_28 (constantI S_ 32 0#32),
    unary main_c_28 main_v170 (broadcastInDim S1600000 ![] bcast_S_S1600000 : (⟨S_, .i32⟩ : BufTy).Contents (Elt F) → (⟨S1600000, .i32⟩ : BufTy).Contents (Elt F)),
    binary main_v1 main_v170 main_v171 (cmpi .slt : (⟨S1600000, .i32⟩ : BufTy).Contents (Elt F) → (⟨S1600000, .i32⟩ : BufTy).Contents (Elt F) → (⟨S1600000, .i1⟩ : BufTy).Contents (Elt F)),
    nullary main_c_29 (constantI S_ 32 100000#32),
    unary main_c_29 main_v172 (broadcastInDim S1600000 ![] bcast_S_S1600000 : (⟨S_, .i32⟩ : BufTy).Contents (Elt F) → (⟨S1600000, .i32⟩ : BufTy).Contents (Elt F)),
    binary main_v1 main_v172 main_v173 (addi : (⟨S1600000, .i32⟩ : BufTy).Contents (Elt F) → (⟨S1600000, .i32⟩ : BufTy).Contents (Elt F) → (⟨S1600000, .i32⟩ : BufTy).Contents (Elt F)),
    ternary main_v171 main_v173 main_v1 main_v174 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v174 main_v175 (broadcastInDim S1600000x1 ![0] bcast_S1600000_S1600000x1_0 : (⟨S1600000, .i32⟩ : BufTy).Contents (Elt F) → (⟨S1600000x1, .i32⟩ : BufTy).Contents (Elt F)),
    binary main_v165 main_v175 main_v176 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v29 main_v177 (broadcastInDim S1600000x1 ![0] bcast_S1600000_S1600000x1_0 : (⟨S1600000, .f32⟩ : BufTy).Contents (Elt F) → (⟨S1600000x1, .f32⟩ : BufTy).Contents (Elt F)),
    unary main_v177 main_v178 (broadcastInDim S1600000x32 ![0, 1] bcast_S1600000x1_S1600000x32_0_1 : (⟨S1600000x1, .f32⟩ : BufTy).Contents (Elt F) → (⟨S1600000x32, .f32⟩ : BufTy).Contents (Elt F)),
    binary main_v176 main_v178 main_v179 (mulf : (⟨S1600000x32, .f32⟩ : BufTy).Contents (Elt F) → (⟨S1600000x32, .f32⟩ : BufTy).Contents (Elt F) → (⟨S1600000x32, .f32⟩ : BufTy).Contents (Elt F)),
    nullary main_cst_30 (constant S_ .f32 0x00000000#32),
    unary main_cst_30 main_v180 (broadcastInDim S100000x32 ![] bcast_S_S100000x32 : (⟨S_, .f32⟩ : BufTy).Contents (Elt F) → (⟨S100000x32, .f32⟩ : BufTy).Contents (Elt F)),
    unary main_v3 main_v181 (broadcastInDim S1600000x1 ![0] bcast_S1600000_S1600000x1_0 : (⟨S1600000, .i32⟩ : BufTy).Contents (Elt F) → (⟨S1600000x1, .i32⟩ : BufTy).Contents (Elt F)),
    ternary main_v180 main_v181 main_v179 main_v182 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v183 ((extractStridedSlice S1x1x32x32 ![2, 2, 0, 0] · slices_S3x4x32x32_S1x1x32x32_2_2_0_0) : (⟨S3x4x32x32, .f32⟩ : BufTy).Contents (Elt F) → (⟨S1x1x32x32, .f32⟩ : BufTy).Contents (Elt F)),
    reshape main_v183 main_v184 rfl shapeCasts_S1x1x32x32_S32x32,
    binary main_v182 main_v184 main_v185 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v169 main_v185 main_v186 (addf : (⟨S100000x32, .f32⟩ : BufTy).Contents (Elt F) → (⟨S100000x32, .f32⟩ : BufTy).Contents (Elt F) → (⟨S100000x32, .f32⟩ : BufTy).Contents (Elt F)),
    nullary main_c_31 (constantI S_ 32 0#32),
    unary main_c_31 main_v187 (broadcastInDim S1600000 ![] bcast_S_S1600000 : (⟨S_, .i32⟩ : BufTy).Contents (Elt F) → (⟨S1600000, .i32⟩ : BufTy).Contents (Elt F)),
    binary main_v1 main_v187 main_v188 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v189 (broadcastInDim S1600000 ![] bcast_S_S1600000 : (⟨S_, .i32⟩ : BufTy).Contents (Elt F) → (⟨S1600000, .i32⟩ : BufTy).Contents (Elt F)),
    binary main_v1 main_v189 main_v190 (addi : (⟨S1600000, .i32⟩ : BufTy).Contents (Elt F) → (⟨S1600000, .i32⟩ : BufTy).Contents (Elt F) → (⟨S1600000, .i32⟩ : BufTy).Contents (Elt F)),
    ternary main_v188 main_v190 main_v1 main_v191 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v191 main_v192 (broadcastInDim S1600000x1 ![0] bcast_S1600000_S1600000x1_0 : (⟨S1600000, .i32⟩ : BufTy).Contents (Elt F) → (⟨S1600000x1, .i32⟩ : BufTy).Contents (Elt F)),
    binary main_v182 main_v192 main_v193 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v29 main_v194 (broadcastInDim S1600000x1 ![0] bcast_S1600000_S1600000x1_0 : (⟨S1600000, .f32⟩ : BufTy).Contents (Elt F) → (⟨S1600000x1, .f32⟩ : BufTy).Contents (Elt F)),
    unary main_v194 main_v195 (broadcastInDim S1600000x32 ![0, 1] bcast_S1600000x1_S1600000x32_0_1 : (⟨S1600000x1, .f32⟩ : BufTy).Contents (Elt F) → (⟨S1600000x32, .f32⟩ : BufTy).Contents (Elt F)),
    binary main_v193 main_v195 main_v196 (mulf : (⟨S1600000x32, .f32⟩ : BufTy).Contents (Elt F) → (⟨S1600000x32, .f32⟩ : BufTy).Contents (Elt F) → (⟨S1600000x32, .f32⟩ : BufTy).Contents (Elt F)),
    nullary main_cst_33 (constant S_ .f32 0x00000000#32),
    unary main_cst_33 main_v197 (broadcastInDim S100000x32 ![] bcast_S_S100000x32 : (⟨S_, .f32⟩ : BufTy).Contents (Elt F) → (⟨S100000x32, .f32⟩ : BufTy).Contents (Elt F)),
    unary main_v3 main_v198 (broadcastInDim S1600000x1 ![0] bcast_S1600000_S1600000x1_0 : (⟨S1600000, .i32⟩ : BufTy).Contents (Elt F) → (⟨S1600000x1, .i32⟩ : BufTy).Contents (Elt F)),
    ternary main_v197 main_v198 main_v196 main_v199 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    unary main_arg3 main_v200 ((extractStridedSlice S1x1x32x32 ![2, 3, 0, 0] · slices_S3x4x32x32_S1x1x32x32_2_3_0_0) : (⟨S3x4x32x32, .f32⟩ : BufTy).Contents (Elt F) → (⟨S1x1x32x32, .f32⟩ : BufTy).Contents (Elt F)),
    reshape main_v200 main_v201 rfl shapeCasts_S1x1x32x32_S32x32,
    binary main_v199 main_v201 main_v202 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    binary main_v186 main_v202 main_v203 (addf : (⟨S100000x32, .f32⟩ : BufTy).Contents (Elt F) → (⟨S100000x32, .f32⟩ : BufTy).Contents (Elt F) → (⟨S100000x32, .f32⟩ : BufTy).Contents (Elt F)),
    unary main_arg4 main_v204 ((extractStridedSlice S1x32 ![2, 0] · slices_S3x32_S1x32_2_0) : (⟨S3x32, .f32⟩ : BufTy).Contents (Elt F) → (⟨S1x32, .f32⟩ : BufTy).Contents (Elt F)),
    reshape main_v204 main_v205 rfl shapeCasts_S1x32_S32,
    unary main_v205 main_v206 (broadcastInDim S1x32 ![1] bcast_S32_S1x32_1 : (⟨S32, .f32⟩ : BufTy).Contents (Elt F) → (⟨S1x32, .f32⟩ : BufTy).Contents (Elt F)),
    unary main_v206 main_v207 (broadcastInDim S100000x32 ![0, 1] bcast_S1x32_S100000x32_0_1 : (⟨S1x32, .f32⟩ : BufTy).Contents (Elt F) → (⟨S100000x32, .f32⟩ : BufTy).Contents (Elt F)),
    binary main_v203 main_v207 main_v208 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x32, .f32⟩) main_call4_v0) (broadcastInDim S100000x32 ![] bcast_S_S100000x32),
    TRef.binary (TRef.of (T := ⟨S100000x32, .f32⟩) main_v208) (TRef.of (T := ⟨S100000x32, .f32⟩) main_call4_v0) (TRef.of (T := ⟨S100000x32, .f32⟩) main_v209) maximumf ]

set_option maxRecDepth 8192 in
set_option maxHeartbeats 4000000 in
/-- The entry function is the straight line of these operations. -/
theorem main_eq (c : Dev nD) : main (F := F) c = seq ops := rfl

/-- No TensorCore buffer of the signature is scoped. -/
theorem scopedRefs_eq : (Finset.univ.filter fun b : Ref sig .tc => b.isScoped) = ∅ := by decide
/-- No semaphore of the signature is scoped on the TensorCore. -/
theorem scopedSems_eq : (Finset.univ.filter fun sm : SemLoc sig => sm.isScoped .tc) = ∅ := by decide

set_option maxRecDepth 8192 in
set_option maxHeartbeats 4000000 in
/-- Every operation reads and writes TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    unary_bufs_sub .., ternary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub .., reshape_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., reshape_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., reshape_bufs_sub .., binary_bufs_sub .., binary_bufs_sub .., unary_bufs_sub .., reshape_bufs_sub ..,
    unary_bufs_sub .., unary_bufs_sub .., binary_bufs_sub .., nullary_bufs_sub .., unary_bufs_sub .., binary_bufs_sub ..,
    unary_bufs_sub .., reshape_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., reshape_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., unary_bufs_sub .., reshape_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    reshape_bufs_sub .., binary_bufs_sub .., binary_bufs_sub .., unary_bufs_sub .., reshape_bufs_sub .., unary_bufs_sub ..,
    unary_bufs_sub .., binary_bufs_sub .., nullary_bufs_sub .., unary_bufs_sub .., binary_bufs_sub .., unary_bufs_sub ..,
    reshape_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., reshape_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., reshape_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    binary_bufs_sub .., binary_bufs_sub .., unary_bufs_sub .., reshape_bufs_sub .., unary_bufs_sub .., unary_bufs_sub ..,
    binary_bufs_sub .., nullary_bufs_sub .., unary_bufs_sub .., binary_bufs_sub ..⟩

set_option maxRecDepth 8192 in
set_option maxHeartbeats 4000000 in
/-- Every operation determines its results: none allocates a buffer. -/
theorem ops_fresh : (ops : List (HloOp τ sig (Elt F))).Forall fun op => op.fresh = ∅ := by
  simp only [List.Forall]; repeat' constructor

/-- On every device, for any float values, from any memory with zero counters: every weakly fair execution of the
    entry function terminates, and every final state has each TensorCore buffer at the fold of the operations'
    results over the device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefWrites.lean ====
/- The buffers the reference program's operations write, in program order: position k holds the buffer that operation k writes. -/
import proofs.«413670_j78391743086995_4_alg».proof.ReferenceIdeal

namespace Cert.ReferenceIdeal.RefFold

open Idealize.ShloMosaic Cert.ReferenceIdeal

noncomputable def written : List (Ref sig .tc) :=
  [
    main_v0, main_v1, main_v2, main_v3, main_cst, main_v4, main_v5, main_v6,
    main_cst_0, main_v7, main_v8, main_cst_1, main_call0_v0, main_call0_v1, main_v9, main_cst_2,
    main_v10, main_v11, main_v12, main_cst_3, main_call1_v0, main_call1_v1, main_v13, main_c,
    main_v14, main_v15, main_c_4, main_v16, main_v17, main_v18, main_v19, main_v20,
    main_v21, main_c_5, main_v22, main_v23, main_c_6, main_v24, main_v25, main_v26,
    main_v27, main_v28, main_v29, main_v30, main_v31, main_v32, main_c_7, main_v33,
    main_v34, main_c_8, main_v35, main_v36, main_v37, main_v38, main_v39, main_v40,
    main_v41, main_v42, main_cst_9, main_v43, main_v44, main_v45, main_v46, main_v47,
    main_v48, main_v49, main_c_10, main_v50, main_v51, main_c_11, main_v52, main_v53,
    main_v54, main_v55, main_v56, main_v57, main_v58, main_v59, main_cst_12, main_v60,
    main_v61, main_v62, main_v63, main_v64, main_v65, main_v66, main_c_13, main_v67,
    main_v68, main_c_14, main_v69, main_v70, main_v71, main_v72, main_v73, main_v74,
    main_v75, main_v76, main_cst_15, main_v77, main_v78, main_v79, main_v80, main_v81,
    main_v82, main_v83, main_v84, main_v85, main_v86, main_v87, main_v88, main_call2_cst,
    main_call2_v0, main_v89, main_v90, main_v91, main_v92, main_c_16, main_v93, main_v94,
    main_c_17, main_v95, main_v96, main_v97, main_v98, main_v99, main_v100, main_v101,
    main_v102, main_cst_18, main_v103, main_v104, main_v105, main_v106, main_v107, main_v108,
    main_v109, main_c_19, main_v110, main_v111, main_c_20, main_v112, main_v113, main_v114,
    main_v115, main_v116, main_v117, main_v118, main_v119, main_cst_21, main_v120, main_v121,
    main_v122, main_v123, main_v124, main_v125, main_v126, main_c_22, main_v127, main_v128,
    main_c_23, main_v129, main_v130, main_v131, main_v132, main_v133, main_v134, main_v135,
    main_v136, main_cst_24, main_v137, main_v138, main_v139, main_v140, main_v141, main_v142,
    main_v143, main_v144, main_v145, main_v146, main_v147, main_v148, main_call3_cst, main_call3_v0,
    main_v149, main_v150, main_v151, main_v152, main_c_25, main_v153, main_v154, main_c_26,
    main_v155, main_v156, main_v157, main_v158, main_v159, main_v160, main_v161, main_v162,
    main_cst_27, main_v163, main_v164, main_v165, main_v166, main_v167, main_v168, main_v169,
    main_c_28, main_v170, main_v171, main_c_29, main_v172, main_v173, main_v174, main_v175,
    main_v176, main_v177, main_v178, main_v179, main_cst_30, main_v180, main_v181, main_v182,
    main_v183, main_v184, main_v185, main_v186, main_c_31, main_v187, main_v188, main_c_32,
    main_v189, main_v190, main_v191, main_v192, main_v193, main_v194, main_v195, main_v196,
    main_cst_33, main_v197, main_v198, main_v199, main_v200, main_v201, main_v202, main_v203,
    main_v204, main_v205, main_v206, main_v207, main_v208, main_call4_cst, main_call4_v0, main_v209 ]

end Cert.ReferenceIdeal.RefFold
-- ==== Proof.BridgeDefs.lean ====
/-
  The two programs' final buffer contents side by side.

  Both idealized programs are now lines of single-assignment operations folded over their launch contents: the kernel
  program's line counts each region as one operation. `K` and `R` name the two final contents. For either line, a
  buffer written in a stretch of the line and not after it is what the stretch computes from the contents before it,
  and a buffer not written from some position on has its final contents already there; an argument, which nothing
  writes, keeps its launch contents.
-/
import proofs.«413670_j78391743086995_4_alg».proof.Proof.KernelFold
import proofs.«413670_j78391743086995_4_alg».proof.Proof.RefRun
import proofs.«413670_j78391743086995_4_alg».proof.Proof.RefWrites

noncomputable section

namespace Cert.Bridge

open Idealize.ShloMosaic Idealize.ShloMosaic.TcCoe Idealize.ShloMosaic.StableHlo Idealize.ShloMosaic.StableHlo.Ssa Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The kernel program's final contents on core `c`. -/
abbrev K (c : Dev Cert.KernelIdeal.nD) : Valuation Cert.KernelIdeal.τ Cert.KernelIdeal.sig (Elt Ideal) :=
  after Cert.KernelIdeal.Fold.opsK (Cert.KernelIdeal.Gen.W0 m ρ c)

/-- The reference program's final contents on core `c`. -/
abbrev R (c : Dev Cert.ReferenceIdeal.nD) : Valuation Cert.ReferenceIdeal.τ Cert.ReferenceIdeal.sig (Elt Ideal) :=
  after (Cert.ReferenceIdeal.RefRun.ops (F := Ideal)) (launchContents m' c)

/-- Operation k of the reference's line writes exactly the k-th buffer of its table. -/
theorem refWritesOnly : WritesOnly (Cert.ReferenceIdeal.RefRun.ops (F := Ideal)) Cert.ReferenceIdeal.RefFold.written := by
  unfold Cert.ReferenceIdeal.RefFold.written
  repeat (first | exact WritesOnly.nil | refine WritesOnly.cons (by rfl) ?_)

section Kernel
open Cert.KernelIdeal Cert.KernelIdeal.Gen Cert.KernelIdeal.Fold

theorem Kwin (c : Dev nD) (k n : Nat) (y : Ref sig .tc) (hy : y ∉ written.drop (k + n)) :
    K m ρ c (Proc.devRef .tc y) = after ((opsK.drop k).take n) (after (opsK.take k) (W0 m ρ c)) (Proc.devRef .tc y) :=
  after_window opsK written writesOnly (W0 m ρ c) k n y hy

theorem Ktake (c : Dev nD) (k : Nat) (x : Ref sig .tc) (hx : x ∉ written.drop k) :
    after (opsK.take k) (W0 m ρ c) (Proc.devRef .tc x) = K m ρ c (Proc.devRef .tc x) :=
  after_take opsK written writesOnly (W0 m ρ c) k x hx

theorem Karg (c : Dev nD) (x : Ref sig .tc) (hx : x ∉ written) :
    K m ρ c (Proc.devRef .tc x) = m ((c.tc : Thread nD τ).loc x) :=
  after_arg opsK written writesOnly (W0 m ρ c) x hx

end Kernel

section Reference
open Cert.ReferenceIdeal Cert.ReferenceIdeal.RefRun Cert.ReferenceIdeal.RefFold

theorem Rwin (c : Dev nD) (k n : Nat) (y : Ref sig .tc) (hy : y ∉ written.drop (k + n)) :
    R m' c (Proc.devRef .tc y)
      = after (((ops (F := Ideal)).drop k).take n) (after ((ops (F := Ideal)).take k) (launchContents m' c)) (Proc.devRef .tc y) :=
  after_window ops written refWritesOnly (launchContents m' c) k n y hy

theorem Rtake (c : Dev nD) (k : Nat) (x : Ref sig .tc) (hx : x ∉ written.drop k) :
    after ((ops (F := Ideal)).take k) (launchContents m' c) (Proc.devRef .tc x) = R m' c (Proc.devRef .tc x) :=
  after_take ops written refWritesOnly (launchContents m' c) k x hx

theorem Rarg (c : Dev nD) (x : Ref sig .tc) (hx : x ∉ written) :
    R m' c (Proc.devRef .tc x) = m' ((c.tc : Thread nD τ).loc x) :=
  after_arg ops written refWritesOnly (launchContents m' c) x hx

end Reference

end Cert.Bridge

end
-- ==== Proof.BridgeNorm.lean ====
/-
  The edge list's two rows and the normalisation weights agree.

  Before its first region the kernel program runs the same operations as the reference on the same arguments: the
  source and target rows of the edge list, the weighted in-degrees, their inverse square roots (zero where the degree
  is not positive), and for every edge the product of its weight with its two end points' factors. Computed by the
  same operations from equal arguments, these agree buffer by buffer.
-/
import proofs.«413670_j78391743086995_4_alg».proof.Proof.BridgeDefs

set_option maxRecDepth 16384

noncomputable section

namespace Cert.Bridge

open Idealize.ShloMosaic Idealize.ShloMosaic.TcCoe Idealize.ShloMosaic.StableHlo Idealize.ShloMosaic.StableHlo.Ssa Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The source row of the edge list: the same slice of the edge list, reshaped. -/
theorem norm_row (hei : K m ρ c (Proc.devRef .tc Cert.KernelIdeal.main_arg1) = R m' c (Proc.devRef .tc Cert.ReferenceIdeal.main_arg1)) :
    K m ρ c (Proc.devRef .tc Cert.KernelIdeal.main_v1) = R m' c (Proc.devRef .tc Cert.ReferenceIdeal.main_v1) := by
  rw [Kwin m ρ c 0 2 Cert.KernelIdeal.main_v1 (by decide), Rwin m' c 0 2 Cert.ReferenceIdeal.main_v1 (by decide)]
  generalize hK : after (List.take 0 Cert.KernelIdeal.Fold.opsK) (Cert.KernelIdeal.Gen.W0 m ρ c) = VK
  generalize hR : after (List.take 0 (Cert.ReferenceIdeal.RefRun.ops (F := Ideal))) (launchContents m' c) = VR
  have eK0 : VK (Proc.devRef .tc Cert.KernelIdeal.main_arg1) = K m ρ c (Proc.devRef .tc Cert.KernelIdeal.main_arg1) := hK ▸ Ktake m ρ c 0 Cert.KernelIdeal.main_arg1 (by decide)
  have eR0 : VR (Proc.devRef .tc Cert.ReferenceIdeal.main_arg1) = R m' c (Proc.devRef .tc Cert.ReferenceIdeal.main_arg1) := hR ▸ Rtake m' c 0 Cert.ReferenceIdeal.main_arg1 (by decide)
  rw [show (Cert.KernelIdeal.Fold.opsK.drop 0).take 2 = ((Cert.KernelIdeal.Gen.hostOps0 (F := Ideal)).drop 0).take 2 from rfl]
  simp only [Cert.KernelIdeal.Gen.hostOps0, Cert.ReferenceIdeal.RefRun.ops, List.cons_append, List.nil_append, List.append_nil, List.drop_succ_cons, List.drop_zero, List.take_succ_cons, List.take_zero]
  after_results_simp
  rw [eK0, eR0, hei]
  rfl

/-- The target row of the edge list. -/
theorem norm_col (hei : K m ρ c (Proc.devRef .tc Cert.KernelIdeal.main_arg1) = R m' c (Proc.devRef .tc Cert.ReferenceIdeal.main_arg1)) :
    K m ρ c (Proc.devRef .tc Cert.KernelIdeal.main_v3) = R m' c (Proc.devRef .tc Cert.ReferenceIdeal.main_v3) := by
  rw [Kwin m ρ c 2 2 Cert.KernelIdeal.main_v3 (by decide), Rwin m' c 2 2 Cert.ReferenceIdeal.main_v3 (by decide)]
  generalize hK : after (List.take 2 Cert.KernelIdeal.Fold.opsK) (Cert.KernelIdeal.Gen.W0 m ρ c) = VK
  generalize hR : after (List.take 2 (Cert.ReferenceIdeal.RefRun.ops (F := Ideal))) (launchContents m' c) = VR
  have eK0 : VK (Proc.devRef .tc Cert.KernelIdeal.main_arg1) = K m ρ c (Proc.devRef .tc Cert.KernelIdeal.main_arg1) := hK ▸ Ktake m ρ c 2 Cert.KernelIdeal.main_arg1 (by decide)
  have eR0 : VR (Proc.devRef .tc Cert.ReferenceIdeal.main_arg1) = R m' c (Proc.devRef .tc Cert.ReferenceIdeal.main_arg1) := hR ▸ Rtake m' c 2 Cert.ReferenceIdeal.main_arg1 (by decide)
  rw [show (Cert.KernelIdeal.Fold.opsK.drop 2).take 2 = ((Cert.KernelIdeal.Gen.hostOps0 (F := Ideal)).drop 2).take 2 from rfl]
  simp only [Cert.KernelIdeal.Gen.hostOps0, Cert.ReferenceIdeal.RefRun.ops, List.cons_append, List.nil_append, List.append_nil, List.drop_succ_cons, List.drop_zero, List.take_succ_cons, List.take_zero]
  after_results_simp
  rw [eK0, eR0, hei]
  rfl

/-- The per-edge normalisation weights: the weighted in-degrees summed along the target row, their inverse square roots where positive and zero elsewhere, and for each edge its weight times the factors of its two end points — the same operations on both sides. -/
theorem norm_nrm (hei : K m ρ c (Proc.devRef .tc Cert.KernelIdeal.main_arg1) = R m' c (Proc.devRef .tc Cert.ReferenceIdeal.main_arg1))
    (hew : K m ρ c (Proc.devRef .tc Cert.KernelIdeal.main_arg2) = R m' c (Proc.devRef .tc Cert.ReferenceIdeal.main_arg2)) :
    K m ρ c (Proc.devRef .tc Cert.KernelIdeal.main_v29) = R m' c (Proc.devRef .tc Cert.ReferenceIdeal.main_v29) := by
  rw [Kwin m ρ c 0 43 Cert.KernelIdeal.main_v29 (by decide), Rwin m' c 0 43 Cert.ReferenceIdeal.main_v29 (by decide)]
  generalize hK : after (List.take 0 Cert.KernelIdeal.Fold.opsK) (Cert.KernelIdeal.Gen.W0 m ρ c) = VK
  generalize hR : after (List.take 0 (Cert.ReferenceIdeal.RefRun.ops (F := Ideal))) (launchContents m' c) = VR
  have eK0 : VK (Proc.devRef .tc Cert.KernelIdeal.main_arg1) = K m ρ c (Proc.devRef .tc Cert.KernelIdeal.main_arg1) := hK ▸ Ktake m ρ c 0 Cert.KernelIdeal.main_arg1 (by decide)
  have eR0 : VR (Proc.devRef .tc Cert.ReferenceIdeal.main_arg1) = R m' c (Proc.devRef .tc Cert.ReferenceIdeal.main_arg1) := hR ▸ Rtake m' c 0 Cert.ReferenceIdeal.main_arg1 (by decide)
  have eK1 : VK (Proc.devRef .tc Cert.KernelIdeal.main_arg2) = K m ρ c (Proc.devRef .tc Cert.KernelIdeal.main_arg2) := hK ▸ Ktake m ρ c 0 Cert.KernelIdeal.main_arg2 (by decide)
  have eR1 : VR (Proc.devRef .tc Cert.ReferenceIdeal.main_arg2) = R m' c (Proc.devRef .tc Cert.ReferenceIdeal.main_arg2) := hR ▸ Rtake m' c 0 Cert.ReferenceIdeal.main_arg2 (by decide)
  rw [show (Cert.KernelIdeal.Fold.opsK.drop 0).take 43 = (Cert.KernelIdeal.Gen.hostOps0 (F := Ideal)) ++ (Cert.KernelIdeal.Gen.hostOps0_1 ++ (Cert.KernelIdeal.Gen.hostOps0_2 ++ (Cert.KernelIdeal.Gen.hostOps0_3 ++ (Cert.KernelIdeal.Gen.hostOps0_4.take 20)))) from rfl]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.ReferenceIdeal.RefRun.ops, List.cons_append, List.nil_append, List.append_nil, List.drop_succ_cons, List.drop_zero, List.take_succ_cons, List.take_zero]
  after_results_simp
  rw [eK0, eR0, eK1, eR1, hei, hew]
  rfl

end Cert.Bridge

end
-- ==== Proof.RefMath.lean ====
/-
  The reference's dense stages are the specification's.

  The reference computes each stage with a contraction of the [100000, 32] features with a [32, 32] weight matrix
  over the features' columns: entry (i, j) is the sum over the 32 columns k of features (i, k) times weights (k, j),
  which is the specification's product. A middle hop adds that product to the running output. The last hop also adds
  the bias, a vector of 32 entries laid as one row and then repeated down the 100000 rows, and takes the maximum with
  a zero repeated over the whole array; the vector laid as one row is the vector reshaped to [1, 32].
-/
import proofs.«413670_j78391743086995_4_alg».proof.ReferenceIdeal
import proofs.«413670_j78391743086995_4_alg».proof.Proof.Spec
import Idealize.ShloMosaic.Lib.ValueIdx
import Idealize.ShloMosaic.PureOps.Ideal.Laws
import Idealize.ShloMosaic.Lib.Pipeline.Value

noncomputable section

namespace Cert.ReferenceIdeal.RefMath

open Cert.ReferenceIdeal Idealize.ShloMosaic Idealize.ShloMosaic.ValueIdx
open Cert.ReferenceIdeal.Facts₀

variable [Facts₀]

/-! ## The contraction's operand indices, axis by axis -/

theorem lhs_axis0 (i : S100000x32.Idx) (q : dot_S100000x32_S32x32_S100000x32_1_0_0_1_n_n.contr.Idx) :
    (dot_S100000x32_S32x32_S100000x32_1_0_0_1_n_n.lhsIdx i q 0).val = (i 0).val := by
  unfold DotDims.lhsIdx
  rw [dif_neg (show ¬(0 : Fin S100000x32.rank) ∈ dot_S100000x32_S32x32_S100000x32_1_0_0_1_n_n.lhsBatch from List.not_mem_nil), dif_pos (show (0 : Fin S100000x32.rank) ∈ dot_S100000x32_S32x32_S100000x32_1_0_0_1_n_n.lhsNonContracting from List.mem_singleton.mpr rfl)]
  rfl
theorem lhs_axis1 (i : S100000x32.Idx) (q : dot_S100000x32_S32x32_S100000x32_1_0_0_1_n_n.contr.Idx) :
    (dot_S100000x32_S32x32_S100000x32_1_0_0_1_n_n.lhsIdx i q 1).val = (q ⟨0, Nat.one_pos⟩).val :=
  dot_S100000x32_S32x32_S100000x32_1_0_0_1_n_n.lhsIdx_val_of_single rfl i q
theorem rhs_axis0 (i : S100000x32.Idx) (q : dot_S100000x32_S32x32_S100000x32_1_0_0_1_n_n.contr.Idx) :
    (dot_S100000x32_S32x32_S100000x32_1_0_0_1_n_n.rhsIdx i q 0).val = (q ⟨0, Nat.one_pos⟩).val :=
  dot_S100000x32_S32x32_S100000x32_1_0_0_1_n_n.rhsIdx_val_of_single rfl i q
theorem rhs_axis1 (i : S100000x32.Idx) (q : dot_S100000x32_S32x32_S100000x32_1_0_0_1_n_n.contr.Idx) :
    (dot_S100000x32_S32x32_S100000x32_1_0_0_1_n_n.rhsIdx i q 1).val = (i 1).val := by
  unfold DotDims.rhsIdx
  rw [dif_neg (show ¬(1 : Fin S32x32.rank) ∈ dot_S100000x32_S32x32_S100000x32_1_0_0_1_n_n.rhsBatch from List.not_mem_nil), dif_pos (show (1 : Fin S32x32.rank) ∈ dot_S100000x32_S32x32_S100000x32_1_0_0_1_n_n.rhsNonContracting from List.mem_singleton.mpr rfl)]
  rfl

/-! ## The three stages -/

/-- The contraction of the features with the weights is the product: entry (i, j) sums features (i, k) · weights (k, j)
    over the 32 columns k. -/
theorem dot_eq_mm (x : FVec Ideal S100000x32 .f32) (w : FVec Ideal S32x32 .f32) :
    Host.dotGeneral (F := Ideal) dot_S100000x32_S32x32_S100000x32_1_0_0_1_n_n none x w = Cert.Spec.mm x w := by
  funext i
  simp only [Host.dotGeneral]
  rw [Ideal.dotGeneral_apply, ← Equiv.sum_comp (ValueIdx.contrEquiv1 dot_S100000x32_S32x32_S100000x32_1_0_0_1_n_n 32 rfl rfl).symm]
  unfold Cert.Spec.mm
  refine Finset.sum_congr rfl fun k _ => ?_
  have hk := ValueIdx.contrEquiv1_symm_val dot_S100000x32_S32x32_S100000x32_1_0_0_1_n_n 32 rfl rfl k
  have el : dot_S100000x32_S32x32_S100000x32_1_0_0_1_n_n.lhsIdx i ((ValueIdx.contrEquiv1 dot_S100000x32_S32x32_S100000x32_1_0_0_1_n_n 32 rfl rfl).symm k) = ix2 (i 0) k := funext fun a => Fin.ext (by
    match a with
    | ⟨0, _⟩ => exact lhs_axis0 _ _
    | ⟨1, _⟩ => exact (lhs_axis1 _ _).trans hk)
  have er : dot_S100000x32_S32x32_S100000x32_1_0_0_1_n_n.rhsIdx i ((ValueIdx.contrEquiv1 dot_S100000x32_S32x32_S100000x32_1_0_0_1_n_n 32 rfl rfl).symm k) = ix2 k (i 1) := funext fun a => Fin.ext (by
    match a with
    | ⟨0, _⟩ => exact (rhs_axis0 _ _).trans hk
    | ⟨1, _⟩ => exact rhs_axis1 _ _)
  exact congrArg₂ (· * ·) (congrArg x el) (congrArg w er)

/-- A middle hop: the running output plus the contraction is the running output plus the product. -/
theorem acc_eq (h : FVec Ideal S100000x32 .f32) (w : FVec Ideal S32x32 .f32) (o : FVec Ideal S100000x32 .f32) :
    addf o (Host.dotGeneral (F := Ideal) dot_S100000x32_S32x32_S100000x32_1_0_0_1_n_n none h w)
      = Cert.Spec.linAcc h w o := by
  rw [dot_eq_mm]
  funext i
  exact addf_apply _ _ i

/-- The bias vector laid as one row and repeated down the rows reads, at (i, j), the reshaped vector's entry (0, j). -/
theorem bias_rows_apply (b1 : FVec Ideal S32 .f32) (hc : S32.ShapeCasts S1x32) (i : S100000x32.Idx) :
    broadcastInDim S100000x32 ![0, 1] bcast_S1x32_S100000x32_0_1 (broadcastInDim S1x32 ![1] bcast_S32_S1x32_1 b1) i
      = shapeCast S1x32 b1 hc (ix2 (0 : Fin 1) (i 1)) := by
  refine (broadcastInDim_apply ![0, 1] bcast_S1x32_S100000x32_0_1 _ i (ix2 (0 : Fin 1) (i 1)) (fun a => ?_)).trans ?_
  · match a with
    | ⟨0, _⟩ => rfl
    | ⟨1, _⟩ => rfl
  refine (broadcastInDim_apply ![1] bcast_S32_S1x32_1 b1 (ix2 (0 : Fin 1) (i 1)) (ix1 (i 1)) (fun a => ?_)).trans ?_
  · match a with
    | ⟨0, _⟩ => rfl
  refine (shapeCast_apply b1 hc (ix2 (0 : Fin 1) (i 1)) (ix1 (i 1)) ?_).symm
  rw [Shape.rowMajor_val_one, Shape.rowMajor_val_two]
  show (i 1).val = 0 * 32 + (i 1).val
  omega

/-- The last hop: running output plus contraction plus the repeated bias row, against the repeated zero, is the
    specification's last stage with the bias reshaped to a row. -/
theorem fin_eq (h : FVec Ideal S100000x32 .f32) (w : FVec Ideal S32x32 .f32) (o : FVec Ideal S100000x32 .f32)
    (b1 : FVec Ideal S32 .f32) (hc : S32.ShapeCasts S1x32) :
    maximumf (addf (addf o (Host.dotGeneral (F := Ideal) dot_S100000x32_S32x32_S100000x32_1_0_0_1_n_n none h w))
        (broadcastInDim S100000x32 ![0, 1] bcast_S1x32_S100000x32_0_1 (broadcastInDim S1x32 ![1] bcast_S32_S1x32_1 b1)))
      (broadcastInDim S100000x32 ![] bcast_S_S100000x32 (constant (F := Ideal) S_ .f32 0x00000000#32))
      = Cert.Spec.linFin h w (shapeCast S1x32 b1 hc) o := by
  rw [dot_eq_mm]
  funext i
  show _ = max ((o i + Cert.Spec.mm h w i) + shapeCast S1x32 b1 hc (ix2 (0 : Fin 1) (i 1))) 0
  refine (maximumf_apply _ _ i).trans (congrArg₂ max ?_ ?_)
  · exact (addf_apply _ _ i).trans (congrArg₂ (· + ·) (addf_apply _ _ i) (bias_rows_apply b1 hc i))
  · refine (broadcastInDim_apply ![] bcast_S_S100000x32 _ i ix0 (fun a => a.elim0)).trans ?_
    show Ideal.ofBits .f32 0x00000000#32 = 0
    exact Ideal.ofBits_zero_f32

end Cert.ReferenceIdeal.RefMath

end
-- ==== Proof.BridgeLayer1.lean ====
/-
  Layer 1 of the network, stretch by stretch.

  Between regions both programs run the same host operations (a hop's gather, scale and scatter-sum; a slice of the
  weight tensor; the bias row); each region computes what the reference computes with a matrix product, a sum and, at
  the layer's end, the bias and the clamp at zero. So every buffer of the layer agrees with its partner in the
  reference, given that the layer's input and the shared edge data agree.
-/
import proofs.«413670_j78391743086995_4_alg».proof.Proof.BridgeDefs
import proofs.«413670_j78391743086995_4_alg».proof.Proof.RefMath

set_option maxRecDepth 16384

noncomputable section

namespace Cert.Bridge

open Idealize.ShloMosaic Idealize.ShloMosaic.TcCoe Idealize.ShloMosaic.StableHlo Idealize.ShloMosaic.StableHlo.Ssa Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Layer 1, hop 0's weight matrix: the same slice of the weight tensor, reshaped. -/
theorem L1_w0 (hA3 : K m ρ c (Proc.devRef .tc Cert.KernelIdeal.main_arg3) = R m' c (Proc.devRef .tc Cert.ReferenceIdeal.main_arg3)) :
    K m ρ c (Proc.devRef .tc Cert.KernelIdeal.main_v31) = R m' c (Proc.devRef .tc Cert.ReferenceIdeal.main_v31) := by
  rw [Kwin m ρ c 43 2 Cert.KernelIdeal.main_v31 (by decide), Rwin m' c 43 2 Cert.ReferenceIdeal.main_v31 (by decide)]
  generalize hK : after (List.take 43 Cert.KernelIdeal.Fold.opsK) (Cert.KernelIdeal.Gen.W0 m ρ c) = VK
  generalize hR : after (List.take 43 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 43 Cert.KernelIdeal.main_arg3 (by decide)
  have eR0 : VR (Proc.devRef .tc Cert.ReferenceIdeal.main_arg3) = R m' c (Proc.devRef .tc Cert.ReferenceIdeal.main_arg3) := hR ▸ Rtake m' c 43 Cert.ReferenceIdeal.main_arg3 (by decide)
  rw [show (Cert.KernelIdeal.Fold.opsK.drop 43).take 2 = ((Cert.KernelIdeal.Gen.hostOps0_4 (F := Ideal)).drop 20).take 2 from rfl]
  simp only [Cert.KernelIdeal.Gen.hostOps0_4, Cert.ReferenceIdeal.RefRun.ops, List.cons_append, List.nil_append, List.append_nil, List.drop_succ_cons, List.drop_zero, List.take_succ_cons, List.take_zero]
  after_results_simp
  rw [eK0, eR0, hA3]
  rfl

/-- Layer 1, hop 1's weight matrix: the same slice of the weight tensor, reshaped. -/
theorem L1_w1 (hA3 : K m ρ c (Proc.devRef .tc Cert.KernelIdeal.main_arg3) = R m' c (Proc.devRef .tc Cert.ReferenceIdeal.main_arg3)) :
    K m ρ c (Proc.devRef .tc Cert.KernelIdeal.main_v47) = R m' c (Proc.devRef .tc Cert.ReferenceIdeal.main_v47) := by
  rw [Kwin m ρ c 62 2 Cert.KernelIdeal.main_v47 (by decide), Rwin m' c 62 2 Cert.ReferenceIdeal.main_v47 (by decide)]
  generalize hK : after (List.take 62 Cert.KernelIdeal.Fold.opsK) (Cert.KernelIdeal.Gen.W0 m ρ c) = VK
  generalize hR : after (List.take 62 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 62 Cert.KernelIdeal.main_arg3 (by decide)
  have eR0 : VR (Proc.devRef .tc Cert.ReferenceIdeal.main_arg3) = R m' c (Proc.devRef .tc Cert.ReferenceIdeal.main_arg3) := hR ▸ Rtake m' c 62 Cert.ReferenceIdeal.main_arg3 (by decide)
  rw [show (Cert.KernelIdeal.Fold.opsK.drop 62).take 2 = ((Cert.KernelIdeal.Gen.hostOps1 (F := Ideal)).drop 16).take 2 from rfl]
  simp only [Cert.KernelIdeal.Gen.hostOps1, Cert.ReferenceIdeal.RefRun.ops, List.cons_append, List.nil_append, List.append_nil, List.drop_succ_cons, List.drop_zero, List.take_succ_cons, List.take_zero]
  after_results_simp
  rw [eK0, eR0, hA3]
  rfl

/-- Layer 1, hop 2's weight matrix: the same slice of the weight tensor, reshaped. -/
theorem L1_w2 (hA3 : K m ρ c (Proc.devRef .tc Cert.KernelIdeal.main_arg3) = R m' c (Proc.devRef .tc Cert.ReferenceIdeal.main_arg3)) :
    K m ρ c (Proc.devRef .tc Cert.KernelIdeal.main_v63) = R m' c (Proc.devRef .tc Cert.ReferenceIdeal.main_v64) := by
  rw [Kwin m ρ c 82 2 Cert.KernelIdeal.main_v63 (by decide), Rwin m' c 82 2 Cert.ReferenceIdeal.main_v64 (by decide)]
  generalize hK : after (List.take 82 Cert.KernelIdeal.Fold.opsK) (Cert.KernelIdeal.Gen.W0 m ρ c) = VK
  generalize hR : after (List.take 82 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 82 Cert.KernelIdeal.main_arg3 (by decide)
  have eR0 : VR (Proc.devRef .tc Cert.ReferenceIdeal.main_arg3) = R m' c (Proc.devRef .tc Cert.ReferenceIdeal.main_arg3) := hR ▸ Rtake m' c 82 Cert.ReferenceIdeal.main_arg3 (by decide)
  rw [show (Cert.KernelIdeal.Fold.opsK.drop 82).take 2 = ((Cert.KernelIdeal.Gen.hostOps2 (F := Ideal)).drop 16).take 2 from rfl]
  simp only [Cert.KernelIdeal.Gen.hostOps2, Cert.ReferenceIdeal.RefRun.ops, List.cons_append, List.nil_append, List.append_nil, List.drop_succ_cons, List.drop_zero, List.take_succ_cons, List.take_zero]
  after_results_simp
  rw [eK0, eR0, hA3]
  rfl

/-- Layer 1, hop 3's weight matrix: the same slice of the weight tensor, reshaped. -/
theorem L1_w3 (hA3 : K m ρ c (Proc.devRef .tc Cert.KernelIdeal.main_arg3) = R m' c (Proc.devRef .tc Cert.ReferenceIdeal.main_arg3)) :
    K m ρ c (Proc.devRef .tc Cert.KernelIdeal.main_v79) = R m' c (Proc.devRef .tc Cert.ReferenceIdeal.main_v81) := by
  rw [Kwin m ρ c 102 2 Cert.KernelIdeal.main_v79 (by decide), Rwin m' c 102 2 Cert.ReferenceIdeal.main_v81 (by decide)]
  generalize hK : after (List.take 102 Cert.KernelIdeal.Fold.opsK) (Cert.KernelIdeal.Gen.W0 m ρ c) = VK
  generalize hR : after (List.take 102 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 102 Cert.KernelIdeal.main_arg3 (by decide)
  have eR0 : VR (Proc.devRef .tc Cert.ReferenceIdeal.main_arg3) = R m' c (Proc.devRef .tc Cert.ReferenceIdeal.main_arg3) := hR ▸ Rtake m' c 102 Cert.ReferenceIdeal.main_arg3 (by decide)
  rw [show (Cert.KernelIdeal.Fold.opsK.drop 102).take 2 = ((Cert.KernelIdeal.Gen.hostOps3 (F := Ideal)).drop 16).take 2 from rfl]
  simp only [Cert.KernelIdeal.Gen.hostOps3, Cert.ReferenceIdeal.RefRun.ops, List.cons_append, List.nil_append, List.append_nil, List.drop_succ_cons, List.drop_zero, List.take_succ_cons, List.take_zero]
  after_results_simp
  rw [eK0, eR0, hA3]
  rfl

/-- Layer 1, hop 1's aggregated features: the previous features gathered along the source row, scaled by the edge weights and summed into the target row's nodes, by the same operations on both sides. -/
theorem L1_h1 (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hx : K m ρ c (Proc.devRef .tc Cert.KernelIdeal.main_arg0) = R m' c (Proc.devRef .tc Cert.ReferenceIdeal.main_arg0)) :
    K m ρ c (Proc.devRef .tc Cert.KernelIdeal.main_v45) = R m' c (Proc.devRef .tc Cert.ReferenceIdeal.main_v45) := by
  rw [Kwin m ρ c 46 16 Cert.KernelIdeal.main_v45 (by decide), Rwin m' c 46 16 Cert.ReferenceIdeal.main_v45 (by decide)]
  generalize hK : after (List.take 46 Cert.KernelIdeal.Fold.opsK) (Cert.KernelIdeal.Gen.W0 m ρ c) = VK
  generalize hR : after (List.take 46 (Cert.ReferenceIdeal.RefRun.ops (F := Ideal))) (launchContents m' c) = VR
  have eK0 : VK (Proc.devRef .tc Cert.KernelIdeal.main_v1) = K m ρ c (Proc.devRef .tc Cert.KernelIdeal.main_v1) := hK ▸ Ktake m ρ c 46 Cert.KernelIdeal.main_v1 (by decide)
  have eR0 : VR (Proc.devRef .tc Cert.ReferenceIdeal.main_v1) = R m' c (Proc.devRef .tc Cert.ReferenceIdeal.main_v1) := hR ▸ Rtake m' c 46 Cert.ReferenceIdeal.main_v1 (by decide)
  have eK1 : VK (Proc.devRef .tc Cert.KernelIdeal.main_v3) = K m ρ c (Proc.devRef .tc Cert.KernelIdeal.main_v3) := hK ▸ Ktake m ρ c 46 Cert.KernelIdeal.main_v3 (by decide)
  have eR1 : VR (Proc.devRef .tc Cert.ReferenceIdeal.main_v3) = R m' c (Proc.devRef .tc Cert.ReferenceIdeal.main_v3) := hR ▸ Rtake m' c 46 Cert.ReferenceIdeal.main_v3 (by decide)
  have eK2 : VK (Proc.devRef .tc Cert.KernelIdeal.main_v29) = K m ρ c (Proc.devRef .tc Cert.KernelIdeal.main_v29) := hK ▸ Ktake m ρ c 46 Cert.KernelIdeal.main_v29 (by decide)
  have eR2 : VR (Proc.devRef .tc Cert.ReferenceIdeal.main_v29) = R m' c (Proc.devRef .tc Cert.ReferenceIdeal.main_v29) := hR ▸ Rtake m' c 46 Cert.ReferenceIdeal.main_v29 (by decide)
  have eK3 : VK (Proc.devRef .tc Cert.KernelIdeal.main_arg0) = K m ρ c (Proc.devRef .tc Cert.KernelIdeal.main_arg0) := hK ▸ Ktake m ρ c 46 Cert.KernelIdeal.main_arg0 (by decide)
  have eR3 : VR (Proc.devRef .tc Cert.ReferenceIdeal.main_arg0) = R m' c (Proc.devRef .tc Cert.ReferenceIdeal.main_arg0) := hR ▸ Rtake m' c 46 Cert.ReferenceIdeal.main_arg0 (by decide)
  rw [show (Cert.KernelIdeal.Fold.opsK.drop 46).take 16 = ((Cert.KernelIdeal.Gen.hostOps1 (F := Ideal)).drop 0).take 16 from rfl]
  simp only [Cert.KernelIdeal.Gen.hostOps1, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hrow, hcol, hnrm, hx]
  rfl

/-- Layer 1, hop 2's aggregated features: the previous features gathered along the source row, scaled by the edge weights and summed into the target row's nodes, by the same operations on both sides. -/
theorem L1_h2 (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hx : K m ρ c (Proc.devRef .tc Cert.KernelIdeal.main_v45) = R m' c (Proc.devRef .tc Cert.ReferenceIdeal.main_v45)) :
    K m ρ c (Proc.devRef .tc Cert.KernelIdeal.main_v61) = R m' c (Proc.devRef .tc Cert.ReferenceIdeal.main_v62) := by
  rw [Kwin m ρ c 66 16 Cert.KernelIdeal.main_v61 (by decide), Rwin m' c 66 16 Cert.ReferenceIdeal.main_v62 (by decide)]
  generalize hK : after (List.take 66 Cert.KernelIdeal.Fold.opsK) (Cert.KernelIdeal.Gen.W0 m ρ c) = VK
  generalize hR : after (List.take 66 (Cert.ReferenceIdeal.RefRun.ops (F := Ideal))) (launchContents m' c) = VR
  have eK0 : VK (Proc.devRef .tc Cert.KernelIdeal.main_v1) = K m ρ c (Proc.devRef .tc Cert.KernelIdeal.main_v1) := hK ▸ Ktake m ρ c 66 Cert.KernelIdeal.main_v1 (by decide)
  have eR0 : VR (Proc.devRef .tc Cert.ReferenceIdeal.main_v1) = R m' c (Proc.devRef .tc Cert.ReferenceIdeal.main_v1) := hR ▸ Rtake m' c 66 Cert.ReferenceIdeal.main_v1 (by decide)
  have eK1 : VK (Proc.devRef .tc Cert.KernelIdeal.main_v3) = K m ρ c (Proc.devRef .tc Cert.KernelIdeal.main_v3) := hK ▸ Ktake m ρ c 66 Cert.KernelIdeal.main_v3 (by decide)
  have eR1 : VR (Proc.devRef .tc Cert.ReferenceIdeal.main_v3) = R m' c (Proc.devRef .tc Cert.ReferenceIdeal.main_v3) := hR ▸ Rtake m' c 66 Cert.ReferenceIdeal.main_v3 (by decide)
  have eK2 : VK (Proc.devRef .tc Cert.KernelIdeal.main_v29) = K m ρ c (Proc.devRef .tc Cert.KernelIdeal.main_v29) := hK ▸ Ktake m ρ c 66 Cert.KernelIdeal.main_v29 (by decide)
  have eR2 : VR (Proc.devRef .tc Cert.ReferenceIdeal.main_v29) = R m' c (Proc.devRef .tc Cert.ReferenceIdeal.main_v29) := hR ▸ Rtake m' c 66 Cert.ReferenceIdeal.main_v29 (by decide)
  have eK3 : VK (Proc.devRef .tc Cert.KernelIdeal.main_v45) = K m ρ c (Proc.devRef .tc Cert.KernelIdeal.main_v45) := hK ▸ Ktake m ρ c 66 Cert.KernelIdeal.main_v45 (by decide)
  have eR3 : VR (Proc.devRef .tc Cert.ReferenceIdeal.main_v45) = R m' c (Proc.devRef .tc Cert.ReferenceIdeal.main_v45) := hR ▸ Rtake m' c 66 Cert.ReferenceIdeal.main_v45 (by decide)
  rw [show (Cert.KernelIdeal.Fold.opsK.drop 66).take 16 = ((Cert.KernelIdeal.Gen.hostOps2 (F := Ideal)).drop 0).take 16 from rfl]
  simp only [Cert.KernelIdeal.Gen.hostOps2, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hrow, hcol, hnrm, hx]
  rfl

/-- Layer 1, hop 3's aggregated features: the previous features gathered along the source row, scaled by the edge weights and summed into the target row's nodes, by the same operations on both sides. -/
theorem L1_h3 (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hx : K m ρ c (Proc.devRef .tc Cert.KernelIdeal.main_v61) = R m' c (Proc.devRef .tc Cert.ReferenceIdeal.main_v62)) :
    K m ρ c (Proc.devRef .tc Cert.KernelIdeal.main_v77) = R m' c (Proc.devRef .tc Cert.ReferenceIdeal.main_v79) := by
  rw [Kwin m ρ c 86 16 Cert.KernelIdeal.main_v77 (by decide), Rwin m' c 86 16 Cert.ReferenceIdeal.main_v79 (by decide)]
  generalize hK : after (List.take 86 Cert.KernelIdeal.Fold.opsK) (Cert.KernelIdeal.Gen.W0 m ρ c) = VK
  generalize hR : after (List.take 86 (Cert.ReferenceIdeal.RefRun.ops (F := Ideal))) (launchContents m' c) = VR
  have eK0 : VK (Proc.devRef .tc Cert.KernelIdeal.main_v1) = K m ρ c (Proc.devRef .tc Cert.KernelIdeal.main_v1) := hK ▸ Ktake m ρ c 86 Cert.KernelIdeal.main_v1 (by decide)
  have eR0 : VR (Proc.devRef .tc Cert.ReferenceIdeal.main_v1) = R m' c (Proc.devRef .tc Cert.ReferenceIdeal.main_v1) := hR ▸ Rtake m' c 86 Cert.ReferenceIdeal.main_v1 (by decide)
  have eK1 : VK (Proc.devRef .tc Cert.KernelIdeal.main_v3) = K m ρ c (Proc.devRef .tc Cert.KernelIdeal.main_v3) := hK ▸ Ktake m ρ c 86 Cert.KernelIdeal.main_v3 (by decide)
  have eR1 : VR (Proc.devRef .tc Cert.ReferenceIdeal.main_v3) = R m' c (Proc.devRef .tc Cert.ReferenceIdeal.main_v3) := hR ▸ Rtake m' c 86 Cert.ReferenceIdeal.main_v3 (by decide)
  have eK2 : VK (Proc.devRef .tc Cert.KernelIdeal.main_v29) = K m ρ c (Proc.devRef .tc Cert.KernelIdeal.main_v29) := hK ▸ Ktake m ρ c 86 Cert.KernelIdeal.main_v29 (by decide)
  have eR2 : VR (Proc.devRef .tc Cert.ReferenceIdeal.main_v29) = R m' c (Proc.devRef .tc Cert.ReferenceIdeal.main_v29) := hR ▸ Rtake m' c 86 Cert.ReferenceIdeal.main_v29 (by decide)
  have eK3 : VK (Proc.devRef .tc Cert.KernelIdeal.main_v61) = K m ρ c (Proc.devRef .tc Cert.KernelIdeal.main_v61) := hK ▸ Ktake m ρ c 86 Cert.KernelIdeal.main_v61 (by decide)
  have eR3 : VR (Proc.devRef .tc Cert.ReferenceIdeal.main_v62) = R m' c (Proc.devRef .tc Cert.ReferenceIdeal.main_v62) := hR ▸ Rtake m' c 86 Cert.ReferenceIdeal.main_v62 (by decide)
  rw [show (Cert.KernelIdeal.Fold.opsK.drop 86).take 16 = ((Cert.KernelIdeal.Gen.hostOps3 (F := Ideal)).drop 0).take 16 from rfl]
  simp only [Cert.KernelIdeal.Gen.hostOps3, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hrow, hcol, hnrm, hx]
  rfl

/-- Layer 1's first region against the reference's first product: both are the features times the first weight matrix. -/
theorem L1_r0 (hx : K m ρ c (Proc.devRef .tc Cert.KernelIdeal.main_arg0) = R m' c (Proc.devRef .tc Cert.ReferenceIdeal.main_arg0))
    (hw : K m ρ c (Proc.devRef .tc Cert.KernelIdeal.main_v31) = R m' c (Proc.devRef .tc Cert.ReferenceIdeal.main_v31)) :
    K m ρ c (Proc.devRef .tc Cert.KernelIdeal.main_v32) = R m' c (Proc.devRef .tc Cert.ReferenceIdeal.main_v32) := by
  rw [Kwin m ρ c 45 1 Cert.KernelIdeal.main_v32 (by decide), Rwin m' c 45 1 Cert.ReferenceIdeal.main_v32 (by decide)]
  generalize hK : after (List.take 45 Cert.KernelIdeal.Fold.opsK) (Cert.KernelIdeal.Gen.W0 m ρ c) = VK
  generalize hR : after (List.take 45 (Cert.ReferenceIdeal.RefRun.ops (F := Ideal))) (launchContents m' c) = VR
  have eK0 : VK (Proc.devRef .tc Cert.KernelIdeal.main_arg0) = K m ρ c (Proc.devRef .tc Cert.KernelIdeal.main_arg0) := hK ▸ Ktake m ρ c 45 Cert.KernelIdeal.main_arg0 (by decide)
  have eR0 : VR (Proc.devRef .tc Cert.ReferenceIdeal.main_arg0) = R m' c (Proc.devRef .tc Cert.ReferenceIdeal.main_arg0) := hR ▸ Rtake m' c 45 Cert.ReferenceIdeal.main_arg0 (by decide)
  have eK1 : VK (Proc.devRef .tc Cert.KernelIdeal.main_v31) = K m ρ c (Proc.devRef .tc Cert.KernelIdeal.main_v31) := hK ▸ Ktake m ρ c 45 Cert.KernelIdeal.main_v31 (by decide)
  have eR1 : VR (Proc.devRef .tc Cert.ReferenceIdeal.main_v31) = R m' c (Proc.devRef .tc Cert.ReferenceIdeal.main_v31) := hR ▸ Rtake m' c 45 Cert.ReferenceIdeal.main_v31 (by decide)
  rw [show (Cert.KernelIdeal.Fold.opsK.drop 45).take 1 = [Cert.KernelIdeal.Fold.rop0] from rfl]
  simp only [Cert.KernelIdeal.Fold.rop0, Cert.ReferenceIdeal.RefRun.ops, List.cons_append, List.nil_append, List.append_nil, List.drop_succ_cons, List.drop_zero, List.take_succ_cons, List.take_zero]
  after_results_simp
  rw [eK0, eR0, eK1, eR1, hx, hw]
  exact (Cert.ReferenceIdeal.RefMath.dot_eq_mm _ _).symm

/-- Layer 1, hop 1's region against the reference's product and sum: both add the hop's product to the running output. -/
theorem L1_r1 (hh : K m ρ c (Proc.devRef .tc Cert.KernelIdeal.main_v45) = R m' c (Proc.devRef .tc Cert.ReferenceIdeal.main_v45))
    (hw : K m ρ c (Proc.devRef .tc Cert.KernelIdeal.main_v47) = R m' c (Proc.devRef .tc Cert.ReferenceIdeal.main_v47))
    (ho : K m ρ c (Proc.devRef .tc Cert.KernelIdeal.main_v32) = R m' c (Proc.devRef .tc Cert.ReferenceIdeal.main_v32)) :
    K m ρ c (Proc.devRef .tc Cert.KernelIdeal.main_v48) = R m' c (Proc.devRef .tc Cert.ReferenceIdeal.main_v49) := by
  rw [Kwin m ρ c 65 1 Cert.KernelIdeal.main_v48 (by decide), Rwin m' c 64 2 Cert.ReferenceIdeal.main_v49 (by decide)]
  generalize hK : after (List.take 65 Cert.KernelIdeal.Fold.opsK) (Cert.KernelIdeal.Gen.W0 m ρ c) = VK
  generalize hR : after (List.take 64 (Cert.ReferenceIdeal.RefRun.ops (F := Ideal))) (launchContents m' c) = VR
  have eK0 : VK (Proc.devRef .tc Cert.KernelIdeal.main_v45) = K m ρ c (Proc.devRef .tc Cert.KernelIdeal.main_v45) := hK ▸ Ktake m ρ c 65 Cert.KernelIdeal.main_v45 (by decide)
  have eR0 : VR (Proc.devRef .tc Cert.ReferenceIdeal.main_v45) = R m' c (Proc.devRef .tc Cert.ReferenceIdeal.main_v45) := hR ▸ Rtake m' c 64 Cert.ReferenceIdeal.main_v45 (by decide)
  have eK1 : VK (Proc.devRef .tc Cert.KernelIdeal.main_v47) = K m ρ c (Proc.devRef .tc Cert.KernelIdeal.main_v47) := hK ▸ Ktake m ρ c 65 Cert.KernelIdeal.main_v47 (by decide)
  have eR1 : VR (Proc.devRef .tc Cert.ReferenceIdeal.main_v47) = R m' c (Proc.devRef .tc Cert.ReferenceIdeal.main_v47) := hR ▸ Rtake m' c 64 Cert.ReferenceIdeal.main_v47 (by decide)
  have eK2 : VK (Proc.devRef .tc Cert.KernelIdeal.main_v32) = K m ρ c (Proc.devRef .tc Cert.KernelIdeal.main_v32) := hK ▸ Ktake m ρ c 65 Cert.KernelIdeal.main_v32 (by decide)
  have eR2 : VR (Proc.devRef .tc Cert.ReferenceIdeal.main_v32) = R m' c (Proc.devRef .tc Cert.ReferenceIdeal.main_v32) := hR ▸ Rtake m' c 64 Cert.ReferenceIdeal.main_v32 (by decide)
  rw [show (Cert.KernelIdeal.Fold.opsK.drop 65).take 1 = [Cert.KernelIdeal.Fold.rop1] from rfl]
  simp only [Cert.KernelIdeal.Fold.rop1, Cert.ReferenceIdeal.RefRun.ops, List.cons_append, List.nil_append, List.append_nil, List.drop_succ_cons, List.drop_zero, List.take_succ_cons, List.take_zero]
  after_results_simp
  rw [eK0, eR0, eK1, eR1, eK2, eR2, hh, hw, ho]
  exact (Cert.ReferenceIdeal.RefMath.acc_eq _ _ _).symm

/-- Layer 1, hop 2's region against the reference's product and sum: both add the hop's product to the running output. -/
theorem L1_r2 (hh : K m ρ c (Proc.devRef .tc Cert.KernelIdeal.main_v61) = R m' c (Proc.devRef .tc Cert.ReferenceIdeal.main_v62))
    (hw : K m ρ c (Proc.devRef .tc Cert.KernelIdeal.main_v63) = R m' c (Proc.devRef .tc Cert.ReferenceIdeal.main_v64))
    (ho : K m ρ c (Proc.devRef .tc Cert.KernelIdeal.main_v48) = R m' c (Proc.devRef .tc Cert.ReferenceIdeal.main_v49)) :
    K m ρ c (Proc.devRef .tc Cert.KernelIdeal.main_v64) = R m' c (Proc.devRef .tc Cert.ReferenceIdeal.main_v66) := by
  rw [Kwin m ρ c 85 1 Cert.KernelIdeal.main_v64 (by decide), Rwin m' c 84 2 Cert.ReferenceIdeal.main_v66 (by decide)]
  generalize hK : after (List.take 85 Cert.KernelIdeal.Fold.opsK) (Cert.KernelIdeal.Gen.W0 m ρ c) = VK
  generalize hR : after (List.take 84 (Cert.ReferenceIdeal.RefRun.ops (F := Ideal))) (launchContents m' c) = VR
  have eK0 : VK (Proc.devRef .tc Cert.KernelIdeal.main_v61) = K m ρ c (Proc.devRef .tc Cert.KernelIdeal.main_v61) := hK ▸ Ktake m ρ c 85 Cert.KernelIdeal.main_v61 (by decide)
  have eR0 : VR (Proc.devRef .tc Cert.ReferenceIdeal.main_v62) = R m' c (Proc.devRef .tc Cert.ReferenceIdeal.main_v62) := hR ▸ Rtake m' c 84 Cert.ReferenceIdeal.main_v62 (by decide)
  have eK1 : VK (Proc.devRef .tc Cert.KernelIdeal.main_v63) = K m ρ c (Proc.devRef .tc Cert.KernelIdeal.main_v63) := hK ▸ Ktake m ρ c 85 Cert.KernelIdeal.main_v63 (by decide)
  have eR1 : VR (Proc.devRef .tc Cert.ReferenceIdeal.main_v64) = R m' c (Proc.devRef .tc Cert.ReferenceIdeal.main_v64) := hR ▸ Rtake m' c 84 Cert.ReferenceIdeal.main_v64 (by decide)
  have eK2 : VK (Proc.devRef .tc Cert.KernelIdeal.main_v48) = K m ρ c (Proc.devRef .tc Cert.KernelIdeal.main_v48) := hK ▸ Ktake m ρ c 85 Cert.KernelIdeal.main_v48 (by decide)
  have eR2 : VR (Proc.devRef .tc Cert.ReferenceIdeal.main_v49) = R m' c (Proc.devRef .tc Cert.ReferenceIdeal.main_v49) := hR ▸ Rtake m' c 84 Cert.ReferenceIdeal.main_v49 (by decide)
  rw [show (Cert.KernelIdeal.Fold.opsK.drop 85).take 1 = [Cert.KernelIdeal.Fold.rop2] from rfl]
  simp only [Cert.KernelIdeal.Fold.rop2, Cert.ReferenceIdeal.RefRun.ops, List.cons_append, List.nil_append, List.append_nil, List.drop_succ_cons, List.drop_zero, List.take_succ_cons, List.take_zero]
  after_results_simp
  rw [eK0, eR0, eK1, eR1, eK2, eR2, hh, hw, ho]
  exact (Cert.ReferenceIdeal.RefMath.acc_eq _ _ _).symm

/-- Layer 1's last region against the reference's product, sums and clamp: both add the last hop's product and the layer's bias row to the running output and clamp below at zero; the kernel's bias row is the bias vector reshaped to one row, the reference's the same vector broadcast along the nodes. -/
theorem L1_r3 (hh : K m ρ c (Proc.devRef .tc Cert.KernelIdeal.main_v77) = R m' c (Proc.devRef .tc Cert.ReferenceIdeal.main_v79))
    (hw : K m ρ c (Proc.devRef .tc Cert.KernelIdeal.main_v79) = R m' c (Proc.devRef .tc Cert.ReferenceIdeal.main_v81))
    (ho : K m ρ c (Proc.devRef .tc Cert.KernelIdeal.main_v64) = R m' c (Proc.devRef .tc Cert.ReferenceIdeal.main_v66))
    (hA4 : K m ρ c (Proc.devRef .tc Cert.KernelIdeal.main_arg4) = R m' c (Proc.devRef .tc Cert.ReferenceIdeal.main_arg4)) :
    K m ρ c (Proc.devRef .tc Cert.KernelIdeal.main_v83) = R m' c (Proc.devRef .tc Cert.ReferenceIdeal.main_v89) := by
  rw [Kwin m ρ c 104 5 Cert.KernelIdeal.main_v83 (by decide), Rwin m' c 104 10 Cert.ReferenceIdeal.main_v89 (by decide)]
  generalize hK : after (List.take 104 Cert.KernelIdeal.Fold.opsK) (Cert.KernelIdeal.Gen.W0 m ρ c) = VK
  generalize hR : after (List.take 104 (Cert.ReferenceIdeal.RefRun.ops (F := Ideal))) (launchContents m' c) = VR
  have eK0 : VK (Proc.devRef .tc Cert.KernelIdeal.main_v77) = K m ρ c (Proc.devRef .tc Cert.KernelIdeal.main_v77) := hK ▸ Ktake m ρ c 104 Cert.KernelIdeal.main_v77 (by decide)
  have eR0 : VR (Proc.devRef .tc Cert.ReferenceIdeal.main_v79) = R m' c (Proc.devRef .tc Cert.ReferenceIdeal.main_v79) := hR ▸ Rtake m' c 104 Cert.ReferenceIdeal.main_v79 (by decide)
  have eK1 : VK (Proc.devRef .tc Cert.KernelIdeal.main_v79) = K m ρ c (Proc.devRef .tc Cert.KernelIdeal.main_v79) := hK ▸ Ktake m ρ c 104 Cert.KernelIdeal.main_v79 (by decide)
  have eR1 : VR (Proc.devRef .tc Cert.ReferenceIdeal.main_v81) = R m' c (Proc.devRef .tc Cert.ReferenceIdeal.main_v81) := hR ▸ Rtake m' c 104 Cert.ReferenceIdeal.main_v81 (by decide)
  have eK2 : VK (Proc.devRef .tc Cert.KernelIdeal.main_v64) = K m ρ c (Proc.devRef .tc Cert.KernelIdeal.main_v64) := hK ▸ Ktake m ρ c 104 Cert.KernelIdeal.main_v64 (by decide)
  have eR2 : VR (Proc.devRef .tc Cert.ReferenceIdeal.main_v66) = R m' c (Proc.devRef .tc Cert.ReferenceIdeal.main_v66) := hR ▸ Rtake m' c 104 Cert.ReferenceIdeal.main_v66 (by decide)
  have eK3 : VK (Proc.devRef .tc Cert.KernelIdeal.main_arg4) = K m ρ c (Proc.devRef .tc Cert.KernelIdeal.main_arg4) := hK ▸ Ktake m ρ c 104 Cert.KernelIdeal.main_arg4 (by decide)
  have eR3 : VR (Proc.devRef .tc Cert.ReferenceIdeal.main_arg4) = R m' c (Proc.devRef .tc Cert.ReferenceIdeal.main_arg4) := hR ▸ Rtake m' c 104 Cert.ReferenceIdeal.main_arg4 (by decide)
  rw [show (Cert.KernelIdeal.Fold.opsK.drop 104).take 5 = ((Cert.KernelIdeal.Gen.hostOps3 (F := Ideal)).drop 18).take 4 ++ [Cert.KernelIdeal.Fold.rop3] from rfl]
  simp only [Cert.KernelIdeal.Gen.hostOps3, Cert.KernelIdeal.Fold.rop3, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hh, hw, ho, hA4]
  exact (Cert.ReferenceIdeal.RefMath.fin_eq _ _ _ _ _).symm

/-- Layer 1: from equal inputs, edge rows, normalisation weights, weight tensors and biases, the layer's outputs agree —
    the running output and the hops' aggregated features agree step by step, hop after hop. -/
theorem L1_out (hx : K m ρ c (Proc.devRef .tc Cert.KernelIdeal.main_arg0) = R m' c (Proc.devRef .tc Cert.ReferenceIdeal.main_arg0))
    (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hA3 : K m ρ c (Proc.devRef .tc Cert.KernelIdeal.main_arg3) = R m' c (Proc.devRef .tc Cert.ReferenceIdeal.main_arg3))
    (hA4 : K m ρ c (Proc.devRef .tc Cert.KernelIdeal.main_arg4) = R m' c (Proc.devRef .tc Cert.ReferenceIdeal.main_arg4)) :
    K m ρ c (Proc.devRef .tc Cert.KernelIdeal.main_v83) = R m' c (Proc.devRef .tc Cert.ReferenceIdeal.main_v89) := by
  have w0 := L1_w0 m ρ m' c hA3
  have w1 := L1_w1 m ρ m' c hA3
  have w2 := L1_w2 m ρ m' c hA3
  have w3 := L1_w3 m ρ m' c hA3
  have r0 := L1_r0 m ρ m' c hx w0
  have h1 := L1_h1 m ρ m' c hrow hcol hnrm hx
  have r1 := L1_r1 m ρ m' c h1 w1 r0
  have h2 := L1_h2 m ρ m' c hrow hcol hnrm h1
  have r2 := L1_r2 m ρ m' c h2 w2 r1
  have h3 := L1_h3 m ρ m' c hrow hcol hnrm h2
  exact L1_r3 m ρ m' c h3 w3 r2 hA4

end Cert.Bridge

end
-- ==== Proof.BridgeLayer2.lean ====
/-
  Layer 2 of the network, stretch by stretch.

  Between regions both programs run the same host operations (a hop's gather, scale and scatter-sum; a slice of the
  weight tensor; the bias row); each region computes what the reference computes with a matrix product, a sum and, at
  the layer's end, the bias and the clamp at zero. So every buffer of the layer agrees with its partner in the
  reference, given that the layer's input and the shared edge data agree.
-/
import proofs.«413670_j78391743086995_4_alg».proof.Proof.BridgeDefs
import proofs.«413670_j78391743086995_4_alg».proof.Proof.RefMath

set_option maxRecDepth 16384

noncomputable section

namespace Cert.Bridge

open Idealize.ShloMosaic Idealize.ShloMosaic.TcCoe Idealize.ShloMosaic.StableHlo Idealize.ShloMosaic.StableHlo.Ssa Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Layer 2, hop 0's weight matrix: the same slice of the weight tensor, reshaped. -/
theorem L2_w0 (hA3 : K m ρ c (Proc.devRef .tc Cert.KernelIdeal.main_arg3) = R m' c (Proc.devRef .tc Cert.ReferenceIdeal.main_arg3)) :
    K m ρ c (Proc.devRef .tc Cert.KernelIdeal.main_v85) = R m' c (Proc.devRef .tc Cert.ReferenceIdeal.main_v91) := by
  rw [Kwin m ρ c 109 2 Cert.KernelIdeal.main_v85 (by decide), Rwin m' c 114 2 Cert.ReferenceIdeal.main_v91 (by decide)]
  generalize hK : after (List.take 109 Cert.KernelIdeal.Fold.opsK) (Cert.KernelIdeal.Gen.W0 m ρ c) = VK
  generalize hR : after (List.take 114 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 109 Cert.KernelIdeal.main_arg3 (by decide)
  have eR0 : VR (Proc.devRef .tc Cert.ReferenceIdeal.main_arg3) = R m' c (Proc.devRef .tc Cert.ReferenceIdeal.main_arg3) := hR ▸ Rtake m' c 114 Cert.ReferenceIdeal.main_arg3 (by decide)
  rw [show (Cert.KernelIdeal.Fold.opsK.drop 109).take 2 = ((Cert.KernelIdeal.Gen.hostOps4 (F := Ideal)).drop 0).take 2 from rfl]
  simp only [Cert.KernelIdeal.Gen.hostOps4, Cert.ReferenceIdeal.RefRun.ops, List.cons_append, List.nil_append, List.append_nil, List.drop_succ_cons, List.drop_zero, List.take_succ_cons, List.take_zero]
  after_results_simp
  rw [eK0, eR0, hA3]
  rfl

/-- Layer 2, hop 1's weight matrix: the same slice of the weight tensor, reshaped. -/
theorem L2_w1 (hA3 : K m ρ c (Proc.devRef .tc Cert.KernelIdeal.main_arg3) = R m' c (Proc.devRef .tc Cert.ReferenceIdeal.main_arg3)) :
    K m ρ c (Proc.devRef .tc Cert.KernelIdeal.main_v101) = R m' c (Proc.devRef .tc Cert.ReferenceIdeal.main_v107) := by
  rw [Kwin m ρ c 128 2 Cert.KernelIdeal.main_v101 (by decide), Rwin m' c 133 2 Cert.ReferenceIdeal.main_v107 (by decide)]
  generalize hK : after (List.take 128 Cert.KernelIdeal.Fold.opsK) (Cert.KernelIdeal.Gen.W0 m ρ c) = VK
  generalize hR : after (List.take 133 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 128 Cert.KernelIdeal.main_arg3 (by decide)
  have eR0 : VR (Proc.devRef .tc Cert.ReferenceIdeal.main_arg3) = R m' c (Proc.devRef .tc Cert.ReferenceIdeal.main_arg3) := hR ▸ Rtake m' c 133 Cert.ReferenceIdeal.main_arg3 (by decide)
  rw [show (Cert.KernelIdeal.Fold.opsK.drop 128).take 2 = ((Cert.KernelIdeal.Gen.hostOps5 (F := Ideal)).drop 16).take 2 from rfl]
  simp only [Cert.KernelIdeal.Gen.hostOps5, Cert.ReferenceIdeal.RefRun.ops, List.cons_append, List.nil_append, List.append_nil, List.drop_succ_cons, List.drop_zero, List.take_succ_cons, List.take_zero]
  after_results_simp
  rw [eK0, eR0, hA3]
  rfl

/-- Layer 2, hop 2's weight matrix: the same slice of the weight tensor, reshaped. -/
theorem L2_w2 (hA3 : K m ρ c (Proc.devRef .tc Cert.KernelIdeal.main_arg3) = R m' c (Proc.devRef .tc Cert.ReferenceIdeal.main_arg3)) :
    K m ρ c (Proc.devRef .tc Cert.KernelIdeal.main_v117) = R m' c (Proc.devRef .tc Cert.ReferenceIdeal.main_v124) := by
  rw [Kwin m ρ c 148 2 Cert.KernelIdeal.main_v117 (by decide), Rwin m' c 153 2 Cert.ReferenceIdeal.main_v124 (by decide)]
  generalize hK : after (List.take 148 Cert.KernelIdeal.Fold.opsK) (Cert.KernelIdeal.Gen.W0 m ρ c) = VK
  generalize hR : after (List.take 153 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 148 Cert.KernelIdeal.main_arg3 (by decide)
  have eR0 : VR (Proc.devRef .tc Cert.ReferenceIdeal.main_arg3) = R m' c (Proc.devRef .tc Cert.ReferenceIdeal.main_arg3) := hR ▸ Rtake m' c 153 Cert.ReferenceIdeal.main_arg3 (by decide)
  rw [show (Cert.KernelIdeal.Fold.opsK.drop 148).take 2 = ((Cert.KernelIdeal.Gen.hostOps6 (F := Ideal)).drop 16).take 2 from rfl]
  simp only [Cert.KernelIdeal.Gen.hostOps6, Cert.ReferenceIdeal.RefRun.ops, List.cons_append, List.nil_append, List.append_nil, List.drop_succ_cons, List.drop_zero, List.take_succ_cons, List.take_zero]
  after_results_simp
  rw [eK0, eR0, hA3]
  rfl

/-- Layer 2, hop 3's weight matrix: the same slice of the weight tensor, reshaped. -/
theorem L2_w3 (hA3 : K m ρ c (Proc.devRef .tc Cert.KernelIdeal.main_arg3) = R m' c (Proc.devRef .tc Cert.ReferenceIdeal.main_arg3)) :
    K m ρ c (Proc.devRef .tc Cert.KernelIdeal.main_v133) = R m' c (Proc.devRef .tc Cert.ReferenceIdeal.main_v141) := by
  rw [Kwin m ρ c 168 2 Cert.KernelIdeal.main_v133 (by decide), Rwin m' c 173 2 Cert.ReferenceIdeal.main_v141 (by decide)]
  generalize hK : after (List.take 168 Cert.KernelIdeal.Fold.opsK) (Cert.KernelIdeal.Gen.W0 m ρ c) = VK
  generalize hR : after (List.take 173 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 168 Cert.KernelIdeal.main_arg3 (by decide)
  have eR0 : VR (Proc.devRef .tc Cert.ReferenceIdeal.main_arg3) = R m' c (Proc.devRef .tc Cert.ReferenceIdeal.main_arg3) := hR ▸ Rtake m' c 173 Cert.ReferenceIdeal.main_arg3 (by decide)
  rw [show (Cert.KernelIdeal.Fold.opsK.drop 168).take 2 = ((Cert.KernelIdeal.Gen.hostOps7 (F := Ideal)).drop 16).take 2 from rfl]
  simp only [Cert.KernelIdeal.Gen.hostOps7, Cert.ReferenceIdeal.RefRun.ops, List.cons_append, List.nil_append, List.append_nil, List.drop_succ_cons, List.drop_zero, List.take_succ_cons, List.take_zero]
  after_results_simp
  rw [eK0, eR0, hA3]
  rfl

/-- Layer 2, hop 1's aggregated features: the previous features gathered along the source row, scaled by the edge weights and summed into the target row's nodes, by the same operations on both sides. -/
theorem L2_h1 (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hx : K m ρ c (Proc.devRef .tc Cert.KernelIdeal.main_v83) = R m' c (Proc.devRef .tc Cert.ReferenceIdeal.main_v89)) :
    K m ρ c (Proc.devRef .tc Cert.KernelIdeal.main_v99) = R m' c (Proc.devRef .tc Cert.ReferenceIdeal.main_v105) := by
  rw [Kwin m ρ c 112 16 Cert.KernelIdeal.main_v99 (by decide), Rwin m' c 117 16 Cert.ReferenceIdeal.main_v105 (by decide)]
  generalize hK : after (List.take 112 Cert.KernelIdeal.Fold.opsK) (Cert.KernelIdeal.Gen.W0 m ρ c) = VK
  generalize hR : after (List.take 117 (Cert.ReferenceIdeal.RefRun.ops (F := Ideal))) (launchContents m' c) = VR
  have eK0 : VK (Proc.devRef .tc Cert.KernelIdeal.main_v1) = K m ρ c (Proc.devRef .tc Cert.KernelIdeal.main_v1) := hK ▸ Ktake m ρ c 112 Cert.KernelIdeal.main_v1 (by decide)
  have eR0 : VR (Proc.devRef .tc Cert.ReferenceIdeal.main_v1) = R m' c (Proc.devRef .tc Cert.ReferenceIdeal.main_v1) := hR ▸ Rtake m' c 117 Cert.ReferenceIdeal.main_v1 (by decide)
  have eK1 : VK (Proc.devRef .tc Cert.KernelIdeal.main_v3) = K m ρ c (Proc.devRef .tc Cert.KernelIdeal.main_v3) := hK ▸ Ktake m ρ c 112 Cert.KernelIdeal.main_v3 (by decide)
  have eR1 : VR (Proc.devRef .tc Cert.ReferenceIdeal.main_v3) = R m' c (Proc.devRef .tc Cert.ReferenceIdeal.main_v3) := hR ▸ Rtake m' c 117 Cert.ReferenceIdeal.main_v3 (by decide)
  have eK2 : VK (Proc.devRef .tc Cert.KernelIdeal.main_v29) = K m ρ c (Proc.devRef .tc Cert.KernelIdeal.main_v29) := hK ▸ Ktake m ρ c 112 Cert.KernelIdeal.main_v29 (by decide)
  have eR2 : VR (Proc.devRef .tc Cert.ReferenceIdeal.main_v29) = R m' c (Proc.devRef .tc Cert.ReferenceIdeal.main_v29) := hR ▸ Rtake m' c 117 Cert.ReferenceIdeal.main_v29 (by decide)
  have eK3 : VK (Proc.devRef .tc Cert.KernelIdeal.main_v83) = K m ρ c (Proc.devRef .tc Cert.KernelIdeal.main_v83) := hK ▸ Ktake m ρ c 112 Cert.KernelIdeal.main_v83 (by decide)
  have eR3 : VR (Proc.devRef .tc Cert.ReferenceIdeal.main_v89) = R m' c (Proc.devRef .tc Cert.ReferenceIdeal.main_v89) := hR ▸ Rtake m' c 117 Cert.ReferenceIdeal.main_v89 (by decide)
  rw [show (Cert.KernelIdeal.Fold.opsK.drop 112).take 16 = ((Cert.KernelIdeal.Gen.hostOps5 (F := Ideal)).drop 0).take 16 from rfl]
  simp only [Cert.KernelIdeal.Gen.hostOps5, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hrow, hcol, hnrm, hx]
  rfl

/-- Layer 2, hop 2's aggregated features: the previous features gathered along the source row, scaled by the edge weights and summed into the target row's nodes, by the same operations on both sides. -/
theorem L2_h2 (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hx : K m ρ c (Proc.devRef .tc Cert.KernelIdeal.main_v99) = R m' c (Proc.devRef .tc Cert.ReferenceIdeal.main_v105)) :
    K m ρ c (Proc.devRef .tc Cert.KernelIdeal.main_v115) = R m' c (Proc.devRef .tc Cert.ReferenceIdeal.main_v122) := by
  rw [Kwin m ρ c 132 16 Cert.KernelIdeal.main_v115 (by decide), Rwin m' c 137 16 Cert.ReferenceIdeal.main_v122 (by decide)]
  generalize hK : after (List.take 132 Cert.KernelIdeal.Fold.opsK) (Cert.KernelIdeal.Gen.W0 m ρ c) = VK
  generalize hR : after (List.take 137 (Cert.ReferenceIdeal.RefRun.ops (F := Ideal))) (launchContents m' c) = VR
  have eK0 : VK (Proc.devRef .tc Cert.KernelIdeal.main_v1) = K m ρ c (Proc.devRef .tc Cert.KernelIdeal.main_v1) := hK ▸ Ktake m ρ c 132 Cert.KernelIdeal.main_v1 (by decide)
  have eR0 : VR (Proc.devRef .tc Cert.ReferenceIdeal.main_v1) = R m' c (Proc.devRef .tc Cert.ReferenceIdeal.main_v1) := hR ▸ Rtake m' c 137 Cert.ReferenceIdeal.main_v1 (by decide)
  have eK1 : VK (Proc.devRef .tc Cert.KernelIdeal.main_v3) = K m ρ c (Proc.devRef .tc Cert.KernelIdeal.main_v3) := hK ▸ Ktake m ρ c 132 Cert.KernelIdeal.main_v3 (by decide)
  have eR1 : VR (Proc.devRef .tc Cert.ReferenceIdeal.main_v3) = R m' c (Proc.devRef .tc Cert.ReferenceIdeal.main_v3) := hR ▸ Rtake m' c 137 Cert.ReferenceIdeal.main_v3 (by decide)
  have eK2 : VK (Proc.devRef .tc Cert.KernelIdeal.main_v29) = K m ρ c (Proc.devRef .tc Cert.KernelIdeal.main_v29) := hK ▸ Ktake m ρ c 132 Cert.KernelIdeal.main_v29 (by decide)
  have eR2 : VR (Proc.devRef .tc Cert.ReferenceIdeal.main_v29) = R m' c (Proc.devRef .tc Cert.ReferenceIdeal.main_v29) := hR ▸ Rtake m' c 137 Cert.ReferenceIdeal.main_v29 (by decide)
  have eK3 : VK (Proc.devRef .tc Cert.KernelIdeal.main_v99) = K m ρ c (Proc.devRef .tc Cert.KernelIdeal.main_v99) := hK ▸ Ktake m ρ c 132 Cert.KernelIdeal.main_v99 (by decide)
  have eR3 : VR (Proc.devRef .tc Cert.ReferenceIdeal.main_v105) = R m' c (Proc.devRef .tc Cert.ReferenceIdeal.main_v105) := hR ▸ Rtake m' c 137 Cert.ReferenceIdeal.main_v105 (by decide)
  rw [show (Cert.KernelIdeal.Fold.opsK.drop 132).take 16 = ((Cert.KernelIdeal.Gen.hostOps6 (F := Ideal)).drop 0).take 16 from rfl]
  simp only [Cert.KernelIdeal.Gen.hostOps6, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hrow, hcol, hnrm, hx]
  rfl

/-- Layer 2, hop 3's aggregated features: the previous features gathered along the source row, scaled by the edge weights and summed into the target row's nodes, by the same operations on both sides. -/
theorem L2_h3 (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hx : K m ρ c (Proc.devRef .tc Cert.KernelIdeal.main_v115) = R m' c (Proc.devRef .tc Cert.ReferenceIdeal.main_v122)) :
    K m ρ c (Proc.devRef .tc Cert.KernelIdeal.main_v131) = R m' c (Proc.devRef .tc Cert.ReferenceIdeal.main_v139) := by
  rw [Kwin m ρ c 152 16 Cert.KernelIdeal.main_v131 (by decide), Rwin m' c 157 16 Cert.ReferenceIdeal.main_v139 (by decide)]
  generalize hK : after (List.take 152 Cert.KernelIdeal.Fold.opsK) (Cert.KernelIdeal.Gen.W0 m ρ c) = VK
  generalize hR : after (List.take 157 (Cert.ReferenceIdeal.RefRun.ops (F := Ideal))) (launchContents m' c) = VR
  have eK0 : VK (Proc.devRef .tc Cert.KernelIdeal.main_v1) = K m ρ c (Proc.devRef .tc Cert.KernelIdeal.main_v1) := hK ▸ Ktake m ρ c 152 Cert.KernelIdeal.main_v1 (by decide)
  have eR0 : VR (Proc.devRef .tc Cert.ReferenceIdeal.main_v1) = R m' c (Proc.devRef .tc Cert.ReferenceIdeal.main_v1) := hR ▸ Rtake m' c 157 Cert.ReferenceIdeal.main_v1 (by decide)
  have eK1 : VK (Proc.devRef .tc Cert.KernelIdeal.main_v3) = K m ρ c (Proc.devRef .tc Cert.KernelIdeal.main_v3) := hK ▸ Ktake m ρ c 152 Cert.KernelIdeal.main_v3 (by decide)
  have eR1 : VR (Proc.devRef .tc Cert.ReferenceIdeal.main_v3) = R m' c (Proc.devRef .tc Cert.ReferenceIdeal.main_v3) := hR ▸ Rtake m' c 157 Cert.ReferenceIdeal.main_v3 (by decide)
  have eK2 : VK (Proc.devRef .tc Cert.KernelIdeal.main_v29) = K m ρ c (Proc.devRef .tc Cert.KernelIdeal.main_v29) := hK ▸ Ktake m ρ c 152 Cert.KernelIdeal.main_v29 (by decide)
  have eR2 : VR (Proc.devRef .tc Cert.ReferenceIdeal.main_v29) = R m' c (Proc.devRef .tc Cert.ReferenceIdeal.main_v29) := hR ▸ Rtake m' c 157 Cert.ReferenceIdeal.main_v29 (by decide)
  have eK3 : VK (Proc.devRef .tc Cert.KernelIdeal.main_v115) = K m ρ c (Proc.devRef .tc Cert.KernelIdeal.main_v115) := hK ▸ Ktake m ρ c 152 Cert.KernelIdeal.main_v115 (by decide)
  have eR3 : VR (Proc.devRef .tc Cert.ReferenceIdeal.main_v122) = R m' c (Proc.devRef .tc Cert.ReferenceIdeal.main_v122) := hR ▸ Rtake m' c 157 Cert.ReferenceIdeal.main_v122 (by decide)
  rw [show (Cert.KernelIdeal.Fold.opsK.drop 152).take 16 = ((Cert.KernelIdeal.Gen.hostOps7 (F := Ideal)).drop 0).take 16 from rfl]
  simp only [Cert.KernelIdeal.Gen.hostOps7, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hrow, hcol, hnrm, hx]
  rfl

/-- Layer 2's first region against the reference's first product: both are the features times the first weight matrix. -/
theorem L2_r0 (hx : K m ρ c (Proc.devRef .tc Cert.KernelIdeal.main_v83) = R m' c (Proc.devRef .tc Cert.ReferenceIdeal.main_v89))
    (hw : K m ρ c (Proc.devRef .tc Cert.KernelIdeal.main_v85) = R m' c (Proc.devRef .tc Cert.ReferenceIdeal.main_v91)) :
    K m ρ c (Proc.devRef .tc Cert.KernelIdeal.main_v86) = R m' c (Proc.devRef .tc Cert.ReferenceIdeal.main_v92) := by
  rw [Kwin m ρ c 111 1 Cert.KernelIdeal.main_v86 (by decide), Rwin m' c 116 1 Cert.ReferenceIdeal.main_v92 (by decide)]
  generalize hK : after (List.take 111 Cert.KernelIdeal.Fold.opsK) (Cert.KernelIdeal.Gen.W0 m ρ c) = VK
  generalize hR : after (List.take 116 (Cert.ReferenceIdeal.RefRun.ops (F := Ideal))) (launchContents m' c) = VR
  have eK0 : VK (Proc.devRef .tc Cert.KernelIdeal.main_v83) = K m ρ c (Proc.devRef .tc Cert.KernelIdeal.main_v83) := hK ▸ Ktake m ρ c 111 Cert.KernelIdeal.main_v83 (by decide)
  have eR0 : VR (Proc.devRef .tc Cert.ReferenceIdeal.main_v89) = R m' c (Proc.devRef .tc Cert.ReferenceIdeal.main_v89) := hR ▸ Rtake m' c 116 Cert.ReferenceIdeal.main_v89 (by decide)
  have eK1 : VK (Proc.devRef .tc Cert.KernelIdeal.main_v85) = K m ρ c (Proc.devRef .tc Cert.KernelIdeal.main_v85) := hK ▸ Ktake m ρ c 111 Cert.KernelIdeal.main_v85 (by decide)
  have eR1 : VR (Proc.devRef .tc Cert.ReferenceIdeal.main_v91) = R m' c (Proc.devRef .tc Cert.ReferenceIdeal.main_v91) := hR ▸ Rtake m' c 116 Cert.ReferenceIdeal.main_v91 (by decide)
  rw [show (Cert.KernelIdeal.Fold.opsK.drop 111).take 1 = [Cert.KernelIdeal.Fold.rop4] from rfl]
  simp only [Cert.KernelIdeal.Fold.rop4, Cert.ReferenceIdeal.RefRun.ops, List.cons_append, List.nil_append, List.append_nil, List.drop_succ_cons, List.drop_zero, List.take_succ_cons, List.take_zero]
  after_results_simp
  rw [eK0, eR0, eK1, eR1, hx, hw]
  exact (Cert.ReferenceIdeal.RefMath.dot_eq_mm _ _).symm

/-- Layer 2, hop 1's region against the reference's product and sum: both add the hop's product to the running output. -/
theorem L2_r1 (hh : K m ρ c (Proc.devRef .tc Cert.KernelIdeal.main_v99) = R m' c (Proc.devRef .tc Cert.ReferenceIdeal.main_v105))
    (hw : K m ρ c (Proc.devRef .tc Cert.KernelIdeal.main_v101) = R m' c (Proc.devRef .tc Cert.ReferenceIdeal.main_v107))
    (ho : K m ρ c (Proc.devRef .tc Cert.KernelIdeal.main_v86) = R m' c (Proc.devRef .tc Cert.ReferenceIdeal.main_v92)) :
    K m ρ c (Proc.devRef .tc Cert.KernelIdeal.main_v102) = R m' c (Proc.devRef .tc Cert.ReferenceIdeal.main_v109) := by
  rw [Kwin m ρ c 131 1 Cert.KernelIdeal.main_v102 (by decide), Rwin m' c 135 2 Cert.ReferenceIdeal.main_v109 (by decide)]
  generalize hK : after (List.take 131 Cert.KernelIdeal.Fold.opsK) (Cert.KernelIdeal.Gen.W0 m ρ c) = VK
  generalize hR : after (List.take 135 (Cert.ReferenceIdeal.RefRun.ops (F := Ideal))) (launchContents m' c) = VR
  have eK0 : VK (Proc.devRef .tc Cert.KernelIdeal.main_v99) = K m ρ c (Proc.devRef .tc Cert.KernelIdeal.main_v99) := hK ▸ Ktake m ρ c 131 Cert.KernelIdeal.main_v99 (by decide)
  have eR0 : VR (Proc.devRef .tc Cert.ReferenceIdeal.main_v105) = R m' c (Proc.devRef .tc Cert.ReferenceIdeal.main_v105) := hR ▸ Rtake m' c 135 Cert.ReferenceIdeal.main_v105 (by decide)
  have eK1 : VK (Proc.devRef .tc Cert.KernelIdeal.main_v101) = K m ρ c (Proc.devRef .tc Cert.KernelIdeal.main_v101) := hK ▸ Ktake m ρ c 131 Cert.KernelIdeal.main_v101 (by decide)
  have eR1 : VR (Proc.devRef .tc Cert.ReferenceIdeal.main_v107) = R m' c (Proc.devRef .tc Cert.ReferenceIdeal.main_v107) := hR ▸ Rtake m' c 135 Cert.ReferenceIdeal.main_v107 (by decide)
  have eK2 : VK (Proc.devRef .tc Cert.KernelIdeal.main_v86) = K m ρ c (Proc.devRef .tc Cert.KernelIdeal.main_v86) := hK ▸ Ktake m ρ c 131 Cert.KernelIdeal.main_v86 (by decide)
  have eR2 : VR (Proc.devRef .tc Cert.ReferenceIdeal.main_v92) = R m' c (Proc.devRef .tc Cert.ReferenceIdeal.main_v92) := hR ▸ Rtake m' c 135 Cert.ReferenceIdeal.main_v92 (by decide)
  rw [show (Cert.KernelIdeal.Fold.opsK.drop 131).take 1 = [Cert.KernelIdeal.Fold.rop5] from rfl]
  simp only [Cert.KernelIdeal.Fold.rop5, Cert.ReferenceIdeal.RefRun.ops, List.cons_append, List.nil_append, List.append_nil, List.drop_succ_cons, List.drop_zero, List.take_succ_cons, List.take_zero]
  after_results_simp
  rw [eK0, eR0, eK1, eR1, eK2, eR2, hh, hw, ho]
  exact (Cert.ReferenceIdeal.RefMath.acc_eq _ _ _).symm

/-- Layer 2, hop 2's region against the reference's product and sum: both add the hop's product to the running output. -/
theorem L2_r2 (hh : K m ρ c (Proc.devRef .tc Cert.KernelIdeal.main_v115) = R m' c (Proc.devRef .tc Cert.ReferenceIdeal.main_v122))
    (hw : K m ρ c (Proc.devRef .tc Cert.KernelIdeal.main_v117) = R m' c (Proc.devRef .tc Cert.ReferenceIdeal.main_v124))
    (ho : K m ρ c (Proc.devRef .tc Cert.KernelIdeal.main_v102) = R m' c (Proc.devRef .tc Cert.ReferenceIdeal.main_v109)) :
    K m ρ c (Proc.devRef .tc Cert.KernelIdeal.main_v118) = R m' c (Proc.devRef .tc Cert.ReferenceIdeal.main_v126) := by
  rw [Kwin m ρ c 151 1 Cert.KernelIdeal.main_v118 (by decide), Rwin m' c 155 2 Cert.ReferenceIdeal.main_v126 (by decide)]
  generalize hK : after (List.take 151 Cert.KernelIdeal.Fold.opsK) (Cert.KernelIdeal.Gen.W0 m ρ c) = VK
  generalize hR : after (List.take 155 (Cert.ReferenceIdeal.RefRun.ops (F := Ideal))) (launchContents m' c) = VR
  have eK0 : VK (Proc.devRef .tc Cert.KernelIdeal.main_v115) = K m ρ c (Proc.devRef .tc Cert.KernelIdeal.main_v115) := hK ▸ Ktake m ρ c 151 Cert.KernelIdeal.main_v115 (by decide)
  have eR0 : VR (Proc.devRef .tc Cert.ReferenceIdeal.main_v122) = R m' c (Proc.devRef .tc Cert.ReferenceIdeal.main_v122) := hR ▸ Rtake m' c 155 Cert.ReferenceIdeal.main_v122 (by decide)
  have eK1 : VK (Proc.devRef .tc Cert.KernelIdeal.main_v117) = K m ρ c (Proc.devRef .tc Cert.KernelIdeal.main_v117) := hK ▸ Ktake m ρ c 151 Cert.KernelIdeal.main_v117 (by decide)
  have eR1 : VR (Proc.devRef .tc Cert.ReferenceIdeal.main_v124) = R m' c (Proc.devRef .tc Cert.ReferenceIdeal.main_v124) := hR ▸ Rtake m' c 155 Cert.ReferenceIdeal.main_v124 (by decide)
  have eK2 : VK (Proc.devRef .tc Cert.KernelIdeal.main_v102) = K m ρ c (Proc.devRef .tc Cert.KernelIdeal.main_v102) := hK ▸ Ktake m ρ c 151 Cert.KernelIdeal.main_v102 (by decide)
  have eR2 : VR (Proc.devRef .tc Cert.ReferenceIdeal.main_v109) = R m' c (Proc.devRef .tc Cert.ReferenceIdeal.main_v109) := hR ▸ Rtake m' c 155 Cert.ReferenceIdeal.main_v109 (by decide)
  rw [show (Cert.KernelIdeal.Fold.opsK.drop 151).take 1 = [Cert.KernelIdeal.Fold.rop6] from rfl]
  simp only [Cert.KernelIdeal.Fold.rop6, Cert.ReferenceIdeal.RefRun.ops, List.cons_append, List.nil_append, List.append_nil, List.drop_succ_cons, List.drop_zero, List.take_succ_cons, List.take_zero]
  after_results_simp
  rw [eK0, eR0, eK1, eR1, eK2, eR2, hh, hw, ho]
  exact (Cert.ReferenceIdeal.RefMath.acc_eq _ _ _).symm

/-- Layer 2's last region against the reference's product, sums and clamp: both add the last hop's product and the layer's bias row to the running output and clamp below at zero; the kernel's bias row is the bias vector reshaped to one row, the reference's the same vector broadcast along the nodes. -/
theorem L2_r3 (hh : K m ρ c (Proc.devRef .tc Cert.KernelIdeal.main_v131) = R m' c (Proc.devRef .tc Cert.ReferenceIdeal.main_v139))
    (hw : K m ρ c (Proc.devRef .tc Cert.KernelIdeal.main_v133) = R m' c (Proc.devRef .tc Cert.ReferenceIdeal.main_v141))
    (ho : K m ρ c (Proc.devRef .tc Cert.KernelIdeal.main_v118) = R m' c (Proc.devRef .tc Cert.ReferenceIdeal.main_v126))
    (hA4 : K m ρ c (Proc.devRef .tc Cert.KernelIdeal.main_arg4) = R m' c (Proc.devRef .tc Cert.ReferenceIdeal.main_arg4)) :
    K m ρ c (Proc.devRef .tc Cert.KernelIdeal.main_v137) = R m' c (Proc.devRef .tc Cert.ReferenceIdeal.main_v149) := by
  rw [Kwin m ρ c 170 5 Cert.KernelIdeal.main_v137 (by decide), Rwin m' c 175 10 Cert.ReferenceIdeal.main_v149 (by decide)]
  generalize hK : after (List.take 170 Cert.KernelIdeal.Fold.opsK) (Cert.KernelIdeal.Gen.W0 m ρ c) = VK
  generalize hR : after (List.take 175 (Cert.ReferenceIdeal.RefRun.ops (F := Ideal))) (launchContents m' c) = VR
  have eK0 : VK (Proc.devRef .tc Cert.KernelIdeal.main_v131) = K m ρ c (Proc.devRef .tc Cert.KernelIdeal.main_v131) := hK ▸ Ktake m ρ c 170 Cert.KernelIdeal.main_v131 (by decide)
  have eR0 : VR (Proc.devRef .tc Cert.ReferenceIdeal.main_v139) = R m' c (Proc.devRef .tc Cert.ReferenceIdeal.main_v139) := hR ▸ Rtake m' c 175 Cert.ReferenceIdeal.main_v139 (by decide)
  have eK1 : VK (Proc.devRef .tc Cert.KernelIdeal.main_v133) = K m ρ c (Proc.devRef .tc Cert.KernelIdeal.main_v133) := hK ▸ Ktake m ρ c 170 Cert.KernelIdeal.main_v133 (by decide)
  have eR1 : VR (Proc.devRef .tc Cert.ReferenceIdeal.main_v141) = R m' c (Proc.devRef .tc Cert.ReferenceIdeal.main_v141) := hR ▸ Rtake m' c 175 Cert.ReferenceIdeal.main_v141 (by decide)
  have eK2 : VK (Proc.devRef .tc Cert.KernelIdeal.main_v118) = K m ρ c (Proc.devRef .tc Cert.KernelIdeal.main_v118) := hK ▸ Ktake m ρ c 170 Cert.KernelIdeal.main_v118 (by decide)
  have eR2 : VR (Proc.devRef .tc Cert.ReferenceIdeal.main_v126) = R m' c (Proc.devRef .tc Cert.ReferenceIdeal.main_v126) := hR ▸ Rtake m' c 175 Cert.ReferenceIdeal.main_v126 (by decide)
  have eK3 : VK (Proc.devRef .tc Cert.KernelIdeal.main_arg4) = K m ρ c (Proc.devRef .tc Cert.KernelIdeal.main_arg4) := hK ▸ Ktake m ρ c 170 Cert.KernelIdeal.main_arg4 (by decide)
  have eR3 : VR (Proc.devRef .tc Cert.ReferenceIdeal.main_arg4) = R m' c (Proc.devRef .tc Cert.ReferenceIdeal.main_arg4) := hR ▸ Rtake m' c 175 Cert.ReferenceIdeal.main_arg4 (by decide)
  rw [show (Cert.KernelIdeal.Fold.opsK.drop 170).take 5 = ((Cert.KernelIdeal.Gen.hostOps7 (F := Ideal)).drop 18).take 4 ++ [Cert.KernelIdeal.Fold.rop7] from rfl]
  simp only [Cert.KernelIdeal.Gen.hostOps7, Cert.KernelIdeal.Fold.rop7, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hh, hw, ho, hA4]
  exact (Cert.ReferenceIdeal.RefMath.fin_eq _ _ _ _ _).symm

/-- Layer 2: from equal inputs, edge rows, normalisation weights, weight tensors and biases, the layer's outputs agree —
    the running output and the hops' aggregated features agree step by step, hop after hop. -/
theorem L2_out (hx : K m ρ c (Proc.devRef .tc Cert.KernelIdeal.main_v83) = R m' c (Proc.devRef .tc Cert.ReferenceIdeal.main_v89))
    (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hA3 : K m ρ c (Proc.devRef .tc Cert.KernelIdeal.main_arg3) = R m' c (Proc.devRef .tc Cert.ReferenceIdeal.main_arg3))
    (hA4 : K m ρ c (Proc.devRef .tc Cert.KernelIdeal.main_arg4) = R m' c (Proc.devRef .tc Cert.ReferenceIdeal.main_arg4)) :
    K m ρ c (Proc.devRef .tc Cert.KernelIdeal.main_v137) = R m' c (Proc.devRef .tc Cert.ReferenceIdeal.main_v149) := by
  have w0 := L2_w0 m ρ m' c hA3
  have w1 := L2_w1 m ρ m' c hA3
  have w2 := L2_w2 m ρ m' c hA3
  have w3 := L2_w3 m ρ m' c hA3
  have r0 := L2_r0 m ρ m' c hx w0
  have h1 := L2_h1 m ρ m' c hrow hcol hnrm hx
  have r1 := L2_r1 m ρ m' c h1 w1 r0
  have h2 := L2_h2 m ρ m' c hrow hcol hnrm h1
  have r2 := L2_r2 m ρ m' c h2 w2 r1
  have h3 := L2_h3 m ρ m' c hrow hcol hnrm h2
  exact L2_r3 m ρ m' c h3 w3 r2 hA4

end Cert.Bridge

end
-- ==== Proof.BridgeLayer3.lean ====
/-
  Layer 3 of the network, stretch by stretch.

  Between regions both programs run the same host operations (a hop's gather, scale and scatter-sum; a slice of the
  weight tensor; the bias row); each region computes what the reference computes with a matrix product, a sum and, at
  the layer's end, the bias and the clamp at zero. So every buffer of the layer agrees with its partner in the
  reference, given that the layer's input and the shared edge data agree.
-/
import proofs.«413670_j78391743086995_4_alg».proof.Proof.BridgeDefs
import proofs.«413670_j78391743086995_4_alg».proof.Proof.RefMath

set_option maxRecDepth 16384

noncomputable section

namespace Cert.Bridge

open Idealize.ShloMosaic Idealize.ShloMosaic.TcCoe Idealize.ShloMosaic.StableHlo Idealize.ShloMosaic.StableHlo.Ssa Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- Layer 3, hop 0's weight matrix: the same slice of the weight tensor, reshaped. -/
theorem L3_w0 (hA3 : K m ρ c (Proc.devRef .tc Cert.KernelIdeal.main_arg3) = R m' c (Proc.devRef .tc Cert.ReferenceIdeal.main_arg3)) :
    K m ρ c (Proc.devRef .tc Cert.KernelIdeal.main_v139) = R m' c (Proc.devRef .tc Cert.ReferenceIdeal.main_v151) := by
  rw [Kwin m ρ c 175 2 Cert.KernelIdeal.main_v139 (by decide), Rwin m' c 185 2 Cert.ReferenceIdeal.main_v151 (by decide)]
  generalize hK : after (List.take 175 Cert.KernelIdeal.Fold.opsK) (Cert.KernelIdeal.Gen.W0 m ρ c) = VK
  generalize hR : after (List.take 185 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 175 Cert.KernelIdeal.main_arg3 (by decide)
  have eR0 : VR (Proc.devRef .tc Cert.ReferenceIdeal.main_arg3) = R m' c (Proc.devRef .tc Cert.ReferenceIdeal.main_arg3) := hR ▸ Rtake m' c 185 Cert.ReferenceIdeal.main_arg3 (by decide)
  rw [show (Cert.KernelIdeal.Fold.opsK.drop 175).take 2 = ((Cert.KernelIdeal.Gen.hostOps8 (F := Ideal)).drop 0).take 2 from rfl]
  simp only [Cert.KernelIdeal.Gen.hostOps8, Cert.ReferenceIdeal.RefRun.ops, List.cons_append, List.nil_append, List.append_nil, List.drop_succ_cons, List.drop_zero, List.take_succ_cons, List.take_zero]
  after_results_simp
  rw [eK0, eR0, hA3]
  rfl

/-- Layer 3, hop 1's weight matrix: the same slice of the weight tensor, reshaped. -/
theorem L3_w1 (hA3 : K m ρ c (Proc.devRef .tc Cert.KernelIdeal.main_arg3) = R m' c (Proc.devRef .tc Cert.ReferenceIdeal.main_arg3)) :
    K m ρ c (Proc.devRef .tc Cert.KernelIdeal.main_v155) = R m' c (Proc.devRef .tc Cert.ReferenceIdeal.main_v167) := by
  rw [Kwin m ρ c 194 2 Cert.KernelIdeal.main_v155 (by decide), Rwin m' c 204 2 Cert.ReferenceIdeal.main_v167 (by decide)]
  generalize hK : after (List.take 194 Cert.KernelIdeal.Fold.opsK) (Cert.KernelIdeal.Gen.W0 m ρ c) = VK
  generalize hR : after (List.take 204 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 194 Cert.KernelIdeal.main_arg3 (by decide)
  have eR0 : VR (Proc.devRef .tc Cert.ReferenceIdeal.main_arg3) = R m' c (Proc.devRef .tc Cert.ReferenceIdeal.main_arg3) := hR ▸ Rtake m' c 204 Cert.ReferenceIdeal.main_arg3 (by decide)
  rw [show (Cert.KernelIdeal.Fold.opsK.drop 194).take 2 = ((Cert.KernelIdeal.Gen.hostOps9 (F := Ideal)).drop 16).take 2 from rfl]
  simp only [Cert.KernelIdeal.Gen.hostOps9, Cert.ReferenceIdeal.RefRun.ops, List.cons_append, List.nil_append, List.append_nil, List.drop_succ_cons, List.drop_zero, List.take_succ_cons, List.take_zero]
  after_results_simp
  rw [eK0, eR0, hA3]
  rfl

/-- Layer 3, hop 2's weight matrix: the same slice of the weight tensor, reshaped. -/
theorem L3_w2 (hA3 : K m ρ c (Proc.devRef .tc Cert.KernelIdeal.main_arg3) = R m' c (Proc.devRef .tc Cert.ReferenceIdeal.main_arg3)) :
    K m ρ c (Proc.devRef .tc Cert.KernelIdeal.main_v171) = R m' c (Proc.devRef .tc Cert.ReferenceIdeal.main_v184) := by
  rw [Kwin m ρ c 214 2 Cert.KernelIdeal.main_v171 (by decide), Rwin m' c 224 2 Cert.ReferenceIdeal.main_v184 (by decide)]
  generalize hK : after (List.take 214 Cert.KernelIdeal.Fold.opsK) (Cert.KernelIdeal.Gen.W0 m ρ c) = VK
  generalize hR : after (List.take 224 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 214 Cert.KernelIdeal.main_arg3 (by decide)
  have eR0 : VR (Proc.devRef .tc Cert.ReferenceIdeal.main_arg3) = R m' c (Proc.devRef .tc Cert.ReferenceIdeal.main_arg3) := hR ▸ Rtake m' c 224 Cert.ReferenceIdeal.main_arg3 (by decide)
  rw [show (Cert.KernelIdeal.Fold.opsK.drop 214).take 2 = ((Cert.KernelIdeal.Gen.hostOps10 (F := Ideal)).drop 16).take 2 from rfl]
  simp only [Cert.KernelIdeal.Gen.hostOps10, Cert.ReferenceIdeal.RefRun.ops, List.cons_append, List.nil_append, List.append_nil, List.drop_succ_cons, List.drop_zero, List.take_succ_cons, List.take_zero]
  after_results_simp
  rw [eK0, eR0, hA3]
  rfl

/-- Layer 3, hop 3's weight matrix: the same slice of the weight tensor, reshaped. -/
theorem L3_w3 (hA3 : K m ρ c (Proc.devRef .tc Cert.KernelIdeal.main_arg3) = R m' c (Proc.devRef .tc Cert.ReferenceIdeal.main_arg3)) :
    K m ρ c (Proc.devRef .tc Cert.KernelIdeal.main_v187) = R m' c (Proc.devRef .tc Cert.ReferenceIdeal.main_v201) := by
  rw [Kwin m ρ c 234 2 Cert.KernelIdeal.main_v187 (by decide), Rwin m' c 244 2 Cert.ReferenceIdeal.main_v201 (by decide)]
  generalize hK : after (List.take 234 Cert.KernelIdeal.Fold.opsK) (Cert.KernelIdeal.Gen.W0 m ρ c) = VK
  generalize hR : after (List.take 244 (Cert.ReferenceIdeal.RefRun.ops (F := Ideal))) (launchContents m' c) = VR
  have eK0 : VK (Proc.devRef .tc Cert.KernelIdeal.main_arg3) = K m ρ c (Proc.devRef .tc Cert.KernelIdeal.main_arg3) := hK ▸ Ktake m ρ c 234 Cert.KernelIdeal.main_arg3 (by decide)
  have eR0 : VR (Proc.devRef .tc Cert.ReferenceIdeal.main_arg3) = R m' c (Proc.devRef .tc Cert.ReferenceIdeal.main_arg3) := hR ▸ Rtake m' c 244 Cert.ReferenceIdeal.main_arg3 (by decide)
  rw [show (Cert.KernelIdeal.Fold.opsK.drop 234).take 2 = ((Cert.KernelIdeal.Gen.hostOps11 (F := Ideal)).drop 16).take 2 from rfl]
  simp only [Cert.KernelIdeal.Gen.hostOps11, Cert.ReferenceIdeal.RefRun.ops, List.cons_append, List.nil_append, List.append_nil, List.drop_succ_cons, List.drop_zero, List.take_succ_cons, List.take_zero]
  after_results_simp
  rw [eK0, eR0, hA3]
  rfl

/-- Layer 3, hop 1's aggregated features: the previous features gathered along the source row, scaled by the edge weights and summed into the target row's nodes, by the same operations on both sides. -/
theorem L3_h1 (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hx : K m ρ c (Proc.devRef .tc Cert.KernelIdeal.main_v137) = R m' c (Proc.devRef .tc Cert.ReferenceIdeal.main_v149)) :
    K m ρ c (Proc.devRef .tc Cert.KernelIdeal.main_v153) = R m' c (Proc.devRef .tc Cert.ReferenceIdeal.main_v165) := by
  rw [Kwin m ρ c 178 16 Cert.KernelIdeal.main_v153 (by decide), Rwin m' c 188 16 Cert.ReferenceIdeal.main_v165 (by decide)]
  generalize hK : after (List.take 178 Cert.KernelIdeal.Fold.opsK) (Cert.KernelIdeal.Gen.W0 m ρ c) = VK
  generalize hR : after (List.take 188 (Cert.ReferenceIdeal.RefRun.ops (F := Ideal))) (launchContents m' c) = VR
  have eK0 : VK (Proc.devRef .tc Cert.KernelIdeal.main_v1) = K m ρ c (Proc.devRef .tc Cert.KernelIdeal.main_v1) := hK ▸ Ktake m ρ c 178 Cert.KernelIdeal.main_v1 (by decide)
  have eR0 : VR (Proc.devRef .tc Cert.ReferenceIdeal.main_v1) = R m' c (Proc.devRef .tc Cert.ReferenceIdeal.main_v1) := hR ▸ Rtake m' c 188 Cert.ReferenceIdeal.main_v1 (by decide)
  have eK1 : VK (Proc.devRef .tc Cert.KernelIdeal.main_v3) = K m ρ c (Proc.devRef .tc Cert.KernelIdeal.main_v3) := hK ▸ Ktake m ρ c 178 Cert.KernelIdeal.main_v3 (by decide)
  have eR1 : VR (Proc.devRef .tc Cert.ReferenceIdeal.main_v3) = R m' c (Proc.devRef .tc Cert.ReferenceIdeal.main_v3) := hR ▸ Rtake m' c 188 Cert.ReferenceIdeal.main_v3 (by decide)
  have eK2 : VK (Proc.devRef .tc Cert.KernelIdeal.main_v29) = K m ρ c (Proc.devRef .tc Cert.KernelIdeal.main_v29) := hK ▸ Ktake m ρ c 178 Cert.KernelIdeal.main_v29 (by decide)
  have eR2 : VR (Proc.devRef .tc Cert.ReferenceIdeal.main_v29) = R m' c (Proc.devRef .tc Cert.ReferenceIdeal.main_v29) := hR ▸ Rtake m' c 188 Cert.ReferenceIdeal.main_v29 (by decide)
  have eK3 : VK (Proc.devRef .tc Cert.KernelIdeal.main_v137) = K m ρ c (Proc.devRef .tc Cert.KernelIdeal.main_v137) := hK ▸ Ktake m ρ c 178 Cert.KernelIdeal.main_v137 (by decide)
  have eR3 : VR (Proc.devRef .tc Cert.ReferenceIdeal.main_v149) = R m' c (Proc.devRef .tc Cert.ReferenceIdeal.main_v149) := hR ▸ Rtake m' c 188 Cert.ReferenceIdeal.main_v149 (by decide)
  rw [show (Cert.KernelIdeal.Fold.opsK.drop 178).take 16 = ((Cert.KernelIdeal.Gen.hostOps9 (F := Ideal)).drop 0).take 16 from rfl]
  simp only [Cert.KernelIdeal.Gen.hostOps9, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hrow, hcol, hnrm, hx]
  rfl

/-- Layer 3, hop 2's aggregated features: the previous features gathered along the source row, scaled by the edge weights and summed into the target row's nodes, by the same operations on both sides. -/
theorem L3_h2 (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hx : K m ρ c (Proc.devRef .tc Cert.KernelIdeal.main_v153) = R m' c (Proc.devRef .tc Cert.ReferenceIdeal.main_v165)) :
    K m ρ c (Proc.devRef .tc Cert.KernelIdeal.main_v169) = R m' c (Proc.devRef .tc Cert.ReferenceIdeal.main_v182) := by
  rw [Kwin m ρ c 198 16 Cert.KernelIdeal.main_v169 (by decide), Rwin m' c 208 16 Cert.ReferenceIdeal.main_v182 (by decide)]
  generalize hK : after (List.take 198 Cert.KernelIdeal.Fold.opsK) (Cert.KernelIdeal.Gen.W0 m ρ c) = VK
  generalize hR : after (List.take 208 (Cert.ReferenceIdeal.RefRun.ops (F := Ideal))) (launchContents m' c) = VR
  have eK0 : VK (Proc.devRef .tc Cert.KernelIdeal.main_v1) = K m ρ c (Proc.devRef .tc Cert.KernelIdeal.main_v1) := hK ▸ Ktake m ρ c 198 Cert.KernelIdeal.main_v1 (by decide)
  have eR0 : VR (Proc.devRef .tc Cert.ReferenceIdeal.main_v1) = R m' c (Proc.devRef .tc Cert.ReferenceIdeal.main_v1) := hR ▸ Rtake m' c 208 Cert.ReferenceIdeal.main_v1 (by decide)
  have eK1 : VK (Proc.devRef .tc Cert.KernelIdeal.main_v3) = K m ρ c (Proc.devRef .tc Cert.KernelIdeal.main_v3) := hK ▸ Ktake m ρ c 198 Cert.KernelIdeal.main_v3 (by decide)
  have eR1 : VR (Proc.devRef .tc Cert.ReferenceIdeal.main_v3) = R m' c (Proc.devRef .tc Cert.ReferenceIdeal.main_v3) := hR ▸ Rtake m' c 208 Cert.ReferenceIdeal.main_v3 (by decide)
  have eK2 : VK (Proc.devRef .tc Cert.KernelIdeal.main_v29) = K m ρ c (Proc.devRef .tc Cert.KernelIdeal.main_v29) := hK ▸ Ktake m ρ c 198 Cert.KernelIdeal.main_v29 (by decide)
  have eR2 : VR (Proc.devRef .tc Cert.ReferenceIdeal.main_v29) = R m' c (Proc.devRef .tc Cert.ReferenceIdeal.main_v29) := hR ▸ Rtake m' c 208 Cert.ReferenceIdeal.main_v29 (by decide)
  have eK3 : VK (Proc.devRef .tc Cert.KernelIdeal.main_v153) = K m ρ c (Proc.devRef .tc Cert.KernelIdeal.main_v153) := hK ▸ Ktake m ρ c 198 Cert.KernelIdeal.main_v153 (by decide)
  have eR3 : VR (Proc.devRef .tc Cert.ReferenceIdeal.main_v165) = R m' c (Proc.devRef .tc Cert.ReferenceIdeal.main_v165) := hR ▸ Rtake m' c 208 Cert.ReferenceIdeal.main_v165 (by decide)
  rw [show (Cert.KernelIdeal.Fold.opsK.drop 198).take 16 = ((Cert.KernelIdeal.Gen.hostOps10 (F := Ideal)).drop 0).take 16 from rfl]
  simp only [Cert.KernelIdeal.Gen.hostOps10, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hrow, hcol, hnrm, hx]
  rfl

/-- Layer 3, hop 3's aggregated features: the previous features gathered along the source row, scaled by the edge weights and summed into the target row's nodes, by the same operations on both sides. -/
theorem L3_h3 (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hx : K m ρ c (Proc.devRef .tc Cert.KernelIdeal.main_v169) = R m' c (Proc.devRef .tc Cert.ReferenceIdeal.main_v182)) :
    K m ρ c (Proc.devRef .tc Cert.KernelIdeal.main_v185) = R m' c (Proc.devRef .tc Cert.ReferenceIdeal.main_v199) := by
  rw [Kwin m ρ c 218 16 Cert.KernelIdeal.main_v185 (by decide), Rwin m' c 228 16 Cert.ReferenceIdeal.main_v199 (by decide)]
  generalize hK : after (List.take 218 Cert.KernelIdeal.Fold.opsK) (Cert.KernelIdeal.Gen.W0 m ρ c) = VK
  generalize hR : after (List.take 228 (Cert.ReferenceIdeal.RefRun.ops (F := Ideal))) (launchContents m' c) = VR
  have eK0 : VK (Proc.devRef .tc Cert.KernelIdeal.main_v1) = K m ρ c (Proc.devRef .tc Cert.KernelIdeal.main_v1) := hK ▸ Ktake m ρ c 218 Cert.KernelIdeal.main_v1 (by decide)
  have eR0 : VR (Proc.devRef .tc Cert.ReferenceIdeal.main_v1) = R m' c (Proc.devRef .tc Cert.ReferenceIdeal.main_v1) := hR ▸ Rtake m' c 228 Cert.ReferenceIdeal.main_v1 (by decide)
  have eK1 : VK (Proc.devRef .tc Cert.KernelIdeal.main_v3) = K m ρ c (Proc.devRef .tc Cert.KernelIdeal.main_v3) := hK ▸ Ktake m ρ c 218 Cert.KernelIdeal.main_v3 (by decide)
  have eR1 : VR (Proc.devRef .tc Cert.ReferenceIdeal.main_v3) = R m' c (Proc.devRef .tc Cert.ReferenceIdeal.main_v3) := hR ▸ Rtake m' c 228 Cert.ReferenceIdeal.main_v3 (by decide)
  have eK2 : VK (Proc.devRef .tc Cert.KernelIdeal.main_v29) = K m ρ c (Proc.devRef .tc Cert.KernelIdeal.main_v29) := hK ▸ Ktake m ρ c 218 Cert.KernelIdeal.main_v29 (by decide)
  have eR2 : VR (Proc.devRef .tc Cert.ReferenceIdeal.main_v29) = R m' c (Proc.devRef .tc Cert.ReferenceIdeal.main_v29) := hR ▸ Rtake m' c 228 Cert.ReferenceIdeal.main_v29 (by decide)
  have eK3 : VK (Proc.devRef .tc Cert.KernelIdeal.main_v169) = K m ρ c (Proc.devRef .tc Cert.KernelIdeal.main_v169) := hK ▸ Ktake m ρ c 218 Cert.KernelIdeal.main_v169 (by decide)
  have eR3 : VR (Proc.devRef .tc Cert.ReferenceIdeal.main_v182) = R m' c (Proc.devRef .tc Cert.ReferenceIdeal.main_v182) := hR ▸ Rtake m' c 228 Cert.ReferenceIdeal.main_v182 (by decide)
  rw [show (Cert.KernelIdeal.Fold.opsK.drop 218).take 16 = ((Cert.KernelIdeal.Gen.hostOps11 (F := Ideal)).drop 0).take 16 from rfl]
  simp only [Cert.KernelIdeal.Gen.hostOps11, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hrow, hcol, hnrm, hx]
  rfl

/-- Layer 3's first region against the reference's first product: both are the features times the first weight matrix. -/
theorem L3_r0 (hx : K m ρ c (Proc.devRef .tc Cert.KernelIdeal.main_v137) = R m' c (Proc.devRef .tc Cert.ReferenceIdeal.main_v149))
    (hw : K m ρ c (Proc.devRef .tc Cert.KernelIdeal.main_v139) = R m' c (Proc.devRef .tc Cert.ReferenceIdeal.main_v151)) :
    K m ρ c (Proc.devRef .tc Cert.KernelIdeal.main_v140) = R m' c (Proc.devRef .tc Cert.ReferenceIdeal.main_v152) := by
  rw [Kwin m ρ c 177 1 Cert.KernelIdeal.main_v140 (by decide), Rwin m' c 187 1 Cert.ReferenceIdeal.main_v152 (by decide)]
  generalize hK : after (List.take 177 Cert.KernelIdeal.Fold.opsK) (Cert.KernelIdeal.Gen.W0 m ρ c) = VK
  generalize hR : after (List.take 187 (Cert.ReferenceIdeal.RefRun.ops (F := Ideal))) (launchContents m' c) = VR
  have eK0 : VK (Proc.devRef .tc Cert.KernelIdeal.main_v137) = K m ρ c (Proc.devRef .tc Cert.KernelIdeal.main_v137) := hK ▸ Ktake m ρ c 177 Cert.KernelIdeal.main_v137 (by decide)
  have eR0 : VR (Proc.devRef .tc Cert.ReferenceIdeal.main_v149) = R m' c (Proc.devRef .tc Cert.ReferenceIdeal.main_v149) := hR ▸ Rtake m' c 187 Cert.ReferenceIdeal.main_v149 (by decide)
  have eK1 : VK (Proc.devRef .tc Cert.KernelIdeal.main_v139) = K m ρ c (Proc.devRef .tc Cert.KernelIdeal.main_v139) := hK ▸ Ktake m ρ c 177 Cert.KernelIdeal.main_v139 (by decide)
  have eR1 : VR (Proc.devRef .tc Cert.ReferenceIdeal.main_v151) = R m' c (Proc.devRef .tc Cert.ReferenceIdeal.main_v151) := hR ▸ Rtake m' c 187 Cert.ReferenceIdeal.main_v151 (by decide)
  rw [show (Cert.KernelIdeal.Fold.opsK.drop 177).take 1 = [Cert.KernelIdeal.Fold.rop8] from rfl]
  simp only [Cert.KernelIdeal.Fold.rop8, Cert.ReferenceIdeal.RefRun.ops, List.cons_append, List.nil_append, List.append_nil, List.drop_succ_cons, List.drop_zero, List.take_succ_cons, List.take_zero]
  after_results_simp
  rw [eK0, eR0, eK1, eR1, hx, hw]
  exact (Cert.ReferenceIdeal.RefMath.dot_eq_mm _ _).symm

/-- Layer 3, hop 1's region against the reference's product and sum: both add the hop's product to the running output. -/
theorem L3_r1 (hh : K m ρ c (Proc.devRef .tc Cert.KernelIdeal.main_v153) = R m' c (Proc.devRef .tc Cert.ReferenceIdeal.main_v165))
    (hw : K m ρ c (Proc.devRef .tc Cert.KernelIdeal.main_v155) = R m' c (Proc.devRef .tc Cert.ReferenceIdeal.main_v167))
    (ho : K m ρ c (Proc.devRef .tc Cert.KernelIdeal.main_v140) = R m' c (Proc.devRef .tc Cert.ReferenceIdeal.main_v152)) :
    K m ρ c (Proc.devRef .tc Cert.KernelIdeal.main_v156) = R m' c (Proc.devRef .tc Cert.ReferenceIdeal.main_v169) := by
  rw [Kwin m ρ c 197 1 Cert.KernelIdeal.main_v156 (by decide), Rwin m' c 206 2 Cert.ReferenceIdeal.main_v169 (by decide)]
  generalize hK : after (List.take 197 Cert.KernelIdeal.Fold.opsK) (Cert.KernelIdeal.Gen.W0 m ρ c) = VK
  generalize hR : after (List.take 206 (Cert.ReferenceIdeal.RefRun.ops (F := Ideal))) (launchContents m' c) = VR
  have eK0 : VK (Proc.devRef .tc Cert.KernelIdeal.main_v153) = K m ρ c (Proc.devRef .tc Cert.KernelIdeal.main_v153) := hK ▸ Ktake m ρ c 197 Cert.KernelIdeal.main_v153 (by decide)
  have eR0 : VR (Proc.devRef .tc Cert.ReferenceIdeal.main_v165) = R m' c (Proc.devRef .tc Cert.ReferenceIdeal.main_v165) := hR ▸ Rtake m' c 206 Cert.ReferenceIdeal.main_v165 (by decide)
  have eK1 : VK (Proc.devRef .tc Cert.KernelIdeal.main_v155) = K m ρ c (Proc.devRef .tc Cert.KernelIdeal.main_v155) := hK ▸ Ktake m ρ c 197 Cert.KernelIdeal.main_v155 (by decide)
  have eR1 : VR (Proc.devRef .tc Cert.ReferenceIdeal.main_v167) = R m' c (Proc.devRef .tc Cert.ReferenceIdeal.main_v167) := hR ▸ Rtake m' c 206 Cert.ReferenceIdeal.main_v167 (by decide)
  have eK2 : VK (Proc.devRef .tc Cert.KernelIdeal.main_v140) = K m ρ c (Proc.devRef .tc Cert.KernelIdeal.main_v140) := hK ▸ Ktake m ρ c 197 Cert.KernelIdeal.main_v140 (by decide)
  have eR2 : VR (Proc.devRef .tc Cert.ReferenceIdeal.main_v152) = R m' c (Proc.devRef .tc Cert.ReferenceIdeal.main_v152) := hR ▸ Rtake m' c 206 Cert.ReferenceIdeal.main_v152 (by decide)
  rw [show (Cert.KernelIdeal.Fold.opsK.drop 197).take 1 = [Cert.KernelIdeal.Fold.rop9] from rfl]
  simp only [Cert.KernelIdeal.Fold.rop9, Cert.ReferenceIdeal.RefRun.ops, List.cons_append, List.nil_append, List.append_nil, List.drop_succ_cons, List.drop_zero, List.take_succ_cons, List.take_zero]
  after_results_simp
  rw [eK0, eR0, eK1, eR1, eK2, eR2, hh, hw, ho]
  exact (Cert.ReferenceIdeal.RefMath.acc_eq _ _ _).symm

/-- Layer 3, hop 2's region against the reference's product and sum: both add the hop's product to the running output. -/
theorem L3_r2 (hh : K m ρ c (Proc.devRef .tc Cert.KernelIdeal.main_v169) = R m' c (Proc.devRef .tc Cert.ReferenceIdeal.main_v182))
    (hw : K m ρ c (Proc.devRef .tc Cert.KernelIdeal.main_v171) = R m' c (Proc.devRef .tc Cert.ReferenceIdeal.main_v184))
    (ho : K m ρ c (Proc.devRef .tc Cert.KernelIdeal.main_v156) = R m' c (Proc.devRef .tc Cert.ReferenceIdeal.main_v169)) :
    K m ρ c (Proc.devRef .tc Cert.KernelIdeal.main_v172) = R m' c (Proc.devRef .tc Cert.ReferenceIdeal.main_v186) := by
  rw [Kwin m ρ c 217 1 Cert.KernelIdeal.main_v172 (by decide), Rwin m' c 226 2 Cert.ReferenceIdeal.main_v186 (by decide)]
  generalize hK : after (List.take 217 Cert.KernelIdeal.Fold.opsK) (Cert.KernelIdeal.Gen.W0 m ρ c) = VK
  generalize hR : after (List.take 226 (Cert.ReferenceIdeal.RefRun.ops (F := Ideal))) (launchContents m' c) = VR
  have eK0 : VK (Proc.devRef .tc Cert.KernelIdeal.main_v169) = K m ρ c (Proc.devRef .tc Cert.KernelIdeal.main_v169) := hK ▸ Ktake m ρ c 217 Cert.KernelIdeal.main_v169 (by decide)
  have eR0 : VR (Proc.devRef .tc Cert.ReferenceIdeal.main_v182) = R m' c (Proc.devRef .tc Cert.ReferenceIdeal.main_v182) := hR ▸ Rtake m' c 226 Cert.ReferenceIdeal.main_v182 (by decide)
  have eK1 : VK (Proc.devRef .tc Cert.KernelIdeal.main_v171) = K m ρ c (Proc.devRef .tc Cert.KernelIdeal.main_v171) := hK ▸ Ktake m ρ c 217 Cert.KernelIdeal.main_v171 (by decide)
  have eR1 : VR (Proc.devRef .tc Cert.ReferenceIdeal.main_v184) = R m' c (Proc.devRef .tc Cert.ReferenceIdeal.main_v184) := hR ▸ Rtake m' c 226 Cert.ReferenceIdeal.main_v184 (by decide)
  have eK2 : VK (Proc.devRef .tc Cert.KernelIdeal.main_v156) = K m ρ c (Proc.devRef .tc Cert.KernelIdeal.main_v156) := hK ▸ Ktake m ρ c 217 Cert.KernelIdeal.main_v156 (by decide)
  have eR2 : VR (Proc.devRef .tc Cert.ReferenceIdeal.main_v169) = R m' c (Proc.devRef .tc Cert.ReferenceIdeal.main_v169) := hR ▸ Rtake m' c 226 Cert.ReferenceIdeal.main_v169 (by decide)
  rw [show (Cert.KernelIdeal.Fold.opsK.drop 217).take 1 = [Cert.KernelIdeal.Fold.rop10] from rfl]
  simp only [Cert.KernelIdeal.Fold.rop10, Cert.ReferenceIdeal.RefRun.ops, List.cons_append, List.nil_append, List.append_nil, List.drop_succ_cons, List.drop_zero, List.take_succ_cons, List.take_zero]
  after_results_simp
  rw [eK0, eR0, eK1, eR1, eK2, eR2, hh, hw, ho]
  exact (Cert.ReferenceIdeal.RefMath.acc_eq _ _ _).symm

/-- Layer 3's last region against the reference's product, sums and clamp: both add the last hop's product and the layer's bias row to the running output and clamp below at zero; the kernel's bias row is the bias vector reshaped to one row, the reference's the same vector broadcast along the nodes. -/
theorem L3_r3 (hh : K m ρ c (Proc.devRef .tc Cert.KernelIdeal.main_v185) = R m' c (Proc.devRef .tc Cert.ReferenceIdeal.main_v199))
    (hw : K m ρ c (Proc.devRef .tc Cert.KernelIdeal.main_v187) = R m' c (Proc.devRef .tc Cert.ReferenceIdeal.main_v201))
    (ho : K m ρ c (Proc.devRef .tc Cert.KernelIdeal.main_v172) = R m' c (Proc.devRef .tc Cert.ReferenceIdeal.main_v186))
    (hA4 : K m ρ c (Proc.devRef .tc Cert.KernelIdeal.main_arg4) = R m' c (Proc.devRef .tc Cert.ReferenceIdeal.main_arg4)) :
    K m ρ c (Proc.devRef .tc Cert.KernelIdeal.main_v191) = R m' c (Proc.devRef .tc Cert.ReferenceIdeal.main_v209) := by
  rw [Kwin m ρ c 236 5 Cert.KernelIdeal.main_v191 (by decide), Rwin m' c 246 10 Cert.ReferenceIdeal.main_v209 (by decide)]
  generalize hK : after (List.take 236 Cert.KernelIdeal.Fold.opsK) (Cert.KernelIdeal.Gen.W0 m ρ c) = VK
  generalize hR : after (List.take 246 (Cert.ReferenceIdeal.RefRun.ops (F := Ideal))) (launchContents m' c) = VR
  have eK0 : VK (Proc.devRef .tc Cert.KernelIdeal.main_v185) = K m ρ c (Proc.devRef .tc Cert.KernelIdeal.main_v185) := hK ▸ Ktake m ρ c 236 Cert.KernelIdeal.main_v185 (by decide)
  have eR0 : VR (Proc.devRef .tc Cert.ReferenceIdeal.main_v199) = R m' c (Proc.devRef .tc Cert.ReferenceIdeal.main_v199) := hR ▸ Rtake m' c 246 Cert.ReferenceIdeal.main_v199 (by decide)
  have eK1 : VK (Proc.devRef .tc Cert.KernelIdeal.main_v187) = K m ρ c (Proc.devRef .tc Cert.KernelIdeal.main_v187) := hK ▸ Ktake m ρ c 236 Cert.KernelIdeal.main_v187 (by decide)
  have eR1 : VR (Proc.devRef .tc Cert.ReferenceIdeal.main_v201) = R m' c (Proc.devRef .tc Cert.ReferenceIdeal.main_v201) := hR ▸ Rtake m' c 246 Cert.ReferenceIdeal.main_v201 (by decide)
  have eK2 : VK (Proc.devRef .tc Cert.KernelIdeal.main_v172) = K m ρ c (Proc.devRef .tc Cert.KernelIdeal.main_v172) := hK ▸ Ktake m ρ c 236 Cert.KernelIdeal.main_v172 (by decide)
  have eR2 : VR (Proc.devRef .tc Cert.ReferenceIdeal.main_v186) = R m' c (Proc.devRef .tc Cert.ReferenceIdeal.main_v186) := hR ▸ Rtake m' c 246 Cert.ReferenceIdeal.main_v186 (by decide)
  have eK3 : VK (Proc.devRef .tc Cert.KernelIdeal.main_arg4) = K m ρ c (Proc.devRef .tc Cert.KernelIdeal.main_arg4) := hK ▸ Ktake m ρ c 236 Cert.KernelIdeal.main_arg4 (by decide)
  have eR3 : VR (Proc.devRef .tc Cert.ReferenceIdeal.main_arg4) = R m' c (Proc.devRef .tc Cert.ReferenceIdeal.main_arg4) := hR ▸ Rtake m' c 246 Cert.ReferenceIdeal.main_arg4 (by decide)
  rw [show (Cert.KernelIdeal.Fold.opsK.drop 236).take 5 = ((Cert.KernelIdeal.Gen.hostOps11 (F := Ideal)).drop 18).take 4 ++ [Cert.KernelIdeal.Fold.rop11] from rfl]
  simp only [Cert.KernelIdeal.Gen.hostOps11, Cert.KernelIdeal.Fold.rop11, Cert.ReferenceIdeal.RefRun.ops, List.cons_append, List.nil_append, List.append_nil, List.drop_succ_cons, List.drop_zero, List.take_succ_cons, List.take_zero]
  after_results_simp
  rw [eK0, eR0, eK1, eR1, eK2, eR2, eK3, eR3, hh, hw, ho, hA4]
  exact (Cert.ReferenceIdeal.RefMath.fin_eq _ _ _ _ _).symm

/-- Layer 3: from equal inputs, edge rows, normalisation weights, weight tensors and biases, the layer's outputs agree —
    the running output and the hops' aggregated features agree step by step, hop after hop. -/
theorem L3_out (hx : K m ρ c (Proc.devRef .tc Cert.KernelIdeal.main_v137) = R m' c (Proc.devRef .tc Cert.ReferenceIdeal.main_v149))
    (hrow : K m ρ c (Proc.devRef .tc Cert.KernelIdeal.main_v1) = R m' c (Proc.devRef .tc Cert.ReferenceIdeal.main_v1))
    (hcol : K m ρ c (Proc.devRef .tc Cert.KernelIdeal.main_v3) = R m' c (Proc.devRef .tc Cert.ReferenceIdeal.main_v3))
    (hnrm : K m ρ c (Proc.devRef .tc Cert.KernelIdeal.main_v29) = R m' c (Proc.devRef .tc Cert.ReferenceIdeal.main_v29))
    (hA3 : K m ρ c (Proc.devRef .tc Cert.KernelIdeal.main_arg3) = R m' c (Proc.devRef .tc Cert.ReferenceIdeal.main_arg3))
    (hA4 : K m ρ c (Proc.devRef .tc Cert.KernelIdeal.main_arg4) = R m' c (Proc.devRef .tc Cert.ReferenceIdeal.main_arg4)) :
    K m ρ c (Proc.devRef .tc Cert.KernelIdeal.main_v191) = R m' c (Proc.devRef .tc Cert.ReferenceIdeal.main_v209) := by
  have w0 := L3_w0 m ρ m' c hA3
  have w1 := L3_w1 m ρ m' c hA3
  have w2 := L3_w2 m ρ m' c hA3
  have w3 := L3_w3 m ρ m' c hA3
  have r0 := L3_r0 m ρ m' c hx w0
  have h1 := L3_h1 m ρ m' c hrow hcol hnrm hx
  have r1 := L3_r1 m ρ m' c h1 w1 r0
  have h2 := L3_h2 m ρ m' c hrow hcol hnrm h1
  have r2 := L3_r2 m ρ m' c h2 w2 r1
  have h3 := L3_h3 m ρ m' c hrow hcol hnrm h2
  exact L3_r3 m ρ m' c h3 w3 r2 hA4

end Cert.Bridge

end
-- ==== Proof.BridgeTop.lean ====
/-
  The two programs' results agree.

  From launch memories that agree on the five arguments, the arguments' final contents agree (nothing writes an
  argument); so do the edge rows and the normalisation weights; then layer by layer the outputs agree, each layer's
  input being the previous layer's output; the third layer's output is each program's result.
-/
import proofs.«413670_j78391743086995_4_alg».proof.Proof.BridgeNorm
import proofs.«413670_j78391743086995_4_alg».proof.Proof.BridgeLayer1
import proofs.«413670_j78391743086995_4_alg».proof.Proof.BridgeLayer2
import proofs.«413670_j78391743086995_4_alg».proof.Proof.BridgeLayer3

noncomputable section

namespace Cert.Bridge

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The kernel program's result buffer and the reference's end with the same contents. -/
theorem result_eq
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    K m ρ c (Proc.devRef .tc Cert.KernelIdeal.main_v191) = R m' c (Proc.devRef .tc Cert.ReferenceIdeal.main_v209) := by
  have a0 : K m ρ c (Proc.devRef .tc Cert.KernelIdeal.main_arg0) = R m' c (Proc.devRef .tc Cert.ReferenceIdeal.main_arg0) :=
    (Karg m ρ c _ (by decide)).trans (h0.symm.trans (Rarg m' c _ (by decide)).symm)
  have a1 : K m ρ c (Proc.devRef .tc Cert.KernelIdeal.main_arg1) = R m' c (Proc.devRef .tc Cert.ReferenceIdeal.main_arg1) :=
    (Karg m ρ c _ (by decide)).trans (h1.symm.trans (Rarg m' c _ (by decide)).symm)
  have a2 : K m ρ c (Proc.devRef .tc Cert.KernelIdeal.main_arg2) = R m' c (Proc.devRef .tc Cert.ReferenceIdeal.main_arg2) :=
    (Karg m ρ c _ (by decide)).trans (h2.symm.trans (Rarg m' c _ (by decide)).symm)
  have a3 : K m ρ c (Proc.devRef .tc Cert.KernelIdeal.main_arg3) = R m' c (Proc.devRef .tc Cert.ReferenceIdeal.main_arg3) :=
    (Karg m ρ c _ (by decide)).trans (h3.symm.trans (Rarg m' c _ (by decide)).symm)
  have a4 : K m ρ c (Proc.devRef .tc Cert.KernelIdeal.main_arg4) = R m' c (Proc.devRef .tc Cert.ReferenceIdeal.main_arg4) :=
    (Karg m ρ c _ (by decide)).trans (h4.symm.trans (Rarg m' c _ (by decide)).symm)
  have row := norm_row m ρ m' c a1
  have col := norm_col m ρ m' c a1
  have nrm := norm_nrm m ρ m' c a1 a2
  have x1 := L1_out m ρ m' c a0 row col nrm a3 a4
  have x2 := L2_out m ρ m' c x1 row col nrm a3 a4
  exact L3_out m ρ m' c x2 row col nrm a3 a4

end Cert.Bridge

end
-- ==== Proof.lean ====
/-
  A three-layer graph network (TAGConv: per layer three hops of normalised sparse aggregation, a dense product per hop,
  a bias and a clamp at zero), its dense products computed by Pallas regions over 2000-row blocks, against the plain
  jnp reference, over the extended reals.

  The two programs run the same host operations on the same arguments — the edge rows, the normalisation weights, each
  hop's gather, scale and scatter-sum, the slices of the weight tensor and of the bias — and differ only where the
  kernel launches a region: there the reference has a matrix product, followed by a sum with the running output and, at
  a layer's end, by the bias row and the clamp. A region's blocks hold whole rows and the contraction runs over all 32
  columns inside a block, so each region's result array is, entry by entry, exactly that product (plus sum, bias and
  clamp): no sum is reordered and no law beyond the definitions is used. Reading both programs as lines of
  single-assignment operations over their final buffer contents, every buffer of the kernel program agrees with its
  partner in the reference, stretch by stretch, and so do the results.

  The three frames are the generated ones (the reference's is its run with the values dropped); the idealization
  rewrote nothing, so `preserves` is trivial.
-/
import proofs.«413670_j78391743086995_4_alg».proof.Defs
import proofs.«413670_j78391743086995_4_alg».proof.Proof.Gen.Kernel
import proofs.«413670_j78391743086995_4_alg».proof.Proof.Gen.Kernel.Frame
import proofs.«413670_j78391743086995_4_alg».proof.Proof.Gen.KernelIdeal
import proofs.«413670_j78391743086995_4_alg».proof.Proof.Gen.KernelIdeal.Frame
import proofs.«413670_j78391743086995_4_alg».proof.Proof.Gen.ReferenceIdeal
import proofs.«413670_j78391743086995_4_alg».proof.Proof.Gen.Pre_finite_inputs
import proofs.«413670_j78391743086995_4_alg».proof.Proof.KernelRun
import proofs.«413670_j78391743086995_4_alg».proof.Proof.BridgeTop
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, every buffer at the fold of its operations, read at the arguments, which nothing
    writes. -/
theorem frame_referenceIdeal : Cert.frame_ReferenceIdeal := fun m ρ _ =>
  (θ_run Cert.ReferenceIdeal.defs _ _).mono
    (fun _ h c => ⟨(h c Cert.ReferenceIdeal.main_arg0).trans (Cert.Bridge.Rarg _ c _ (by decide)),
      (h c Cert.ReferenceIdeal.main_arg1).trans (Cert.Bridge.Rarg _ c _ (by decide)),
      (h c Cert.ReferenceIdeal.main_arg2).trans (Cert.Bridge.Rarg _ c _ (by decide)),
      (h c Cert.ReferenceIdeal.main_arg3).trans (Cert.Bridge.Rarg _ c _ (by decide)),
      (h c Cert.ReferenceIdeal.main_arg4).trans (Cert.Bridge.Rarg _ c _ (by decide))⟩)
    (Cert.ReferenceIdeal.RefRun.run_after (F := Ideal) m ρ)

theorem preserves : Cert.preserves_Kernel_KernelIdeal := trivial

/-- Both runs end with the same result: the kernel program's result buffer at the last segment boundary's contents, the
    reference's at its line's fold, and those two agree. -/
theorem algebraic : Cert.algebraic_KernelIdeal_ReferenceIdeal := by
  intro m ρ m' ρ' _ hagree
  refine ⟨fun c => Cert.KernelIdeal.Gen.W28 m ρ c (Proc.devRef .tc Cert.KernelIdeal.main_v191),
    Cert.KernelIdeal.GenRun.run_result m ρ, ?_⟩
  refine (θ_run Cert.ReferenceIdeal.defs _ _).mono
    (fun _ h c => ⟨(h c Cert.ReferenceIdeal.main_v209).trans ?_,
      (h c Cert.ReferenceIdeal.main_arg0).trans (Cert.Bridge.Rarg _ c _ (by decide)),
      (h c Cert.ReferenceIdeal.main_arg1).trans (Cert.Bridge.Rarg _ c _ (by decide)),
      (h c Cert.ReferenceIdeal.main_arg2).trans (Cert.Bridge.Rarg _ c _ (by decide)),
      (h c Cert.ReferenceIdeal.main_arg3).trans (Cert.Bridge.Rarg _ c _ (by decide)),
      (h c Cert.ReferenceIdeal.main_arg4).trans (Cert.Bridge.Rarg _ c _ (by decide))⟩)
    (Cert.ReferenceIdeal.RefRun.run_after (F := Ideal) m' ρ')
  exact ((congrFun (Cert.KernelIdeal.Fold.fold_eq m ρ c) _).trans
    (Cert.Bridge.result_eq m ρ m' c (hagree c).1 (hagree c).2.1 (hagree c).2.2.1 (hagree c).2.2.2.1 (hagree c).2.2.2.2)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
